-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000x32 : Shape := ⟨2, ![1600000, 32]⟩
abbrev S1600000 : Shape := ⟨1, ![1600000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S160x16 : Shape := ⟨2, ![160, 16]⟩
abbrev S16x8 : Shape := ⟨2, ![16, 8]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S160x16 : S_.BroadcastsInDim S160x16 (![] : Fin 0 → Fin S160x16.rank)
  reducesTo_S160x16_S_d0_1 : S160x16.ReducesTo [0, 1] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S16 .f32) (main_arg14 : FVec F S16x8 .f32) (main_arg15 : FVec F S8 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x8 .f32 := Host.absf main_arg14
  let main_cst_22 : FVec F S_ .f32 := constant S_ .f32 0x7F800000#32
  let main_v60 : FVec F S16x8 .f32 := broadcastInDim S16x8 ![] bcast_S_S16x8 main_cst_22
  let main_v61 : IVec S16x8 1 := cmpf .olt main_v59 main_v60
  let main_c_23 : IVec S_ 1 := constantI S_ 1 1#1
  let main_v62 : IVec S_ 1 := (fun x v => Host.reduce IntOp.andi x v reducesTo_S16x8_S_d0_1 h_S_) main_v61 main_c_23
  let main_v63 : IVec S_ 1 := andi main_v58 main_v62
  let main_v64 : FVec F S8 .f32 := Host.absf main_arg15
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_v63 main_v67

def fn_part2 {F : FTy → Type} [FloatOps F] (main_arg9 : FVec F S64 .f32) (main_arg10 : FVec F S160x16 .f32) (main_arg11 : FVec F S16 .f32) (main_arg12 : FVec F S16 .f32) (main_arg13 : FVec F S16 .f32) (main_arg14 : FVec F S16x8 .f32) (main_arg15 : FVec F S8 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S160x16 .f32 := Host.absf main_arg10
  let main_cst_14 : FVec F S_ .f32 := constant S_ .f32 0x7F800000#32
  let main_v40 : FVec F S160x16 .f32 := broadcastInDim S160x16 ![] bcast_S_S160x16 main_cst_14
  let main_v41 : IVec S160x16 1 := cmpf .olt main_v39 main_v40
  let main_c_15 : IVec S_ 1 := constantI S_ 1 1#1
  let main_v42 : IVec S_ 1 := (fun x v => Host.reduce IntOp.andi x v reducesTo_S160x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg13 main_arg14 main_arg15 main_v48 main_v49 main_v50

def fn_part1 {F : FTy → Type} [FloatOps F] (main_arg6 : FVec F S16 .f32) (main_arg7 : FVec F S16 .f32) (main_arg8 : FVec F S16x64 .f32) (main_arg9 : FVec F S64 .f32) (main_arg10 : FVec F S160x16 .f32) (main_arg11 : FVec F S16 .f32) (main_arg12 : FVec F S16 .f32) (main_arg13 : FVec F S16 .f32) (main_arg14 : FVec F S16x8 .f32) (main_arg15 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x64 .f32 := Host.absf main_arg8
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S1600000x32 .f32) (main_arg2 : IVec S1600000 32) (main_arg3 : IVec S1600000 32) (main_arg4 : FVec F S128x16 .f32) (main_arg5 : FVec F S16 .f32) (main_arg6 : FVec F S16 .f32) (main_arg7 : FVec F S16 .f32) (main_arg8 : FVec F S16x64 .f32) (main_arg9 : FVec F S64 .f32) (main_arg10 : FVec F S160x16 .f32) (main_arg11 : FVec F S16 .f32) (main_arg12 : FVec F S16 .f32) (main_arg13 : FVec F S16 .f32) (main_arg14 : FVec F S16x8 .f32) (main_arg15 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S1600000x32 : Shape := ⟨2, ![1600000, 32]⟩
abbrev S1600000 : Shape := ⟨1, ![1600000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S160x16 : Shape := ⟨2, ![160, 16]⟩
abbrev S16x8 : Shape := ⟨2, ![16, 8]⟩
abbrev S8 : Shape := ⟨1, ![8]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x16 : Shape := ⟨2, ![50000, 16]⟩
abbrev S2000x128 : Shape := ⟨2, ![2000, 128]⟩
abbrev S2000x1 : Shape := ⟨2, ![2000, 1]⟩
abbrev S2000x16 : Shape := ⟨2, ![2000, 16]⟩
abbrev S1600000x16 : Shape := ⟨2, ![1600000, 16]⟩
abbrev S1x16 : Shape := ⟨2, ![1, 16]⟩
abbrev S50000x64 : Shape := ⟨2, ![50000, 64]⟩
abbrev S2000x64 : Shape := ⟨2, ![2000, 64]⟩
abbrev S1600000x64 : Shape := ⟨2, ![1600000, 64]⟩
abbrev S1x64 : Shape := ⟨2, ![1, 64]⟩
abbrev S32x16 : Shape := ⟨2, ![32, 16]⟩
abbrev S64x16 : Shape := ⟨2, ![64, 16]⟩
abbrev S8000x32 : Shape := ⟨2, ![8000, 32]⟩
abbrev S8000x64 : Shape := ⟨2, ![8000, 64]⟩
abbrev S8000x16 : Shape := ⟨2, ![8000, 16]⟩
abbrev S1x8 : Shape := ⟨2, ![1, 8]⟩
abbrev S1600000x8 : Shape := ⟨2, ![1600000, 8]⟩
abbrev S8000x8 : Shape := ⟨2, ![8000, 8]⟩
abbrev S8000 : Shape := ⟨1, ![8000]⟩
abbrev S8000x1 : Shape := ⟨2, ![8000, 1]⟩

abbrev nBuf : Space → Nat
  | .hbm => 187
  | .vmem => 36
  | .smem => 0
  | _ => 0

abbrev hbmTy0_0 (i : Nat) : BufTy := match i % 128 with
  | 0 => ⟨S50000x128, .f32⟩
  | 1 => ⟨S1600000x32, .f32⟩
  | 2 => ⟨S1600000, .i32⟩
  | 3 => ⟨S1600000, .i32⟩
  | 4 => ⟨S128x16, .f32⟩
  | 5 => ⟨S16, .f32⟩
  | 6 => ⟨S16, .f32⟩
  | 7 => ⟨S16, .f32⟩
  | 8 => ⟨S16x64, .f32⟩
  | 9 => ⟨S64, .f32⟩
  | 10 => ⟨S160x16, .f32⟩
  | 11 => ⟨S16, .f32⟩
  | 12 => ⟨S16, .f32⟩
  | 13 => ⟨S16, .f32⟩
  | 14 => ⟨S16x8, .f32⟩
  | 15 => ⟨S8, .f32⟩
  | 16 => ⟨S_, .f32⟩
  | 17 => ⟨S1600000, .f32⟩
  | 18 => ⟨S_, .f32⟩
  | 19 => ⟨S50000, .f32⟩
  | 20 => ⟨S1600000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S1600000, .f32⟩
  | 27 => ⟨S_, .f32⟩
  | 28 => ⟨S50000, .f32⟩
  | 29 => ⟨S1600000x1, .i32⟩
  | 30 => ⟨S50000, .f32⟩
  | 31 => ⟨S_, .f32⟩
  | 32 => ⟨S50000, .f32⟩
  | 33 => ⟨S50000, .f32⟩
  | 34 => ⟨S50000, .f32⟩
  | 35 => ⟨S50000, .f32⟩
  | 36 => ⟨S50000x1, .f32⟩
  | 37 => ⟨S50000x1, .f32⟩
  | 38 => ⟨S50000x16, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x16, .f32⟩
  | 48 => ⟨S_, .f32⟩
  | 49 => ⟨S50000x16, .f32⟩
  | 50 => ⟨S1600000x1, .i32⟩
  | 51 => ⟨S50000x16, .f32⟩
  | 52 => ⟨S50000x16, .f32⟩
  | 53 => ⟨S50000x16, .f32⟩
  | 54 => ⟨S1x16, .f32⟩
  | 55 => ⟨S50000x16, .f32⟩
  | 56 => ⟨S50000x16, .f32⟩
  | 57 => ⟨S_, .f32⟩
  | 58 => ⟨S50000x16, .f32⟩
  | 59 => ⟨S50000x16, .f32⟩
  | 60 => ⟨S_, .f32⟩
  | 61 => ⟨S16, .f32⟩
  | 62 => ⟨S_, .f32⟩
  | 63 => ⟨S16, .f32⟩
  | 64 => ⟨S16, .f32⟩
  | 65 => ⟨S_, .i32⟩
  | 66 => ⟨S_, .f32⟩
  | 67 => ⟨S16, .f32⟩
  | 68 => ⟨S1x16, .f32⟩
  | 69 => ⟨S_, .f32⟩
  | 70 => ⟨S1x16, .f32⟩
  | 71 => ⟨S1x16, .f32⟩
  | 72 => ⟨S50000x16, .f32⟩
  | 73 => ⟨S50000x16, .f32⟩
  | 74 => ⟨S50000x16, .f32⟩
  | 75 => ⟨S_, .f32⟩
  | 76 => ⟨S_, .f32⟩
  | 77 => ⟨S_, .f32⟩
  | 78 => ⟨S_, .f32⟩
  | 79 => ⟨S16, .f32⟩
  | 80 => ⟨S16, .f32⟩
  | 81 => ⟨S16, .f32⟩
  | 82 => ⟨S_, .f32⟩
  | 83 => ⟨S_, .i1⟩
  | 84 => ⟨S_, .f32⟩
  | 85 => ⟨S_, .f32⟩
  | 86 => ⟨S16, .f32⟩
  | 87 => ⟨S16, .f32⟩
  | 88 => ⟨S1x16, .f32⟩
  | 89 => ⟨S50000x16, .f32⟩
  | 90 => ⟨S50000x16, .f32⟩
  | 91 => ⟨S_, .f32⟩
  | 92 => ⟨S16, .f32⟩
  | 93 => ⟨S16, .f32⟩
  | 94 => ⟨S16, .f32⟩
  | 95 => ⟨S1x16, .f32⟩
  | 96 => ⟨S50000x16, .f32⟩
  | 97 => ⟨S50000x16, .f32⟩
  | 98 => ⟨S1x16, .f32⟩
  | 99 => ⟨S50000x16, .f32⟩
  | 100 => ⟨S50000x16, .f32⟩
  | 101 => ⟨S1x16, .f32⟩
  | 102 => ⟨S50000x16, .f32⟩
  | 103 => ⟨S50000x16, .f32⟩
  | 104 => ⟨S50000x1, .f32⟩
  | 105 => ⟨S50000x64, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S_, .f32⟩
  | 116 => ⟨S50000x64, .f32⟩
  | 117 => ⟨S1600000x1, .i32⟩
  | 118 => ⟨S50000x64, .f32⟩
  | 119 => ⟨S50000x64, .f32⟩
  | 120 => ⟨S50000x64, .f32⟩
  | 121 => ⟨S1x64, .f32⟩
  | 122 => ⟨S50000x64, .f32⟩
  | 123 => ⟨S50000x64, .f32⟩
  | 124 => ⟨S32x16, .f32⟩
  | 125 => ⟨S64x16, .f32⟩
  | 126 => ⟨S64x16, .f32⟩
  | 127 => ⟨S50000x64, .bf16⟩
  | _ => ⟨S50000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .bf16⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x64, .bf16⟩
  | 18 => ⟨S1600000x32, .bf16⟩
  | 19 => ⟨S1x16, .f32⟩
  | 20 => ⟨S32x16, .bf16⟩
  | 21 => ⟨S64x16, .bf16⟩
  | 22 => ⟨S64x16, .bf16⟩
  | 23 => ⟨S1600000x16, .bf16⟩
  | 24 => ⟨S1600000x16, .f32⟩
  | 25 => ⟨S_, .f32⟩
  | 26 => ⟨S16, .f32⟩
  | 27 => ⟨S_, .f32⟩
  | 28 => ⟨S16, .f32⟩
  | 29 => ⟨S16, .f32⟩
  | 30 => ⟨S_, .i32⟩
  | 31 => ⟨S_, .f32⟩
  | 32 => ⟨S16, .f32⟩
  | 33 => ⟨S1x16, .f32⟩
  | 34 => ⟨S_, .f32⟩
  | 35 => ⟨S1x16, .f32⟩
  | 36 => ⟨S1x16, .f32⟩
  | 37 => ⟨S1600000x16, .f32⟩
  | 38 => ⟨S1600000x16, .f32⟩
  | 39 => ⟨S1600000x16, .f32⟩
  | 40 => ⟨S_, .f32⟩
  | 41 => ⟨S_, .f32⟩
  | 42 => ⟨S_, .f32⟩
  | 43 => ⟨S_, .f32⟩
  | 44 => ⟨S16, .f32⟩
  | 45 => ⟨S16, .f32⟩
  | 46 => ⟨S16, .f32⟩
  | 47 => ⟨S_, .f32⟩
  | 48 => ⟨S_, .i1⟩
  | 49 => ⟨S_, .f32⟩
  | 50 => ⟨S_, .f32⟩
  | 51 => ⟨S16, .f32⟩
  | 52 => ⟨S16, .f32⟩
  | 53 => ⟨S1x16, .f32⟩
  | 54 => ⟨S1x16, .f32⟩
  | 55 => ⟨S1x16, .f32⟩
  | 56 => ⟨S1x16, .f32⟩
  | 57 => ⟨S1x8, .f32⟩
  | 58 => ⟨S1600000x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x16, .f32⟩
  | .local _ .vmem, ⟨3, _⟩ => ⟨S2000x1, .f32⟩
  | .local _ .vmem, ⟨4, _⟩ => ⟨S2000x1, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | .local _ .vmem, ⟨8, _⟩ => ⟨S2000x16, .f32⟩
  | .local _ .vmem, ⟨9, _⟩ => ⟨S16x64, .f32⟩
  | .local _ .vmem, ⟨10, _⟩ => ⟨S2000x1, .f32⟩
  | .local _ .vmem, ⟨11, _⟩ => ⟨S2000x1, .f32⟩
  | .local _ .vmem, ⟨12, _⟩ => ⟨S2000x64, .f32⟩
  | .local _ .vmem, ⟨13, _⟩ => ⟨S2000x64, .f32⟩
  | .local _ .vmem, ⟨14, _⟩ => ⟨S8000x32, .bf16⟩
  | .local _ .vmem, ⟨15, _⟩ => ⟨S8000x32, .bf16⟩
  | .local _ .vmem, ⟨16, _⟩ => ⟨S8000x64, .bf16⟩
  | .local _ .vmem, ⟨17, _⟩ => ⟨S8000x64, .bf16⟩
  | .local _ .vmem, ⟨18, _⟩ => ⟨S8000x64, .bf16⟩
  | .local _ .vmem, ⟨19, _⟩ => ⟨S8000x64, .bf16⟩
  | .local _ .vmem, ⟨20, _⟩ => ⟨S32x16, .bf16⟩
  | .local _ .vmem, ⟨21, _⟩ => ⟨S64x16, .bf16⟩
  | .local _ .vmem, ⟨22, _⟩ => ⟨S64x16, .bf16⟩
  | .local _ .vmem, ⟨23, _⟩ => ⟨S1x16, .f32⟩
  | .local _ .vmem, ⟨24, _⟩ => ⟨S8000x16, .bf16⟩
  | .local _ .vmem, ⟨25, _⟩ => ⟨S8000x16, .bf16⟩
  | .local _ .vmem, ⟨26, _⟩ => ⟨S8000x16, .bf16⟩
  | .local _ .vmem, ⟨27, _⟩ => ⟨S8000x16, .bf16⟩
  | .local _ .vmem, ⟨28, _⟩ => ⟨S1x16, .f32⟩
  | .local _ .vmem, ⟨29, _⟩ => ⟨S1x16, .f32⟩
  | .local _ .vmem, ⟨30, _⟩ => ⟨S1x16, .f32⟩
  | .local _ .vmem, ⟨31, _⟩ => ⟨S1x16, .f32⟩
  | .local _ .vmem, ⟨32, _⟩ => ⟨S16x8, .f32⟩
  | .local _ .vmem, ⟨33, _⟩ => ⟨S1x8, .f32⟩
  | .local _ .vmem, ⟨34, _⟩ => ⟨S8000x8, .f32⟩
  | .local _ .vmem, ⟨35, _⟩ => ⟨S8000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_cst_3 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_4 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call0_cst : Ref sig .tc := ⟨.hbm, 57, rfl⟩
abbrev main_call0_v0 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_v35 : Ref sig .tc := ⟨.hbm, 64, rfl⟩
abbrev main_c_9 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_cst_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_cst_1 : Ref sig .tc := ⟨.hbm, 76, rfl⟩
abbrev main_call1_v8 : Ref sig .tc := ⟨.hbm, 77, rfl⟩
abbrev main_call1_cst_2 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_cst_3 : Ref sig .tc := ⟨.hbm, 82, rfl⟩
abbrev main_call1_v12 : Ref sig .tc := ⟨.hbm, 83, rfl⟩
abbrev main_call1_cst_4 : Ref sig .tc := ⟨.hbm, 84, rfl⟩
abbrev main_call1_call0_v0 : Ref sig .tc := ⟨.hbm, 85, rfl⟩
abbrev main_call1_call0_v1 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_10 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_c_11 : Ref sig .tc := ⟨.hbm, 106, rfl⟩
abbrev main_v54 : Ref sig .tc := ⟨.hbm, 107, rfl⟩
abbrev main_v55 : Ref sig .tc := ⟨.hbm, 108, rfl⟩
abbrev main_c_12 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_13 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_c_14 : Ref sig .tc := ⟨.hbm, 128, rfl⟩
abbrev main_v73 : Ref sig .tc := ⟨.hbm, 129, rfl⟩
abbrev main_v74 : Ref sig .tc := ⟨.hbm, 130, rfl⟩
abbrev main_c_15 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_c_16 : Ref sig .tc := ⟨.hbm, 137, rfl⟩
abbrev main_v80 : Ref sig .tc := ⟨.hbm, 138, rfl⟩
abbrev main_v81 : Ref sig .tc := ⟨.hbm, 139, rfl⟩
abbrev main_c_17 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_18 : Ref sig .tc := ⟨.hbm, 153, rfl⟩
abbrev main_v94 : Ref sig .tc := ⟨.hbm, 154, rfl⟩
abbrev main_cst_19 : Ref sig .tc := ⟨.hbm, 155, rfl⟩
abbrev main_v95 : Ref sig .tc := ⟨.hbm, 156, rfl⟩
abbrev main_v96 : Ref sig .tc := ⟨.hbm, 157, rfl⟩
abbrev main_c_20 : Ref sig .tc := ⟨.hbm, 158, rfl⟩
abbrev main_call2_cst : Ref sig .tc := ⟨.hbm, 159, rfl⟩
abbrev main_call2_v0 : Ref sig .tc := ⟨.hbm, 160, rfl⟩
abbrev main_call2_v1 : Ref sig .tc := ⟨.hbm, 161, rfl⟩
abbrev main_call2_cst_0 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_call2_v5 : Ref sig .tc := ⟨.hbm, 166, rfl⟩
abbrev main_call2_v6 : Ref sig .tc := ⟨.hbm, 167, rfl⟩
abbrev main_call2_v7 : Ref sig .tc := ⟨.hbm, 168, rfl⟩
abbrev main_call2_cst_1 : Ref sig .tc := ⟨.hbm, 169, rfl⟩
abbrev main_call2_v8 : Ref sig .tc := ⟨.hbm, 170, rfl⟩
abbrev main_call2_cst_2 : Ref sig .tc := ⟨.hbm, 171, rfl⟩
abbrev main_call2_v9 : Ref sig .tc := ⟨.hbm, 172, rfl⟩
abbrev main_call2_v10 : Ref sig .tc := ⟨.hbm, 173, rfl⟩
abbrev main_call2_v11 : Ref sig .tc := ⟨.hbm, 174, rfl⟩
abbrev main_call2_cst_3 : Ref sig .tc := ⟨.hbm, 175, rfl⟩
abbrev main_call2_v12 : Ref sig .tc := ⟨.hbm, 176, rfl⟩
abbrev main_call2_cst_4 : Ref sig .tc := ⟨.hbm, 177, rfl⟩
abbrev main_call2_call0_v0 : Ref sig .tc := ⟨.hbm, 178, rfl⟩
abbrev main_call2_call0_v1 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x16 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x16 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x16 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8000x16 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x16 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x8 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S8000x8 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  inb_S128x16_S128x16_0_0 : ∀ a, (![0, 0] : Fin 2 → Nat) a + S128x16.size a ≤ S128x16.size a
  h_S128x16 : 0 < S128x16.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S16_d0 : S50000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  shapeCasts_S2000x16_S2000x16 : S2000x16.ShapeCasts S2000x16
  inb_S16x64_S16x64_0_0 : ∀ a, (![0, 0] : Fin 2 → Nat) a + S16x64.size a ≤ S16x64.size a
  h_S16x64 : 0 < S16x64.numel
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S160x16_S32x16_0_0 : S160x16.Slices ![0, 0] S32x16
  slices_S160x16_S64x16_32_0 : S160x16.Slices ![32, 0] S64x16
  slices_S160x16_S64x16_96_0 : S160x16.Slices ![96, 0] S64x16
  bitsLt_bf16_f32 : FTy.bits .bf16 < FTy.bits .f32
  shapeCasts_S16_S1x16 : S16.ShapeCasts S1x16
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S8000x16_S8000x16_0_0 : ∀ a, (![0, 0] : Fin 2 → Nat) a + S8000x16.size a ≤ S8000x16.size a
  h_S8000x16 : 0 < S8000x16.numel
  packedbf16_S8000x16_S8000x16_0_0 : (Rect.unit (s := S8000x16) ![0, 0] S8000x16.size inb_S8000x16_S8000x16_0_0).PackedRows (EltTy.packing .bf16)
  reducesTo_S1600000x16_S16_d0 : S1600000x16.ReducesTo [0] S16
  bcast_S1x16_S1600000x16_0_1 : S1x16.BroadcastsInDim S1600000x16 (![0, 1] : Fin 2 → Fin S1600000x16.rank)
  shapeCasts_S8_S1x8 : S8.ShapeCasts S1x8
  shapeCasts_S8000x16_S8000x16 : S8000x16.ShapeCasts S8000x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8000x8 : S1x8.Broadcasts S8000x8
  reduces_S8000x8_S8000 : S8000x8.Reduces [1] S8000
  shapeCasts_S8000_S8000x1 : S8000.ShapeCasts S8000x1
  broadcasts_S8000x1_S8000x8 : S8000x1.Broadcasts S8000x8
  inb_S8000x8_S8000x8_0_0 : ∀ a, (![0, 0] : Fin 2 → Nat) a + S8000x8.size a ≤ S8000x8.size a
  h_S8000x8 : 0 < S8000x8.numel
  scatter_S50000_S1600000x1_S1600000_n_0_0_1_wf : ScatterDims.WF S50000 S1600000x1 S1600000 [] [0] [0] 1
  dot_S2000x128_S128x16_S2000x16_1_0_0_1_n_n_wf : DotDims.WF S2000x128 S128x16 S2000x16 [1] [0] [0] [1] [] []
  gather_S50000x16_S1600000x1_S1600000x16_1_0_n_n_0_1_116_wf : GatherDims.WF S50000x16 S1600000x1 S1600000x16 [1] [0] [] [0] [] 1 ![1, 16]
  scatter_S50000x16_S1600000x1_S1600000x16_1_0_0_1_wf : ScatterDims.WF S50000x16 S1600000x1 S1600000x16 [1] [0] [0] 1
  dot_S2000x16_S16x64_S2000x64_1_0_0_1_n_n_wf : DotDims.WF S2000x16 S16x64 S2000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S8000x32_S32x16_S8000x16_1_0_0_1_n_n_wf : DotDims.WF S8000x32 S32x16 S8000x16 [1] [0] [0] [1] [] []
  dot_S8000x64_S64x16_S8000x16_1_0_0_1_n_n_wf : DotDims.WF S8000x64 S64x16 S8000x16 [1] [0] [0] [1] [] []
  dot_S8000x16_S16x8_S8000x8_1_0_0_1_n_n_wf : DotDims.WF S8000x16 S16x8 S8000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S50000x16.size a
  hwx0_3 : ∀ i : grid0.Coords, EltTy.bits .f32 = 32 ∨ (Rect.block (s := S50000x16) S2000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S50000x16.size a
  hwx1_0 : ∀ i : grid1.Coords, EltTy.bits .f32 = 32 ∨ (Rect.block (s := S50000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S1600000x32.size a
  hwx2_0 : ∀ i : grid2.Coords, EltTy.bits .bf16 = 32 ∨ (Rect.block (s := S1600000x32) S8000x32.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .bf16 = 32 ∨ (Rect.block (s := S1600000x64) S8000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S1600000x64.size a
  hwx2_2 : ∀ i : grid2.Coords, EltTy.bits .bf16 = 32 ∨ (Rect.block (s := S1600000x64) S8000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x16.size a ≤ S32x16.size a
  hwx2_3 : ∀ i : grid2.Coords, EltTy.bits .bf16 = 32 ∨ (Rect.block (s := S32x16) S32x16.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x16.size a ≤ S64x16.size a
  hwx2_4 : ∀ i : grid2.Coords, EltTy.bits .bf16 = 32 ∨ (Rect.block (s := S64x16) S64x16.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x16.size a ≤ S64x16.size a
  hwx2_5 : ∀ i : grid2.Coords, EltTy.bits .bf16 = 32 ∨ (Rect.block (s := S64x16) S64x16.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x16.size a ≤ S1x16.size a
  hwx2_6 : ∀ i : grid2.Coords, EltTy.bits .f32 = 32 ∨ (Rect.block (s := S1x16) S1x16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x16.size a ≤ S1600000x16.size a
  hwx2_7 : ∀ i : grid2.Coords, EltTy.bits .bf16 = 32 ∨ (Rect.block (s := S1600000x16) S8000x16.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x16.size a ≤ S1600000x16.size a
  hwx3_0 : ∀ i : grid3.Coords, EltTy.bits .bf16 = 32 ∨ (Rect.block (s := S1600000x16) S8000x16.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x8.size a ≤ S16x8.size a
  hwx3_5 : ∀ i : grid3.Coords, EltTy.bits .f32 = 32 ∨ (Rect.block (s := S16x8) S16x8.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x8.size a ≤ S1x8.size a
  hwx3_6 : ∀ i : grid3.Coords, EltTy.bits .f32 = 32 ∨ (Rect.block (s := S1x8) S1x8.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8000x8.size a ≤ S1600000x8.size a
  hwx3_7 : ∀ i : grid3.Coords, EltTy.bits .f32 = 32 ∨ (Rect.block (s := S1600000x8) S8000x8.size (cc3_transform_7 i) (hinb3_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S8000x32_S32x16_S8000x16_1_0_0_1_n_n : DotDims S8000x32 S32x16 S8000x16 where
  lhsContracting := [1]
  rhsContracting := [0]
  lhsNonContracting := [0]
  rhsNonContracting := [1]
  lhsBatch := []
  rhsBatch := []
  wf := dot_S8000x32_S32x16_S8000x16_1_0_0_1_n_n_wf
def dot_S8000x64_S64x16_S8000x16_1_0_0_1_n_n : DotDims S8000x64 S64x16 S8000x16 where
  lhsContracting := [1]
  rhsContracting := [0]
  lhsNonContracting := [0]
  rhsNonContracting := [1]
  lhsBatch := []
  rhsBatch := []
  wf := dot_S8000x64_S64x16_S8000x16_1_0_0_1_n_n_wf
def dot_S8000x16_S16x8_S8000x8_1_0_0_1_n_n : DotDims S8000x16 S16x8 S8000x8 where
  lhsContracting := [1]
  rhsContracting := [0]
  lhsNonContracting := [0]
  rhsNonContracting := [1]
  lhsBatch := []
  rhsBatch := []
  wf := dot_S8000x16_S16x8_S8000x8_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v87) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v86) S8000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v89) S32x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v90) S64x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S64x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v88) S1x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v92) S8000x16.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v92) S8000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v98) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v99) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v100) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v101) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S16x8.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v102) S1x8.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v103) S8000x8.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S1600000x32 : Shape := ⟨2, ![1600000, 32]⟩
abbrev S1600000 : Shape := ⟨1, ![1600000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S160x16 : Shape := ⟨2, ![160, 16]⟩
abbrev S16x8 : Shape := ⟨2, ![16, 8]⟩
abbrev S8 : Shape := ⟨1, ![8]⟩
abbrev S_ : Shape := ⟨0, ![]⟩
abbrev S50000 : Shape := ⟨1, ![50000]⟩
abbrev S1600000x1 : Shape := ⟨2, ![1600000, 1]⟩
abbrev S50000x16 : Shape := ⟨2, ![50000, 16]⟩
abbrev S50000x1 : Shape := ⟨2, ![50000, 1]⟩
abbrev S1600000x16 : Shape := ⟨2, ![1600000, 16]⟩
abbrev S1x16 : Shape := ⟨2, ![1, 16]⟩
abbrev S50000x64 : Shape := ⟨2, ![50000, 64]⟩
abbrev S1600000x64 : Shape := ⟨2, ![1600000, 64]⟩
abbrev S1x64 : Shape := ⟨2, ![1, 64]⟩
abbrev S1600000x160 : Shape := ⟨2, ![1600000, 160]⟩
abbrev S1600000x8 : Shape := ⟨2, ![1600000, 8]⟩
abbrev S1x8 : Shape := ⟨2, ![1, 8]⟩

abbrev nBuf : Space → Nat
  | .hbm => 231
  | .vmem => 0
  | .smem => 0
  | _ => 0

abbrev hbmTy0_0 (i : Nat) : BufTy := match i % 128 with
  | 0 => ⟨S50000x128, .f32⟩
  | 1 => ⟨S1600000x32, .f32⟩
  | 2 => ⟨S1600000, .i32⟩
  | 3 => ⟨S1600000, .i32⟩
  | 4 => ⟨S128x16, .f32⟩
  | 5 => ⟨S16, .f32⟩
  | 6 => ⟨S16, .f32⟩
  | 7 => ⟨S16, .f32⟩
  | 8 => ⟨S16x64, .f32⟩
  | 9 => ⟨S64, .f32⟩
  | 10 => ⟨S160x16, .f32⟩
  | 11 => ⟨S16, .f32⟩
  | 12 => ⟨S16, .f32⟩
  | 13 => ⟨S16, .f32⟩
  | 14 => ⟨S16x8, .f32⟩
  | 15 => ⟨S8, .f32⟩
  | 16 => ⟨S_, .f32⟩
  | 17 => ⟨S1600000, .f32⟩
  | 18 => ⟨S_, .f32⟩
  | 19 => ⟨S50000, .f32⟩
  | 20 => ⟨S1600000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S1600000x1, .i32⟩
  | 28 => ⟨S50000, .f32⟩
  | 29 => ⟨S_, .f32⟩
  | 30 => ⟨S50000, .f32⟩
  | 31 => ⟨S50000, .f32⟩
  | 32 => ⟨S50000x16, .f32⟩
  | 33 => ⟨S50000, .f32⟩
  | 34 => ⟨S50000x1, .f32⟩
  | 35 => ⟨S50000x16, .f32⟩
  | 36 => ⟨S50000x16, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x16, .f32⟩
  | 46 => ⟨S_, .f32⟩
  | 47 => ⟨S50000x16, .f32⟩
  | 48 => ⟨S1600000x1, .i32⟩
  | 49 => ⟨S50000x16, .f32⟩
  | 50 => ⟨S50000, .f32⟩
  | 51 => ⟨S50000x1, .f32⟩
  | 52 => ⟨S50000x16, .f32⟩
  | 53 => ⟨S50000x16, .f32⟩
  | 54 => ⟨S1x16, .f32⟩
  | 55 => ⟨S50000x16, .f32⟩
  | 56 => ⟨S50000x16, .f32⟩
  | 57 => ⟨S_, .f32⟩
  | 58 => ⟨S50000x16, .f32⟩
  | 59 => ⟨S50000x16, .f32⟩
  | 60 => ⟨S_, .f32⟩
  | 61 => ⟨S16, .f32⟩
  | 62 => ⟨S_, .f32⟩
  | 63 => ⟨S16, .f32⟩
  | 64 => ⟨S16, .f32⟩
  | 65 => ⟨S_, .i32⟩
  | 66 => ⟨S_, .f32⟩
  | 67 => ⟨S16, .f32⟩
  | 68 => ⟨S1x16, .f32⟩
  | 69 => ⟨S_, .f32⟩
  | 70 => ⟨S1x16, .f32⟩
  | 71 => ⟨S1x16, .f32⟩
  | 72 => ⟨S50000x16, .f32⟩
  | 73 => ⟨S50000x16, .f32⟩
  | 74 => ⟨S50000x16, .f32⟩
  | 75 => ⟨S_, .f32⟩
  | 76 => ⟨S_, .f32⟩
  | 77 => ⟨S_, .f32⟩
  | 78 => ⟨S_, .f32⟩
  | 79 => ⟨S16, .f32⟩
  | 80 => ⟨S16, .f32⟩
  | 81 => ⟨S16, .f32⟩
  | 82 => ⟨S_, .f32⟩
  | 83 => ⟨S_, .i1⟩
  | 84 => ⟨S_, .f32⟩
  | 85 => ⟨S_, .f32⟩
  | 86 => ⟨S16, .f32⟩
  | 87 => ⟨S16, .f32⟩
  | 88 => ⟨S1x16, .f32⟩
  | 89 => ⟨S50000x16, .f32⟩
  | 90 => ⟨S50000x16, .f32⟩
  | 91 => ⟨S_, .f32⟩
  | 92 => ⟨S16, .f32⟩
  | 93 => ⟨S16, .f32⟩
  | 94 => ⟨S16, .f32⟩
  | 95 => ⟨S1x16, .f32⟩
  | 96 => ⟨S50000x16, .f32⟩
  | 97 => ⟨S50000x16, .f32⟩
  | 98 => ⟨S1x16, .f32⟩
  | 99 => ⟨S50000x16, .f32⟩
  | 100 => ⟨S50000x16, .f32⟩
  | 101 => ⟨S1x16, .f32⟩
  | 102 => ⟨S50000x16, .f32⟩
  | 103 => ⟨S50000x16, .f32⟩
  | 104 => ⟨S_, .f32⟩
  | 105 => ⟨S1600000, .f32⟩
  | 106 => ⟨S_, .f32⟩
  | 107 => ⟨S50000, .f32⟩
  | 108 => ⟨S1600000x1, .i32⟩
  | 109 => ⟨S50000, .f32⟩
  | 110 => ⟨S_, .f32⟩
  | 111 => ⟨S50000, .f32⟩
  | 112 => ⟨S50000, .f32⟩
  | 113 => ⟨S_, .f32⟩
  | 114 => ⟨S50000, .f32⟩
  | 115 => ⟨S1600000x1, .i32⟩
  | 116 => ⟨S50000, .f32⟩
  | 117 => ⟨S_, .f32⟩
  | 118 => ⟨S50000, .f32⟩
  | 119 => ⟨S50000, .f32⟩
  | 120 => ⟨S50000x64, .f32⟩
  | 121 => ⟨S50000, .f32⟩
  | 122 => ⟨S50000x1, .f32⟩
  | 123 => ⟨S50000x64, .f32⟩
  | 124 => ⟨S50000x64, .f32⟩
  | 125 => ⟨S_, .i32⟩
  | 126 => ⟨S1600000, .i32⟩
  | 127 => ⟨S1600000, .i1⟩
  | _ => ⟨S50000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S_, .f32⟩
  | 7 => ⟨S50000x64, .f32⟩
  | 8 => ⟨S1600000x1, .i32⟩
  | 9 => ⟨S50000x64, .f32⟩
  | 10 => ⟨S50000, .f32⟩
  | 11 => ⟨S50000x1, .f32⟩
  | 12 => ⟨S50000x64, .f32⟩
  | 13 => ⟨S50000x64, .f32⟩
  | 14 => ⟨S1x64, .f32⟩
  | 15 => ⟨S50000x64, .f32⟩
  | 16 => ⟨S50000x64, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S1600000x160, .f32⟩
  | 36 => ⟨S1600000x16, .f32⟩
  | 37 => ⟨S1x16, .f32⟩
  | 38 => ⟨S1600000x16, .f32⟩
  | 39 => ⟨S1600000x16, .f32⟩
  | 40 => ⟨S_, .f32⟩
  | 41 => ⟨S16, .f32⟩
  | 42 => ⟨S_, .f32⟩
  | 43 => ⟨S16, .f32⟩
  | 44 => ⟨S16, .f32⟩
  | 45 => ⟨S_, .i32⟩
  | 46 => ⟨S_, .f32⟩
  | 47 => ⟨S16, .f32⟩
  | 48 => ⟨S1x16, .f32⟩
  | 49 => ⟨S_, .f32⟩
  | 50 => ⟨S1x16, .f32⟩
  | 51 => ⟨S1x16, .f32⟩
  | 52 => ⟨S1600000x16, .f32⟩
  | 53 => ⟨S1600000x16, .f32⟩
  | 54 => ⟨S1600000x16, .f32⟩
  | 55 => ⟨S_, .f32⟩
  | 56 => ⟨S_, .f32⟩
  | 57 => ⟨S_, .f32⟩
  | 58 => ⟨S_, .f32⟩
  | 59 => ⟨S16, .f32⟩
  | 60 => ⟨S16, .f32⟩
  | 61 => ⟨S16, .f32⟩
  | 62 => ⟨S_, .f32⟩
  | 63 => ⟨S_, .i1⟩
  | 64 => ⟨S_, .f32⟩
  | 65 => ⟨S_, .f32⟩
  | 66 => ⟨S16, .f32⟩
  | 67 => ⟨S16, .f32⟩
  | 68 => ⟨S1x16, .f32⟩
  | 69 => ⟨S1600000x16, .f32⟩
  | 70 => ⟨S1600000x16, .f32⟩
  | 71 => ⟨S_, .f32⟩
  | 72 => ⟨S16, .f32⟩
  | 73 => ⟨S16, .f32⟩
  | 74 => ⟨S16, .f32⟩
  | 75 => ⟨S1x16, .f32⟩
  | 76 => ⟨S1600000x16, .f32⟩
  | 77 => ⟨S1600000x16, .f32⟩
  | 78 => ⟨S1x16, .f32⟩
  | 79 => ⟨S1600000x16, .f32⟩
  | 80 => ⟨S1600000x16, .f32⟩
  | 81 => ⟨S1x16, .f32⟩
  | 82 => ⟨S1600000x16, .f32⟩
  | 83 => ⟨S1600000x16, .f32⟩
  | 84 => ⟨S1600000x8, .f32⟩
  | 85 => ⟨S1x8, .f32⟩
  | 86 => ⟨S1600000x8, .f32⟩
  | 87 => ⟨S1600000x8, .f32⟩
  | 88 => ⟨S_, .f32⟩
  | 89 => ⟨S1600000, .f32⟩
  | 90 => ⟨S_, .f32⟩
  | 91 => ⟨S1600000, .f32⟩
  | 92 => ⟨S1600000, .f32⟩
  | 93 => ⟨S1600000x1, .f32⟩
  | 94 => ⟨S1600000x8, .f32⟩
  | 95 => ⟨S1600000x8, .f32⟩
  | 96 => ⟨S1600000x8, .f32⟩
  | 97 => ⟨S_, .f32⟩
  | 98 => ⟨S1600000, .f32⟩
  | 99 => ⟨S1600000x1, .f32⟩
  | 100 => ⟨S1600000x1, .f32⟩
  | 101 => ⟨S1600000x8, .f32⟩
  | 102 => ⟨S1600000x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_cst : Ref sig .tc := ⟨.hbm, 57, rfl⟩
abbrev main_call0_v0 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_cst_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_cst_1 : Ref sig .tc := ⟨.hbm, 76, rfl⟩
abbrev main_call1_v8 : Ref sig .tc := ⟨.hbm, 77, rfl⟩
abbrev main_call1_cst_2 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_cst_3 : Ref sig .tc := ⟨.hbm, 82, rfl⟩
abbrev main_call1_v12 : Ref sig .tc := ⟨.hbm, 83, rfl⟩
abbrev main_call1_cst_4 : Ref sig .tc := ⟨.hbm, 84, rfl⟩
abbrev main_call1_call0_v0 : Ref sig .tc := ⟨.hbm, 85, rfl⟩
abbrev main_call1_call0_v1 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_9 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_10 : Ref sig .tc := ⟨.hbm, 104, rfl⟩
abbrev main_v53 : Ref sig .tc := ⟨.hbm, 105, rfl⟩
abbrev main_cst_11 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_12 : Ref sig .tc := ⟨.hbm, 110, rfl⟩
abbrev main_v57 : Ref sig .tc := ⟨.hbm, 111, rfl⟩
abbrev main_v58 : Ref sig .tc := ⟨.hbm, 112, rfl⟩
abbrev main_cst_13 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_cst_14 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_c_15 : Ref sig .tc := ⟨.hbm, 125, rfl⟩
abbrev main_v69 : Ref sig .tc := ⟨.hbm, 126, rfl⟩
abbrev main_v70 : Ref sig .tc := ⟨.hbm, 127, rfl⟩
abbrev main_c_16 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_cst_17 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_c_18 : Ref sig .tc := ⟨.hbm, 145, rfl⟩
abbrev main_v86 : Ref sig .tc := ⟨.hbm, 146, rfl⟩
abbrev main_v87 : Ref sig .tc := ⟨.hbm, 147, rfl⟩
abbrev main_c_19 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_c_20 : Ref sig .tc := ⟨.hbm, 154, rfl⟩
abbrev main_v93 : Ref sig .tc := ⟨.hbm, 155, rfl⟩
abbrev main_v94 : Ref sig .tc := ⟨.hbm, 156, rfl⟩
abbrev main_c_21 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_22 : Ref sig .tc := ⟨.hbm, 168, rfl⟩
abbrev main_v105 : Ref sig .tc := ⟨.hbm, 169, rfl⟩
abbrev main_cst_23 : Ref sig .tc := ⟨.hbm, 170, rfl⟩
abbrev main_v106 : Ref sig .tc := ⟨.hbm, 171, rfl⟩
abbrev main_v107 : Ref sig .tc := ⟨.hbm, 172, rfl⟩
abbrev main_c_24 : Ref sig .tc := ⟨.hbm, 173, rfl⟩
abbrev main_call2_cst : Ref sig .tc := ⟨.hbm, 174, rfl⟩
abbrev main_call2_v0 : Ref sig .tc := ⟨.hbm, 175, rfl⟩
abbrev main_call2_v1 : Ref sig .tc := ⟨.hbm, 176, rfl⟩
abbrev main_call2_cst_0 : Ref sig .tc := ⟨.hbm, 177, rfl⟩
abbrev main_call2_v2 : Ref sig .tc := ⟨.hbm, 178, rfl⟩
abbrev main_call2_v3 : Ref sig .tc := ⟨.hbm, 179, rfl⟩
abbrev main_call2_v4 : Ref sig .tc := ⟨.hbm, 180, rfl⟩
abbrev main_call2_v5 : Ref sig .tc := ⟨.hbm, 181, rfl⟩
abbrev main_call2_v6 : Ref sig .tc := ⟨.hbm, 182, rfl⟩
abbrev main_call2_v7 : Ref sig .tc := ⟨.hbm, 183, rfl⟩
abbrev main_call2_cst_1 : Ref sig .tc := ⟨.hbm, 184, rfl⟩
abbrev main_call2_v8 : Ref sig .tc := ⟨.hbm, 185, rfl⟩
abbrev main_call2_cst_2 : Ref sig .tc := ⟨.hbm, 186, rfl⟩
abbrev main_call2_v9 : Ref sig .tc := ⟨.hbm, 187, rfl⟩
abbrev main_call2_v10 : Ref sig .tc := ⟨.hbm, 188, rfl⟩
abbrev main_call2_v11 : Ref sig .tc := ⟨.hbm, 189, rfl⟩
abbrev main_call2_cst_3 : Ref sig .tc := ⟨.hbm, 190, rfl⟩
abbrev main_call2_v12 : Ref sig .tc := ⟨.hbm, 191, rfl⟩
abbrev main_call2_cst_4 : Ref sig .tc := ⟨.hbm, 192, rfl⟩
abbrev main_call2_call0_v0 : Ref sig .tc := ⟨.hbm, 193, rfl⟩
abbrev main_call2_call0_v1 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_cst_25 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_call3_cst : Ref sig .tc := ⟨.hbm, 216, rfl⟩
abbrev main_call3_v0 : Ref sig .tc := ⟨.hbm, 217, rfl⟩
abbrev main_call3_cst_0 : Ref sig .tc := ⟨.hbm, 218, rfl⟩
abbrev main_call3_v1 : Ref sig .tc := ⟨.hbm, 219, rfl⟩
abbrev main_call3_v2 : Ref sig .tc := ⟨.hbm, 220, rfl⟩
abbrev main_call3_v3 : Ref sig .tc := ⟨.hbm, 221, rfl⟩
abbrev main_call3_v4 : Ref sig .tc := ⟨.hbm, 222, rfl⟩
abbrev main_call3_v5 : Ref sig .tc := ⟨.hbm, 223, rfl⟩
abbrev main_call3_v6 : Ref sig .tc := ⟨.hbm, 224, rfl⟩
abbrev main_call3_cst_1 : Ref sig .tc := ⟨.hbm, 225, rfl⟩
abbrev main_call3_v7 : Ref sig .tc := ⟨.hbm, 226, rfl⟩
abbrev main_call3_v8 : Ref sig .tc := ⟨.hbm, 227, rfl⟩
abbrev main_call3_v9 : Ref sig .tc := ⟨.hbm, 228, rfl⟩
abbrev main_call3_v10 : Ref sig .tc := ⟨.hbm, 229, rfl⟩
abbrev main_v128 : Ref sig .tc := ⟨.hbm, 230, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S16_d0 : S50000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S1600000x32_S1600000x64_S1600000x64_S1600000x160_d1 : Shape.Concatenates [S1600000x32, S1600000x64, S1600000x64] S1600000x160 1
  bcast_S1x16_S1600000x16_0_1 : S1x16.BroadcastsInDim S1600000x16 (![0, 1] : Fin 2 → Fin S1600000x16.rank)
  reducesTo_S1600000x16_S16_d0 : S1600000x16.ReducesTo [0] S16
  bcast_S8_S1x8_1 : S8.BroadcastsInDim S1x8 (![1] : Fin 1 → Fin S1x8.rank)
  bcast_S1x8_S1600000x8_0_1 : S1x8.BroadcastsInDim S1600000x8 (![0, 1] : Fin 2 → Fin S1600000x8.rank)
  reducesTo_S1600000x8_S1600000_d1 : S1600000x8.ReducesTo [1] S1600000
  bcast_S1600000x1_S1600000x8_0_1 : S1600000x1.BroadcastsInDim S1600000x8 (![0, 1] : Fin 2 → Fin S1600000x8.rank)
  scatter_S50000_S1600000x1_S1600000_n_0_0_1_wf : ScatterDims.WF S50000 S1600000x1 S1600000 [] [0] [0] 1
  dot_S50000x128_S128x16_S50000x16_1_0_0_1_n_n_wf : DotDims.WF S50000x128 S128x16 S50000x16 [1] [0] [0] [1] [] []
  gather_S50000x16_S1600000x1_S1600000x16_1_0_n_n_0_1_116_wf : GatherDims.WF S50000x16 S1600000x1 S1600000x16 [1] [0] [] [0] [] 1 ![1, 16]
  scatter_S50000x16_S1600000x1_S1600000x16_1_0_0_1_wf : ScatterDims.WF S50000x16 S1600000x1 S1600000x16 [1] [0] [0] 1
  dot_S50000x16_S16x64_S50000x64_1_0_0_1_n_n_wf : DotDims.WF S50000x16 S16x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S1600000x160_S160x16_S1600000x16_1_0_0_1_n_n_wf : DotDims.WF S1600000x160 S160x16 S1600000x16 [1] [0] [0] [1] [] []
  dot_S1600000x16_S16x8_S1600000x8_1_0_0_1_n_n_wf : DotDims.WF S1600000x16 S16x8 S1600000x8 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf
def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S1600000x160_S160x16_S1600000x16_1_0_0_1_n_n : DotDims S1600000x160 S160x16 S1600000x16 where
  lhsContracting := [1]
  rhsContracting := [0]
  lhsNonContracting := [0]
  rhsNonContracting := [1]
  lhsBatch := []
  rhsBatch := []
  wf := dot_S1600000x160_S160x16_S1600000x16_1_0_0_1_n_n_wf
def dot_S1600000x16_S16x8_S1600000x8_1_0_0_1_n_n : DotDims S1600000x16 S16x8 S1600000x8 where
  lhsContracting := [1]
  rhsContracting := [0]
  lhsNonContracting := [0]
  rhsNonContracting := [1]
  lhsBatch := []
  rhsBatch := []
  wf := dot_S1600000x16_S16x8_S1600000x8_1_0_0_1_n_n_wf

class Facts : Prop extends Facts₀ where

variable [Facts]
-- ==== Proof.RefOps.lean ====
/- SCRIPT-MADE by scratch/gen_refops.py (run as: $PY scratch/gen_refops.py, from the unit directory; it reads proof/ReferenceIdeal.lean and writes this file): the
   reference program as operation lists. A table, no argument: each line below is the operation of one printed statement of the
   reference, a called function's operations written over that call's buffer record. -/
import proofs.«400428_j65575560675752_4_alg».proof.Proof.Gen.ReferenceIdeal
import Idealize.ShloMosaic.Lib.StableHlo.Run
import Idealize.ShloMosaic.Lib.StableHlo.RunLoop

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Stretch 0: 21 operations of @main (main_part0). -/
abbrev I0 : List (HloOp τ sig (Elt F)) :=
  ( StableHlo.nullary main_cst (constant S_ .f32 0x3F800000#32)
  :: StableHlo.unary main_cst main_v0 (broadcastInDim S1600000 ![] bcast_S_S1600000 : (⟨S_, .f32⟩ : BufTy).Contents (Elt F) → (⟨S1600000, .f32⟩ : BufTy).Contents (Elt F))
  :: StableHlo.nullary main_cst_0 (constant S_ .f32 0x00000000#32)
  :: StableHlo.unary main_cst_0 main_v1 (broadcastInDim S50000 ![] bcast_S_S50000 : (⟨S_, .f32⟩ : BufTy).Contents (Elt F) → (⟨S50000, .f32⟩ : BufTy).Contents (Elt F))
  :: StableHlo.unary main_arg2 main_v2 (broadcastInDim S1600000x1 ![0] bcast_S1600000_S1600000x1_0 : (⟨S1600000, .i32⟩ : BufTy).Contents (Elt F) → (⟨S1600000x1, .i32⟩ : BufTy).Contents (Elt F))
  :: StableHlo.ternary main_v1 main_v2 main_v0 main_v3 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F))
  :: StableHlo.nullary main_cst_1 (constant S_ .f32 0x3F800000#32)
  :: StableHlo.unary main_cst_1 main_v4 (broadcastInDim S50000 ![] bcast_S_S50000 : (⟨S_, .f32⟩ : BufTy).Contents (Elt F) → (⟨S50000, .f32⟩ : BufTy).Contents (Elt F))
  :: StableHlo.binary main_v3 main_v4 main_v5 (maximumf : (⟨S50000, .f32⟩ : BufTy).Contents (Elt F) → (⟨S50000, .f32⟩ : BufTy).Contents (Elt F) → (⟨S50000, .f32⟩ : BufTy).Contents (Elt F))
  :: StableHlo.nullary main_cst_2 (constant S_ .f32 0x00000000#32)
  :: StableHlo.unary main_cst_2 main_v6 (broadcastInDim S50000 ![] bcast_S_S50000 : (⟨S_, .f32⟩ : BufTy).Contents (Elt F) → (⟨S50000, .f32⟩ : BufTy).Contents (Elt F))
  :: StableHlo.unary main_arg3 main_v7 (broadcastInDim S1600000x1 ![0] bcast_S1600000_S1600000x1_0 : (⟨S1600000, .i32⟩ : BufTy).Contents (Elt F) → (⟨S1600000x1, .i32⟩ : BufTy).Contents (Elt F))
  :: StableHlo.ternary main_v6 main_v7 main_v0 main_v8 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F))
  :: StableHlo.nullary main_cst_3 (constant S_ .f32 0x3F800000#32)
  :: StableHlo.unary main_cst_3 main_v9 (broadcastInDim S50000 ![] bcast_S_S50000 : (⟨S_, .f32⟩ : BufTy).Contents (Elt F) → (⟨S50000, .f32⟩ : BufTy).Contents (Elt F))
  :: StableHlo.binary main_v8 main_v9 main_v10 (maximumf : (⟨S50000, .f32⟩ : BufTy).Contents (Elt F) → (⟨S50000, .f32⟩ : BufTy).Contents (Elt F) → (⟨S50000, .f32⟩ : BufTy).Contents (Elt F))
  :: StableHlo.binary main_arg0 main_arg4 main_v11 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F))
  :: StableHlo.unary main_v5 main_v12 (Host.rsqrt : (⟨S50000, .f32⟩ : BufTy).Contents (Elt F) → (⟨S50000, .f32⟩ : BufTy).Contents (Elt F))
  :: StableHlo.unary main_v12 main_v13 (broadcastInDim S50000x1 ![0] bcast_S50000_S50000x1_0 : (⟨S50000, .f32⟩ : BufTy).Contents (Elt F) → (⟨S50000x1, .f32⟩ : BufTy).Contents (Elt F))
  :: StableHlo.unary main_v13 main_v14 (broadcastInDim S50000x16 ![0, 1] bcast_S50000x1_S50000x16_0_1 : (⟨S50000x1, .f32⟩ : BufTy).Contents (Elt F) → (⟨S50000x16, .f32⟩ : BufTy).Contents (Elt F))
  :: StableHlo.binary main_v11 main_v14 main_v15 (mulf : (⟨S50000x16, .f32⟩ : BufTy).Contents (Elt F) → (⟨S50000x16, .f32⟩ : BufTy).Contents (Elt F) → (⟨S50000x16, .f32⟩ : BufTy).Contents (Elt F))
  :: [] )
theorem I0_sub : (I0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., unary_bufs_sub .., binary_bufs_sub ..⟩
theorem I0_fresh : (I0 : List (HloOp τ sig (Elt F))).Forall fun op => op.fresh = ∅ := by
  simp only [List.Forall]; repeat' constructor

/-- Stretch 1: 20 operations of @main (main_part0). -/
abbrev I1 : List (HloOp τ sig (Elt F)) :=
  ( StableHlo.nullary main_c (constantI S_ 32 0#32)
  :: StableHlo.unary main_c main_v16 (broadcastInDim S1600000 ![] bcast_S_S1600000 : (⟨S_, .i32⟩ : BufTy).Contents (Elt F) → (⟨S1600000, .i32⟩ : BufTy).Contents (Elt F))
  :: StableHlo.binary main_arg2 main_v16 main_v17 (cmpi .slt : (⟨S1600000, .i32⟩ : BufTy).Contents (Elt F) → (⟨S1600000, .i32⟩ : BufTy).Contents (Elt F) → (⟨S1600000, .i1⟩ : BufTy).Contents (Elt F))
  :: StableHlo.nullary main_c_4 (constantI S_ 32 50000#32)
  :: StableHlo.unary main_c_4 main_v18 (broadcastInDim S1600000 ![] bcast_S_S1600000 : (⟨S_, .i32⟩ : BufTy).Contents (Elt F) → (⟨S1600000, .i32⟩ : BufTy).Contents (Elt F))
  :: StableHlo.binary main_arg2 main_v18 main_v19 (addi : (⟨S1600000, .i32⟩ : BufTy).Contents (Elt F) → (⟨S1600000, .i32⟩ : BufTy).Contents (Elt F) → (⟨S1600000, .i32⟩ : BufTy).Contents (Elt F))
  :: StableHlo.ternary main_v17 main_v19 main_arg2 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v20 main_v21 (broadcastInDim S1600000x1 ![0] bcast_S1600000_S1600000x1_0 : (⟨S1600000, .i32⟩ : BufTy).Contents (Elt F) → (⟨S1600000x1, .i32⟩ : BufTy).Contents (Elt F))
  :: StableHlo.binary main_v15 main_v21 main_v22 ((fun x i => Host.gather gather_S50000x16_S1600000x1_S1600000x16_1_0_n_n_0_1_116 x i) : (⟨S50000x16, .f32⟩ : BufTy).Contents (Elt F) → (⟨S1600000x1, .i32⟩ : BufTy).Contents (Elt F) → (⟨S1600000x16, .f32⟩ : BufTy).Contents (Elt F))
  :: StableHlo.nullary main_cst_5 (constant S_ .f32 0x00000000#32)
  :: StableHlo.unary main_cst_5 main_v23 (broadcastInDim S50000x16 ![] bcast_S_S50000x16 : (⟨S_, .f32⟩ : BufTy).Contents (Elt F) → (⟨S50000x16, .f32⟩ : BufTy).Contents (Elt F))
  :: StableHlo.unary main_arg3 main_v24 (broadcastInDim S1600000x1 ![0] bcast_S1600000_S1600000x1_0 : (⟨S1600000, .i32⟩ : BufTy).Contents (Elt F) → (⟨S1600000x1, .i32⟩ : BufTy).Contents (Elt F))
  :: StableHlo.ternary main_v23 main_v24 main_v22 main_v25 ((fun x i u => Host.scatterAdd scatter_S50000x16_S1600000x1_S1600000x16_1_0_0_1 x i u) : (⟨S50000x16, .f32⟩ : BufTy).Contents (Elt F) → (⟨S1600000x1, .i32⟩ : BufTy).Contents (Elt F) → (⟨S1600000x16, .f32⟩ : BufTy).Contents (Elt F) → (⟨S50000x16, .f32⟩ : BufTy).Contents (Elt F))
  :: StableHlo.unary main_v10 main_v26 (Host.rsqrt : (⟨S50000, .f32⟩ : BufTy).Contents (Elt F) → (⟨S50000, .f32⟩ : BufTy).Contents (Elt F))
  :: StableHlo.unary main_v26 main_v27 (broadcastInDim S50000x1 ![0] bcast_S50000_S50000x1_0 : (⟨S50000, .f32⟩ : BufTy).Contents (Elt F) → (⟨S50000x1, .f32⟩ : BufTy).Contents (Elt F))
  :: StableHlo.unary main_v27 main_v28 (broadcastInDim S50000x16 ![0, 1] bcast_S50000x1_S50000x16_0_1 : (⟨S50000x1, .f32⟩ : BufTy).Contents (Elt F) → (⟨S50000x16, .f32⟩ : BufTy).Contents (Elt F))
  :: StableHlo.binary main_v25 main_v28 main_v29 (mulf : (⟨S50000x16, .f32⟩ : BufTy).Contents (Elt F) → (⟨S50000x16, .f32⟩ : BufTy).Contents (Elt F) → (⟨S50000x16, .f32⟩ : BufTy).Contents (Elt F))
  :: StableHlo.unary main_arg5 main_v30 (broadcastInDim S1x16 ![1] bcast_S16_S1x16_1 : (⟨S16, .f32⟩ : BufTy).Contents (Elt F) → (⟨S1x16, .f32⟩ : BufTy).Contents (Elt F))
  :: StableHlo.unary main_v30 main_v31 (broadcastInDim S50000x16 ![0, 1] bcast_S1x16_S50000x16_0_1 : (⟨S1x16, .f32⟩ : BufTy).Contents (Elt F) → (⟨S50000x16, .f32⟩ : BufTy).Contents (Elt F))
  :: StableHlo.binary main_v29 main_v31 main_v32 (addf : (⟨S50000x16, .f32⟩ : BufTy).Contents (Elt F) → (⟨S50000x16, .f32⟩ : BufTy).Contents (Elt F) → (⟨S50000x16, .f32⟩ : BufTy).Contents (Elt F))
  :: [] )
theorem I1_sub : (I1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩
theorem I1_fresh : (I1 : List (HloOp τ sig (Elt F))).Forall fun op => op.fresh = ∅ := by
  simp only [List.Forall]; repeat' constructor

/-- Stretch 2: 3 operations of @relu (main_part0). -/
abbrev I2 : List (HloOp τ sig (Elt F)) :=
  ( StableHlo.TRef.nullary main_call0.cst (constant S_ .f32 0x00000000#32)
  :: StableHlo.TRef.unary main_call0.cst main_call0.v0 (broadcastInDim S50000x16 ![] bcast_S_S50000x16)
  :: StableHlo.TRef.binary ((.of main_v32) : StableHlo.TRef sig ⟨S50000x16, .f32⟩) main_call0.v0 main_call0.v1 maximumf
  :: [] )
theorem I2_sub : (I2 : List (HloOp τ sig (Elt F))).Forall fun op => op.bufs ⊆ tcRefs τ sig :=
  ⟨nullary_bufs_sub .., unary_bufs_sub .., binary_bufs_sub ..⟩
theorem I2_fresh : (I2 : List (HloOp τ sig (Elt F))).Forall fun op => op.fresh = ∅ := by
  simp only [List.Forall]; repeat' constructor

/-- Stretch 3: 6 operations of @main (main_part0). -/
abbrev I3 : List (HloOp τ sig (Elt F)) :=
  ( StableHlo.nullary main_cst_6 (constant S_ .f32 0x00000000#32)
  :: StableHlo.binary main_v33 main_cst_6 main_v34 ((fun x v => Host.reduceAdd x v reducesTo_S50000x16_S16_d0 h_S_) : (⟨S50000x16, .f32⟩ : BufTy).Contents (Elt F) → (⟨S_, .f32⟩ : BufTy).Contents (Elt F) → (⟨S16, .f32⟩ : BufTy).Contents (Elt F))
  :: StableHlo.nullary main_cst_7 (constant S_ .f32 0x47435000#32)
  :: StableHlo.unary main_cst_7 main_v35 (broadcastInDim S16 ![] bcast_S_S16 : (⟨S_, .f32⟩ : BufTy).Contents (Elt F) → (⟨S16, .f32⟩ : BufTy).Contents (Elt F))
  :: StableHlo.binary main_v34 main_v35 main_v36 (Host.divf : (⟨S16, .f32⟩ : BufTy).Contents (Elt F) → (⟨S16, .f32⟩ : BufTy).Contents (Elt F) → (⟨S16, .f32⟩ : BufTy).Contents (Elt F))
  :: StableHlo.nullary main_c_8 (constantI S_ 32 0#32)
  :: [] )
theorem I3_sub : (I3 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem I3_fresh : (I3 : List (HloOp τ sig (Elt F))).Forall fun op => op.fresh = ∅ := by
  simp only [List.Forall]; repeat' constructor

/-- Stretch 4: 22 operations of @var (main_part0). -/
abbrev I4 : List (HloOp τ sig (Elt F)) :=
  ( StableHlo.TRef.nullary main_call1.cst (constant S_ .f32 0x00000000#32)
  :: StableHlo.TRef.binary ((.of main_v33) : StableHlo.TRef sig ⟨S50000x16, .f32⟩) main_call1.cst main_call1.v0 (fun x v => Host.reduceAdd x v reducesTo_S50000x16_S16_d0 h_S_)
  :: StableHlo.TRef.unary main_call1.v0 main_call1.v1 (broadcastInDim S1x16 ![1] bcast_S16_S1x16_1)
  :: StableHlo.TRef.nullary main_call1.cst_0 (constant S_ .f32 0x47435000#32)
  :: StableHlo.TRef.unary main_call1.cst_0 main_call1.v2 (broadcastInDim S1x16 ![] bcast_S_S1x16)
  :: StableHlo.TRef.binary main_call1.v1 main_call1.v2 main_call1.v3 Host.divf
  :: StableHlo.TRef.unary main_call1.v3 main_call1.v4 (broadcastInDim S50000x16 ![0, 1] bcast_S1x16_S50000x16_0_1)
  :: StableHlo.TRef.binary ((.of main_v33) : StableHlo.TRef sig ⟨S50000x16, .f32⟩) main_call1.v4 main_call1.v5 subf
  :: StableHlo.TRef.binary main_call1.v5 main_call1.v5 main_call1.v6 mulf
  :: StableHlo.TRef.unary ((.of main_c_8) : StableHlo.TRef sig ⟨S_, .i32⟩) main_call1.v7 (sitofp .f32)
  :: StableHlo.TRef.nullary main_call1.cst_1 (constant S_ .f32 0x47435000#32)
  :: StableHlo.TRef.binary main_call1.cst_1 main_call1.v7 main_call1.v8 subf
  :: StableHlo.TRef.nullary main_call1.cst_2 (constant S_ .f32 0x00000000#32)
  :: StableHlo.TRef.binary main_call1.v6 main_call1.cst_2 main_call1.v9 (fun x v => Host.reduceAdd x v reducesTo_S50000x16_S16_d0 h_S_)
  :: StableHlo.TRef.unary main_call1.v8 main_call1.v10 (broadcastInDim S16 ![] bcast_S_S16)
  :: StableHlo.TRef.binary main_call1.v9 main_call1.v10 main_call1.v11 Host.divf
  :: StableHlo.TRef.nullary main_call1.cst_3 (constant S_ .f32 0x00000000#32)
  :: StableHlo.TRef.binary main_call1.v8 main_call1.cst_3 main_call1.v12 (cmpf .ogt)
  :: StableHlo.TRef.nullary main_call1.cst_4 (constant S_ .f32 0x7FC00000#32)
  :: StableHlo.TRef.unary (main_call1.cst_4 : StableHlo.TRef sig ⟨S_, .f32⟩) main_call1.call0.v0 id
  :: StableHlo.TRef.unary main_call1.call0.v0 main_call1.call0.v1 (broadcastInDim S16 ![] bcast_S_S16)
  :: StableHlo.TRef.ternary (main_call1.v12 : StableHlo.TRef sig ⟨S_, .i1⟩) (main_call1.v11 : StableHlo.TRef sig ⟨S16, .f32⟩) main_call1.call0.v1 main_call1.call0.v2 (fun p a b => select (broadcastInDim S16 ![] bcast_S_S16 p) a b)
  :: [] )
theorem I4_sub : (I4 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem I4_fresh : (I4 : List (HloOp τ sig (Elt F))).Forall fun op => op.fresh = ∅ := by
  simp only [List.Forall]; repeat' constructor

/-- Stretch 5: 11 operations of @main (main_part0). -/
abbrev I5 : List (HloOp τ sig (Elt F)) :=
  ( StableHlo.unary main_v36 main_v38 (broadcastInDim S1x16 ![1] bcast_S16_S1x16_1 : (⟨S16, .f32⟩ : BufTy).Contents (Elt F) → (⟨S1x16, .f32⟩ : BufTy).Contents (Elt F))
  :: StableHlo.unary main_v38 main_v39 (broadcastInDim S50000x16 ![0, 1] bcast_S1x16_S50000x16_0_1 : (⟨S1x16, .f32⟩ : BufTy).Contents (Elt F) → (⟨S50000x16, .f32⟩ : BufTy).Contents (Elt F))
  :: StableHlo.binary main_v33 main_v39 main_v40 (subf : (⟨S50000x16, .f32⟩ : BufTy).Contents (Elt F) → (⟨S50000x16, .f32⟩ : BufTy).Contents (Elt F) → (⟨S50000x16, .f32⟩ : BufTy).Contents (Elt F))
  :: StableHlo.nullary main_cst_9 (constant S_ .f32 0x3727C5AC#32)
  :: StableHlo.unary main_cst_9 main_v41 (broadcastInDim S16 ![] bcast_S_S16 : (⟨S_, .f32⟩ : BufTy).Contents (Elt F) → (⟨S16, .f32⟩ : BufTy).Contents (Elt F))
  :: StableHlo.binary main_v37 main_v41 main_v42 (addf : (⟨S16, .f32⟩ : BufTy).Contents (Elt F) → (⟨S16, .f32⟩ : BufTy).Contents (Elt F) → (⟨S16, .f32⟩ : BufTy).Contents (Elt F))
  :: StableHlo.unary main_v42 main_v43 (Host.rsqrt : (⟨S16, .f32⟩ : BufTy).Contents (Elt F) → (⟨S16, .f32⟩ : BufTy).Contents (Elt F))
  :: StableHlo.unary main_v43 main_v44 (broadcastInDim S1x16 ![1] bcast_S16_S1x16_1 : (⟨S16, .f32⟩ : BufTy).Contents (Elt F) → (⟨S1x16, .f32⟩ : BufTy).Contents (Elt F))
  :: StableHlo.unary main_v44 main_v45 (broadcastInDim S50000x16 ![0, 1] bcast_S1x16_S50000x16_0_1 : (⟨S1x16, .f32⟩ : BufTy).Contents (Elt F) → (⟨S50000x16, .f32⟩ : BufTy).Contents (Elt F))
  :: StableHlo.binary main_v40 main_v45 main_v46 (mulf : (⟨S50000x16, .f32⟩ : BufTy).Contents (Elt F) → (⟨S50000x16, .f32⟩ : BufTy).Contents (Elt F) → (⟨S50000x16, .f32⟩ : BufTy).Contents (Elt F))
  :: StableHlo.unary main_arg6 main_v47 (broadcastInDim S1x16 ![1] bcast_S16_S1x16_1 : (⟨S16, .f32⟩ : BufTy).Contents (Elt F) → (⟨S1x16, .f32⟩ : BufTy).Contents (Elt F))
  :: [] )
theorem I5_sub : (I5 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub ..⟩
theorem I5_fresh : (I5 : List (HloOp τ sig (Elt F))).Forall fun op => op.fresh = ∅ := by
  simp only [List.Forall]; repeat' constructor

/-- Stretch 6: 26 operations of @main (main_part1). -/
abbrev I6 : List (HloOp τ sig (Elt F)) :=
  ( StableHlo.unary main_v47 main_v48 (broadcastInDim S50000x16 ![0, 1] bcast_S1x16_S50000x16_0_1 : (⟨S1x16, .f32⟩ : BufTy).Contents (Elt F) → (⟨S50000x16, .f32⟩ : BufTy).Contents (Elt F))
  :: StableHlo.binary main_v46 main_v48 main_v49 (mulf : (⟨S50000x16, .f32⟩ : BufTy).Contents (Elt F) → (⟨S50000x16, .f32⟩ : BufTy).Contents (Elt F) → (⟨S50000x16, .f32⟩ : BufTy).Contents (Elt F))
  :: StableHlo.unary main_arg7 main_v50 (broadcastInDim S1x16 ![1] bcast_S16_S1x16_1 : (⟨S16, .f32⟩ : BufTy).Contents (Elt F) → (⟨S1x16, .f32⟩ : BufTy).Contents (Elt F))
  :: StableHlo.unary main_v50 main_v51 (broadcastInDim S50000x16 ![0, 1] bcast_S1x16_S50000x16_0_1 : (⟨S1x16, .f32⟩ : BufTy).Contents (Elt F) → (⟨S50000x16, .f32⟩ : BufTy).Contents (Elt F))
  :: StableHlo.binary main_v49 main_v51 main_v52 (addf : (⟨S50000x16, .f32⟩ : BufTy).Contents (Elt F) → (⟨S50000x16, .f32⟩ : BufTy).Contents (Elt F) → (⟨S50000x16, .f32⟩ : BufTy).Contents (Elt F))
  :: StableHlo.nullary main_cst_10 (constant S_ .f32 0x3F800000#32)
  :: StableHlo.unary main_cst_10 main_v53 (broadcastInDim S1600000 ![] bcast_S_S1600000 : (⟨S_, .f32⟩ : BufTy).Contents (Elt F) → (⟨S1600000, .f32⟩ : BufTy).Contents (Elt F))
  :: StableHlo.nullary main_cst_11 (constant S_ .f32 0x00000000#32)
  :: StableHlo.unary main_cst_11 main_v54 (broadcastInDim S50000 ![] bcast_S_S50000 : (⟨S_, .f32⟩ : BufTy).Contents (Elt F) → (⟨S50000, .f32⟩ : BufTy).Contents (Elt F))
  :: StableHlo.unary main_arg2 main_v55 (broadcastInDim S1600000x1 ![0] bcast_S1600000_S1600000x1_0 : (⟨S1600000, .i32⟩ : BufTy).Contents (Elt F) → (⟨S1600000x1, .i32⟩ : BufTy).Contents (Elt F))
  :: StableHlo.ternary main_v54 main_v55 main_v53 main_v56 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F))
  :: StableHlo.nullary main_cst_12 (constant S_ .f32 0x3F800000#32)
  :: StableHlo.unary main_cst_12 main_v57 (broadcastInDim S50000 ![] bcast_S_S50000 : (⟨S_, .f32⟩ : BufTy).Contents (Elt F) → (⟨S50000, .f32⟩ : BufTy).Contents (Elt F))
  :: StableHlo.binary main_v56 main_v57 main_v58 (maximumf : (⟨S50000, .f32⟩ : BufTy).Contents (Elt F) → (⟨S50000, .f32⟩ : BufTy).Contents (Elt F) → (⟨S50000, .f32⟩ : BufTy).Contents (Elt F))
  :: StableHlo.nullary main_cst_13 (constant S_ .f32 0x00000000#32)
  :: StableHlo.unary main_cst_13 main_v59 (broadcastInDim S50000 ![] bcast_S_S50000 : (⟨S_, .f32⟩ : BufTy).Contents (Elt F) → (⟨S50000, .f32⟩ : BufTy).Contents (Elt F))
  :: StableHlo.unary main_arg3 main_v60 (broadcastInDim S1600000x1 ![0] bcast_S1600000_S1600000x1_0 : (⟨S1600000, .i32⟩ : BufTy).Contents (Elt F) → (⟨S1600000x1, .i32⟩ : BufTy).Contents (Elt F))
  :: StableHlo.ternary main_v59 main_v60 main_v53 main_v61 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F))
  :: StableHlo.nullary main_cst_14 (constant S_ .f32 0x3F800000#32)
  :: StableHlo.unary main_cst_14 main_v62 (broadcastInDim S50000 ![] bcast_S_S50000 : (⟨S_, .f32⟩ : BufTy).Contents (Elt F) → (⟨S50000, .f32⟩ : BufTy).Contents (Elt F))
  :: StableHlo.binary main_v61 main_v62 main_v63 (maximumf : (⟨S50000, .f32⟩ : BufTy).Contents (Elt F) → (⟨S50000, .f32⟩ : BufTy).Contents (Elt F) → (⟨S50000, .f32⟩ : BufTy).Contents (Elt F))
  :: StableHlo.binary main_v52 main_arg8 main_v64 ((fun l r => Host.dotGeneral dot_S50000x16_S16x64_S50000x64_1_0_0_1_n_n none l r) : (⟨S50000x16, .f32⟩ : BufTy).Contents (Elt F) → (⟨S16x64, .f32⟩ : BufTy).Contents (Elt F) → (⟨S50000x64, .f32⟩ : BufTy).Contents (Elt F))
  :: StableHlo.unary main_v58 main_v65 (Host.rsqrt : (⟨S50000, .f32⟩ : BufTy).Contents (Elt F) → (⟨S50000, .f32⟩ : BufTy).Contents (Elt F))
  :: StableHlo.unary main_v65 main_v66 (broadcastInDim S50000x1 ![0] bcast_S50000_S50000x1_0 : (⟨S50000, .f32⟩ : BufTy).Contents (Elt F) → (⟨S50000x1, .f32⟩ : BufTy).Contents (Elt F))
  :: StableHlo.unary main_v66 main_v67 (broadcastInDim S50000x64 ![0, 1] bcast_S50000x1_S50000x64_0_1 : (⟨S50000x1, .f32⟩ : BufTy).Contents (Elt F) → (⟨S50000x64, .f32⟩ : BufTy).Contents (Elt F))
  :: StableHlo.binary main_v64 main_v67 main_v68 (mulf : (⟨S50000x64, .f32⟩ : BufTy).Contents (Elt F) → (⟨S50000x64, .f32⟩ : BufTy).Contents (Elt F) → (⟨S50000x64, .f32⟩ : BufTy).Contents (Elt F))
  :: [] )
theorem I6_sub : (I6 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., unary_bufs_sub .., binary_bufs_sub ..⟩
theorem I6_fresh : (I6 : List (HloOp τ sig (Elt F))).Forall fun op => op.fresh = ∅ := by
  simp only [List.Forall]; repeat' constructor

/-- Stretch 7: 34 operations of @main (main_part1). -/
abbrev I7 : List (HloOp τ sig (Elt F)) :=
  ( StableHlo.nullary main_c_15 (constantI S_ 32 0#32)
  :: StableHlo.unary main_c_15 main_v69 (broadcastInDim S1600000 ![] bcast_S_S1600000 : (⟨S_, .i32⟩ : BufTy).Contents (Elt F) → (⟨S1600000, .i32⟩ : BufTy).Contents (Elt F))
  :: StableHlo.binary main_arg2 main_v69 main_v70 (cmpi .slt : (⟨S1600000, .i32⟩ : BufTy).Contents (Elt F) → (⟨S1600000, .i32⟩ : BufTy).Contents (Elt F) → (⟨S1600000, .i1⟩ : BufTy).Contents (Elt F))
  :: StableHlo.nullary main_c_16 (constantI S_ 32 50000#32)
  :: StableHlo.unary main_c_16 main_v71 (broadcastInDim S1600000 ![] bcast_S_S1600000 : (⟨S_, .i32⟩ : BufTy).Contents (Elt F) → (⟨S1600000, .i32⟩ : BufTy).Contents (Elt F))
  :: StableHlo.binary main_arg2 main_v71 main_v72 (addi : (⟨S1600000, .i32⟩ : BufTy).Contents (Elt F) → (⟨S1600000, .i32⟩ : BufTy).Contents (Elt F) → (⟨S1600000, .i32⟩ : BufTy).Contents (Elt F))
  :: StableHlo.ternary main_v70 main_v72 main_arg2 main_v73 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v73 main_v74 (broadcastInDim S1600000x1 ![0] bcast_S1600000_S1600000x1_0 : (⟨S1600000, .i32⟩ : BufTy).Contents (Elt F) → (⟨S1600000x1, .i32⟩ : BufTy).Contents (Elt F))
  :: StableHlo.binary main_v68 main_v74 main_v75 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F))
  :: StableHlo.nullary main_cst_17 (constant S_ .f32 0x00000000#32)
  :: StableHlo.unary main_cst_17 main_v76 (broadcastInDim S50000x64 ![] bcast_S_S50000x64 : (⟨S_, .f32⟩ : BufTy).Contents (Elt F) → (⟨S50000x64, .f32⟩ : BufTy).Contents (Elt F))
  :: StableHlo.unary main_arg3 main_v77 (broadcastInDim S1600000x1 ![0] bcast_S1600000_S1600000x1_0 : (⟨S1600000, .i32⟩ : BufTy).Contents (Elt F) → (⟨S1600000x1, .i32⟩ : BufTy).Contents (Elt F))
  :: StableHlo.ternary main_v76 main_v77 main_v75 main_v78 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F))
  :: StableHlo.unary main_v63 main_v79 (Host.rsqrt : (⟨S50000, .f32⟩ : BufTy).Contents (Elt F) → (⟨S50000, .f32⟩ : BufTy).Contents (Elt F))
  :: StableHlo.unary main_v79 main_v80 (broadcastInDim S50000x1 ![0] bcast_S50000_S50000x1_0 : (⟨S50000, .f32⟩ : BufTy).Contents (Elt F) → (⟨S50000x1, .f32⟩ : BufTy).Contents (Elt F))
  :: StableHlo.unary main_v80 main_v81 (broadcastInDim S50000x64 ![0, 1] bcast_S50000x1_S50000x64_0_1 : (⟨S50000x1, .f32⟩ : BufTy).Contents (Elt F) → (⟨S50000x64, .f32⟩ : BufTy).Contents (Elt F))
  :: StableHlo.binary main_v78 main_v81 main_v82 (mulf : (⟨S50000x64, .f32⟩ : BufTy).Contents (Elt F) → (⟨S50000x64, .f32⟩ : BufTy).Contents (Elt F) → (⟨S50000x64, .f32⟩ : BufTy).Contents (Elt F))
  :: StableHlo.unary main_arg9 main_v83 (broadcastInDim S1x64 ![1] bcast_S64_S1x64_1 : (⟨S64, .f32⟩ : BufTy).Contents (Elt F) → (⟨S1x64, .f32⟩ : BufTy).Contents (Elt F))
  :: StableHlo.unary main_v83 main_v84 (broadcastInDim S50000x64 ![0, 1] bcast_S1x64_S50000x64_0_1 : (⟨S1x64, .f32⟩ : BufTy).Contents (Elt F) → (⟨S50000x64, .f32⟩ : BufTy).Contents (Elt F))
  :: StableHlo.binary main_v82 main_v84 main_v85 (addf : (⟨S50000x64, .f32⟩ : BufTy).Contents (Elt F) → (⟨S50000x64, .f32⟩ : BufTy).Contents (Elt F) → (⟨S50000x64, .f32⟩ : BufTy).Contents (Elt F))
  :: StableHlo.nullary main_c_18 (constantI S_ 32 0#32)
  :: StableHlo.unary main_c_18 main_v86 (broadcastInDim S1600000 ![] bcast_S_S1600000 : (⟨S_, .i32⟩ : BufTy).Contents (Elt F) → (⟨S1600000, .i32⟩ : BufTy).Contents (Elt F))
  :: StableHlo.binary main_arg2 main_v86 main_v87 (cmpi .slt : (⟨S1600000, .i32⟩ : BufTy).Contents (Elt F) → (⟨S1600000, .i32⟩ : BufTy).Contents (Elt F) → (⟨S1600000, .i1⟩ : BufTy).Contents (Elt F))
  :: StableHlo.nullary main_c_19 (constantI S_ 32 50000#32)
  :: StableHlo.unary main_c_19 main_v88 (broadcastInDim S1600000 ![] bcast_S_S1600000 : (⟨S_, .i32⟩ : BufTy).Contents (Elt F) → (⟨S1600000, .i32⟩ : BufTy).Contents (Elt F))
  :: StableHlo.binary main_arg2 main_v88 main_v89 (addi : (⟨S1600000, .i32⟩ : BufTy).Contents (Elt F) → (⟨S1600000, .i32⟩ : BufTy).Contents (Elt F) → (⟨S1600000, .i32⟩ : BufTy).Contents (Elt F))
  :: StableHlo.ternary main_v87 main_v89 main_arg2 main_v90 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v90 main_v91 (broadcastInDim S1600000x1 ![0] bcast_S1600000_S1600000x1_0 : (⟨S1600000, .i32⟩ : BufTy).Contents (Elt F) → (⟨S1600000x1, .i32⟩ : BufTy).Contents (Elt F))
  :: StableHlo.binary main_v85 main_v91 main_v92 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F))
  :: StableHlo.nullary main_c_20 (constantI S_ 32 0#32)
  :: StableHlo.unary main_c_20 main_v93 (broadcastInDim S1600000 ![] bcast_S_S1600000 : (⟨S_, .i32⟩ : BufTy).Contents (Elt F) → (⟨S1600000, .i32⟩ : BufTy).Contents (Elt F))
  :: StableHlo.binary main_arg3 main_v93 main_v94 (cmpi .slt : (⟨S1600000, .i32⟩ : BufTy).Contents (Elt F) → (⟨S1600000, .i32⟩ : BufTy).Contents (Elt F) → (⟨S1600000, .i1⟩ : BufTy).Contents (Elt F))
  :: StableHlo.nullary main_c_21 (constantI S_ 32 50000#32)
  :: StableHlo.unary main_c_21 main_v95 (broadcastInDim S1600000 ![] bcast_S_S1600000 : (⟨S_, .i32⟩ : BufTy).Contents (Elt F) → (⟨S1600000, .i32⟩ : BufTy).Contents (Elt F))
  :: [] )
theorem I7_sub : (I7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩
theorem I7_fresh : (I7 : List (HloOp τ sig (Elt F))).Forall fun op => op.fresh = ∅ := by
  simp only [List.Forall]; repeat' constructor

/-- Stretch 8: 9 operations of @main (main_part2). -/
abbrev I8 : List (HloOp τ sig (Elt F)) :=
  ( StableHlo.binary main_arg3 main_v95 main_v96 (addi : (⟨S1600000, .i32⟩ : BufTy).Contents (Elt F) → (⟨S1600000, .i32⟩ : BufTy).Contents (Elt F) → (⟨S1600000, .i32⟩ : BufTy).Contents (Elt F))
  :: StableHlo.ternary main_v94 main_v96 main_arg3 main_v97 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v97 main_v98 (broadcastInDim S1600000x1 ![0] bcast_S1600000_S1600000x1_0 : (⟨S1600000, .i32⟩ : BufTy).Contents (Elt F) → (⟨S1600000x1, .i32⟩ : BufTy).Contents (Elt F))
  :: StableHlo.binary main_v85 main_v98 main_v99 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F))
  :: StableHlo.nary ![main_arg1, main_v92, main_v99] main_v100 (fun u => concatenate S1600000x160 1 [⟨S1600000x32, u 0⟩, ⟨S1600000x64, u 1⟩, ⟨S1600000x64, u 2⟩] concatenates_S1600000x32_S1600000x64_S1600000x64_S1600000x160_d1)
  :: StableHlo.binary main_v100 main_arg10 main_v101 ((fun l r => Host.dotGeneral dot_S1600000x160_S160x16_S1600000x16_1_0_0_1_n_n none l r) : (⟨S1600000x160, .f32⟩ : BufTy).Contents (Elt F) → (⟨S160x16, .f32⟩ : BufTy).Contents (Elt F) → (⟨S1600000x16, .f32⟩ : BufTy).Contents (Elt F))
  :: StableHlo.unary main_arg11 main_v102 (broadcastInDim S1x16 ![1] bcast_S16_S1x16_1 : (⟨S16, .f32⟩ : BufTy).Contents (Elt F) → (⟨S1x16, .f32⟩ : BufTy).Contents (Elt F))
  :: StableHlo.unary main_v102 main_v103 (broadcastInDim S1600000x16 ![0, 1] bcast_S1x16_S1600000x16_0_1 : (⟨S1x16, .f32⟩ : BufTy).Contents (Elt F) → (⟨S1600000x16, .f32⟩ : BufTy).Contents (Elt F))
  :: StableHlo.binary main_v101 main_v103 main_v104 (addf : (⟨S1600000x16, .f32⟩ : BufTy).Contents (Elt F) → (⟨S1600000x16, .f32⟩ : BufTy).Contents (Elt F) → (⟨S1600000x16, .f32⟩ : BufTy).Contents (Elt F))
  :: [] )
theorem I8_sub : (I8 : List (HloOp τ sig (Elt F))).Forall fun op => op.bufs ⊆ tcRefs τ sig :=
  ⟨binary_bufs_sub .., ternary_bufs_sub .., unary_bufs_sub .., binary_bufs_sub .., nary_bufs_sub .., binary_bufs_sub .., unary_bufs_sub .., unary_bufs_sub .., binary_bufs_sub ..⟩
theorem I8_fresh : (I8 : List (HloOp τ sig (Elt F))).Forall fun op => op.fresh = ∅ := by
  simp only [List.Forall]; repeat' constructor

/-- Stretch 9: 6 operations of @main (main_part2). -/
abbrev I9 : List (HloOp τ sig (Elt F)) :=
  ( StableHlo.nullary main_cst_22 (constant S_ .f32 0x00000000#32)
  :: StableHlo.binary main_v104 main_cst_22 main_v105 ((fun x v => Host.reduceAdd x v reducesTo_S1600000x16_S16_d0 h_S_) : (⟨S1600000x16, .f32⟩ : BufTy).Contents (Elt F) → (⟨S_, .f32⟩ : BufTy).Contents (Elt F) → (⟨S16, .f32⟩ : BufTy).Contents (Elt F))
  :: StableHlo.nullary main_cst_23 (constant S_ .f32 0x49C35000#32)
  :: StableHlo.unary main_cst_23 main_v106 (broadcastInDim S16 ![] bcast_S_S16 : (⟨S_, .f32⟩ : BufTy).Contents (Elt F) → (⟨S16, .f32⟩ : BufTy).Contents (Elt F))
  :: StableHlo.binary main_v105 main_v106 main_v107 (Host.divf : (⟨S16, .f32⟩ : BufTy).Contents (Elt F) → (⟨S16, .f32⟩ : BufTy).Contents (Elt F) → (⟨S16, .f32⟩ : BufTy).Contents (Elt F))
  :: StableHlo.nullary main_c_24 (constantI S_ 32 0#32)
  :: [] )
theorem I9_sub : (I9 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem I9_fresh : (I9 : List (HloOp τ sig (Elt F))).Forall fun op => op.fresh = ∅ := by
  simp only [List.Forall]; repeat' constructor

/-- Stretch 10: 22 operations of @var_0 (main_part2). -/
abbrev I10 : List (HloOp τ sig (Elt F)) :=
  ( StableHlo.TRef.nullary main_call2.cst (constant S_ .f32 0x00000000#32)
  :: StableHlo.TRef.binary ((.of main_v104) : StableHlo.TRef sig ⟨S1600000x16, .f32⟩) main_call2.cst main_call2.v0 (fun x v => Host.reduceAdd x v reducesTo_S1600000x16_S16_d0 h_S_)
  :: StableHlo.TRef.unary main_call2.v0 main_call2.v1 (broadcastInDim S1x16 ![1] bcast_S16_S1x16_1)
  :: StableHlo.TRef.nullary main_call2.cst_0 (constant S_ .f32 0x49C35000#32)
  :: StableHlo.TRef.unary main_call2.cst_0 main_call2.v2 (broadcastInDim S1x16 ![] bcast_S_S1x16)
  :: StableHlo.TRef.binary main_call2.v1 main_call2.v2 main_call2.v3 Host.divf
  :: StableHlo.TRef.unary main_call2.v3 main_call2.v4 (broadcastInDim S1600000x16 ![0, 1] bcast_S1x16_S1600000x16_0_1)
  :: StableHlo.TRef.binary ((.of main_v104) : StableHlo.TRef sig ⟨S1600000x16, .f32⟩) main_call2.v4 main_call2.v5 subf
  :: StableHlo.TRef.binary main_call2.v5 main_call2.v5 main_call2.v6 mulf
  :: StableHlo.TRef.unary ((.of main_c_24) : StableHlo.TRef sig ⟨S_, .i32⟩) main_call2.v7 (sitofp .f32)
  :: StableHlo.TRef.nullary main_call2.cst_1 (constant S_ .f32 0x49C35000#32)
  :: StableHlo.TRef.binary main_call2.cst_1 main_call2.v7 main_call2.v8 subf
  :: StableHlo.TRef.nullary main_call2.cst_2 (constant S_ .f32 0x00000000#32)
  :: StableHlo.TRef.binary main_call2.v6 main_call2.cst_2 main_call2.v9 (fun x v => Host.reduceAdd x v reducesTo_S1600000x16_S16_d0 h_S_)
  :: StableHlo.TRef.unary main_call2.v8 main_call2.v10 (broadcastInDim S16 ![] bcast_S_S16)
  :: StableHlo.TRef.binary main_call2.v9 main_call2.v10 main_call2.v11 Host.divf
  :: StableHlo.TRef.nullary main_call2.cst_3 (constant S_ .f32 0x00000000#32)
  :: StableHlo.TRef.binary main_call2.v8 main_call2.cst_3 main_call2.v12 (cmpf .ogt)
  :: StableHlo.TRef.nullary main_call2.cst_4 (constant S_ .f32 0x7FC00000#32)
  :: StableHlo.TRef.unary (main_call2.cst_4 : StableHlo.TRef sig ⟨S_, .f32⟩) main_call2.call0.v0 id
  :: StableHlo.TRef.unary main_call2.call0.v0 main_call2.call0.v1 (broadcastInDim S16 ![] bcast_S_S16)
  :: StableHlo.TRef.ternary (main_call2.v12 : StableHlo.TRef sig ⟨S_, .i1⟩) (main_call2.v11 : StableHlo.TRef sig ⟨S16, .f32⟩) main_call2.call0.v1 main_call2.call0.v2 (fun p a b => select (broadcastInDim S16 ![] bcast_S_S16 p) a b)
  :: [] )
theorem I10_sub : (I10 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem I10_fresh : (I10 : List (HloOp τ sig (Elt F))).Forall fun op => op.fresh = ∅ := by
  simp only [List.Forall]; repeat' constructor

/-- Stretch 11: 20 operations of @main (main_part2). -/
abbrev I11 : List (HloOp τ sig (Elt F)) :=
  ( StableHlo.unary main_v107 main_v109 (broadcastInDim S1x16 ![1] bcast_S16_S1x16_1 : (⟨S16, .f32⟩ : BufTy).Contents (Elt F) → (⟨S1x16, .f32⟩ : BufTy).Contents (Elt F))
  :: StableHlo.unary main_v109 main_v110 (broadcastInDim S1600000x16 ![0, 1] bcast_S1x16_S1600000x16_0_1 : (⟨S1x16, .f32⟩ : BufTy).Contents (Elt F) → (⟨S1600000x16, .f32⟩ : BufTy).Contents (Elt F))
  :: StableHlo.binary main_v104 main_v110 main_v111 (subf : (⟨S1600000x16, .f32⟩ : BufTy).Contents (Elt F) → (⟨S1600000x16, .f32⟩ : BufTy).Contents (Elt F) → (⟨S1600000x16, .f32⟩ : BufTy).Contents (Elt F))
  :: StableHlo.nullary main_cst_25 (constant S_ .f32 0x3727C5AC#32)
  :: StableHlo.unary main_cst_25 main_v112 (broadcastInDim S16 ![] bcast_S_S16 : (⟨S_, .f32⟩ : BufTy).Contents (Elt F) → (⟨S16, .f32⟩ : BufTy).Contents (Elt F))
  :: StableHlo.binary main_v108 main_v112 main_v113 (addf : (⟨S16, .f32⟩ : BufTy).Contents (Elt F) → (⟨S16, .f32⟩ : BufTy).Contents (Elt F) → (⟨S16, .f32⟩ : BufTy).Contents (Elt F))
  :: StableHlo.unary main_v113 main_v114 (Host.rsqrt : (⟨S16, .f32⟩ : BufTy).Contents (Elt F) → (⟨S16, .f32⟩ : BufTy).Contents (Elt F))
  :: StableHlo.unary main_v114 main_v115 (broadcastInDim S1x16 ![1] bcast_S16_S1x16_1 : (⟨S16, .f32⟩ : BufTy).Contents (Elt F) → (⟨S1x16, .f32⟩ : BufTy).Contents (Elt F))
  :: StableHlo.unary main_v115 main_v116 (broadcastInDim S1600000x16 ![0, 1] bcast_S1x16_S1600000x16_0_1 : (⟨S1x16, .f32⟩ : BufTy).Contents (Elt F) → (⟨S1600000x16, .f32⟩ : BufTy).Contents (Elt F))
  :: StableHlo.binary main_v111 main_v116 main_v117 (mulf : (⟨S1600000x16, .f32⟩ : BufTy).Contents (Elt F) → (⟨S1600000x16, .f32⟩ : BufTy).Contents (Elt F) → (⟨S1600000x16, .f32⟩ : BufTy).Contents (Elt F))
  :: StableHlo.unary main_arg12 main_v118 (broadcastInDim S1x16 ![1] bcast_S16_S1x16_1 : (⟨S16, .f32⟩ : BufTy).Contents (Elt F) → (⟨S1x16, .f32⟩ : BufTy).Contents (Elt F))
  :: StableHlo.unary main_v118 main_v119 (broadcastInDim S1600000x16 ![0, 1] bcast_S1x16_S1600000x16_0_1 : (⟨S1x16, .f32⟩ : BufTy).Contents (Elt F) → (⟨S1600000x16, .f32⟩ : BufTy).Contents (Elt F))
  :: StableHlo.binary main_v117 main_v119 main_v120 (mulf : (⟨S1600000x16, .f32⟩ : BufTy).Contents (Elt F) → (⟨S1600000x16, .f32⟩ : BufTy).Contents (Elt F) → (⟨S1600000x16, .f32⟩ : BufTy).Contents (Elt F))
  :: StableHlo.unary main_arg13 main_v121 (broadcastInDim S1x16 ![1] bcast_S16_S1x16_1 : (⟨S16, .f32⟩ : BufTy).Contents (Elt F) → (⟨S1x16, .f32⟩ : BufTy).Contents (Elt F))
  :: StableHlo.unary main_v121 main_v122 (broadcastInDim S1600000x16 ![0, 1] bcast_S1x16_S1600000x16_0_1 : (⟨S1x16, .f32⟩ : BufTy).Contents (Elt F) → (⟨S1600000x16, .f32⟩ : BufTy).Contents (Elt F))
  :: StableHlo.binary main_v120 main_v122 main_v123 (addf : (⟨S1600000x16, .f32⟩ : BufTy).Contents (Elt F) → (⟨S1600000x16, .f32⟩ : BufTy).Contents (Elt F) → (⟨S1600000x16, .f32⟩ : BufTy).Contents (Elt F))
  :: StableHlo.binary main_v123 main_arg14 main_v124 ((fun l r => Host.dotGeneral dot_S1600000x16_S16x8_S1600000x8_1_0_0_1_n_n none l r) : (⟨S1600000x16, .f32⟩ : BufTy).Contents (Elt F) → (⟨S16x8, .f32⟩ : BufTy).Contents (Elt F) → (⟨S1600000x8, .f32⟩ : BufTy).Contents (Elt F))
  :: StableHlo.unary main_arg15 main_v125 (broadcastInDim S1x8 ![1] bcast_S8_S1x8_1 : (⟨S8, .f32⟩ : BufTy).Contents (Elt F) → (⟨S1x8, .f32⟩ : BufTy).Contents (Elt F))
  :: StableHlo.unary main_v125 main_v126 (broadcastInDim S1600000x8 ![0, 1] bcast_S1x8_S1600000x8_0_1 : (⟨S1x8, .f32⟩ : BufTy).Contents (Elt F) → (⟨S1600000x8, .f32⟩ : BufTy).Contents (Elt F))
  :: StableHlo.binary main_v124 main_v126 main_v127 (addf : (⟨S1600000x8, .f32⟩ : BufTy).Contents (Elt F) → (⟨S1600000x8, .f32⟩ : BufTy).Contents (Elt F) → (⟨S1600000x8, .f32⟩ : BufTy).Contents (Elt F))
  :: [] )
theorem I11_sub : (I11 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub ..⟩
theorem I11_fresh : (I11 : List (HloOp τ sig (Elt F))).Forall fun op => op.fresh = ∅ := by
  simp only [List.Forall]; repeat' constructor

/-- Stretch 12: 15 operations of @log_softmax (main_part2). -/
abbrev I12 : List (HloOp τ sig (Elt F)) :=
  ( StableHlo.TRef.nullary main_call3.cst (constant S_ .f32 0xFF800000#32)
  :: StableHlo.TRef.binary ((.of main_v127) : StableHlo.TRef sig ⟨S1600000x8, .f32⟩) main_call3.cst main_call3.v0 (fun x v => Host.reduce FloatOps.maximumf x v reducesTo_S1600000x8_S1600000_d1 h_S_)
  :: StableHlo.TRef.nullary main_call3.cst_0 (constant S_ .f32 0xFF800000#32)
  :: StableHlo.TRef.unary main_call3.cst_0 main_call3.v1 (broadcastInDim S1600000 ![] bcast_S_S1600000)
  :: StableHlo.TRef.binary main_call3.v1 main_call3.v0 main_call3.v2 maximumf
  :: StableHlo.TRef.unary main_call3.v2 main_call3.v3 (broadcastInDim S1600000x1 ![0] bcast_S1600000_S1600000x1_0)
  :: StableHlo.TRef.unary main_call3.v3 main_call3.v4 (broadcastInDim S1600000x8 ![0, 1] bcast_S1600000x1_S1600000x8_0_1)
  :: StableHlo.TRef.binary ((.of main_v127) : StableHlo.TRef sig ⟨S1600000x8, .f32⟩) main_call3.v4 main_call3.v5 subf
  :: StableHlo.TRef.unary main_call3.v5 main_call3.v6 Host.exp
  :: StableHlo.TRef.nullary main_call3.cst_1 (constant S_ .f32 0x00000000#32)
  :: StableHlo.TRef.binary main_call3.v6 main_call3.cst_1 main_call3.v7 (fun x v => Host.reduceAdd x v reducesTo_S1600000x8_S1600000_d1 h_S_)
  :: StableHlo.TRef.unary main_call3.v7 main_call3.v8 (broadcastInDim S1600000x1 ![0] bcast_S1600000_S1600000x1_0)
  :: StableHlo.TRef.unary main_call3.v8 main_call3.v9 Host.log
  :: StableHlo.TRef.unary main_call3.v9 main_call3.v10 (broadcastInDim S1600000x8 ![0, 1] bcast_S1600000x1_S1600000x8_0_1)
  :: StableHlo.TRef.binary main_call3.v5 main_call3.v10 main_call3.v11 subf
  :: [] )
theorem I12_sub : (I12 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem I12_fresh : (I12 : List (HloOp τ sig (Elt F))).Forall fun op => op.fresh = ∅ := by
  simp only [List.Forall]; repeat' constructor

theorem main_part0_chain (c : Dev nD) : main_part0 (F := F) c = (Pipeline.chainK [seq I0, seq I1, seq I2, seq I3, seq I4] (seq I5) : Prog (TpuEff nD τ sig (Elt F) (Pipeline.Sig Λ₀ (Fin 0) fun p => (pcfgs (F := F) p).Adm) .tc) PUnit) := by
  chain_rfl

theorem main_part1_chain (c : Dev nD) : main_part1 (F := F) c = (Pipeline.chainK [seq I6] (seq I7) : Prog (TpuEff nD τ sig (Elt F) (Pipeline.Sig Λ₀ (Fin 0) fun p => (pcfgs (F := F) p).Adm) .tc) PUnit) := by
  chain_rfl

theorem main_part2_chain (c : Dev nD) : main_part2 (F := F) c = (Pipeline.chain [seq I8, seq I9, seq I10, seq I11, seq I12] : Prog (TpuEff nD τ sig (Elt F) (Pipeline.Sig Λ₀ (Fin 0) fun p => (pcfgs (F := F) p).Adm) .tc) PUnit) := by
  chain_rfl

/-- The stretches, in order. -/
abbrev items : List (List (HloOp τ sig (Elt F))) := [I0, I1, I2, I3, I4, I5, I6, I7, I8, I9, I10, I11, I12]

theorem main_chain (c : Dev nD) : main (F := F) c = (Pipeline.chain [seq I0, seq I1, seq I2, seq I3, seq I4, seq I5, seq I6, seq I7, seq I8, seq I9, seq I10, seq I11, seq I12] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

theorem items_sub : ∀ l ∈ (items : List (List (HloOp τ sig (Elt F)))), l.Forall fun op => op.bufs ⊆ tcRefs τ sig := by
  intro l hl
  simp only [items, List.mem_cons, List.mem_nil_iff, or_false] at hl
  rcases hl with rfl | rfl | rfl | rfl | rfl | rfl | rfl | rfl | rfl | rfl | rfl | rfl | rfl
  · exact I0_sub
  · exact I1_sub
  · exact I2_sub
  · exact I3_sub
  · exact I4_sub
  · exact I5_sub
  · exact I6_sub
  · exact I7_sub
  · exact I8_sub
  · exact I9_sub
  · exact I10_sub
  · exact I11_sub
  · exact I12_sub

theorem items_fresh : ∀ l ∈ (items : List (List (HloOp τ sig (Elt F)))), l.Forall fun op => op.fresh = ∅ := by
  intro l hl
  simp only [items, List.mem_cons, List.mem_nil_iff, or_false] at hl
  rcases hl with rfl | rfl | rfl | rfl | rfl | rfl | rfl | rfl | rfl | rfl | rfl | rfl | rfl
  · exact I0_fresh
  · exact I1_fresh
  · exact I2_fresh
  · exact I3_fresh
  · exact I4_fresh
  · exact I5_fresh
  · exact I6_fresh
  · exact I7_fresh
  · exact I8_fresh
  · exact I9_fresh
  · exact I10_fresh
  · exact I11_fresh
  · exact I12_fresh

end Cert.ReferenceIdeal.Ops

end
-- ==== Proof.RefRun.lean ====
/-
  The reference program's run. Its @main is thirteen stretches of host operations (cut where it calls a function of the
  module, the callee's operations standing in the call's place), so it is the one straight line of all of them;
  every weakly fair execution ends with each buffer at the fold of those operations over the launch contents. The
  fold is named stretch by stretch: `R1` is the contents after the first stretch, `R13` after the last.
-/
import proofs.«400428_j65575560675752_4_alg».proof.Proof.RefOps

noncomputable section

namespace Cert.ReferenceIdeal.Run

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- Stretches run one after the other are the one stretch of all their operations. -/
theorem chain_seq_flatten {Λ : Idealize.SL.Sem.Labels} : ∀ L : List (List (HloOp τ sig (Elt F))),
    (Pipeline.chain (L.map fun l => (seq l : Prog (TpuEff nD τ sig (Elt F) Λ .tc) PUnit))) = seq L.flatten
  | [] => rfl
  | l :: L => by rw [List.map_cons, Pipeline.chain_cons, chain_seq_flatten L, List.flatten_cons, seq_append]

/-- @main is the straight line of its stretches' operations. -/
theorem main_eq (c : Dev nD) : main (F := F) c = seq (items (F := F)).flatten :=
  (main_chain c).trans (chain_seq_flatten items)

theorem ops_sub : ((items (F := F)).flatten).Forall fun op => op.bufs ⊆ tcRefs τ sig :=
  List.forall_iff_forall_mem.mpr fun op h => by
    obtain ⟨l, hl, hop⟩ := List.mem_flatten.mp h
    exact List.forall_iff_forall_mem.mp (items_sub l hl) op hop

theorem ops_fresh : ∀ op ∈ (items (F := F)).flatten, op.fresh = ∅ := fun op h => by
  obtain ⟨l, hl, hop⟩ := List.mem_flatten.mp h
  exact List.forall_iff_forall_mem.mp (items_fresh l hl) op hop

theorem scopedRefs_eq : (Finset.univ.filter fun b : Ref sig .tc => b.isScoped) = ∅ := by decide
theorem scopedSems_eq : (Finset.univ.filter fun sm : SemLoc sig => sm.isScoped .tc) = ∅ := by decide

/-! The buffer contents after each stretch, from contents `V`. -/
abbrev R1 (V : Valuation τ sig (Elt F)) : Valuation τ sig (Elt F) := after I0 V
abbrev R2 (V : Valuation τ sig (Elt F)) : Valuation τ sig (Elt F) := after I1 (R1 V)
abbrev R3 (V : Valuation τ sig (Elt F)) : Valuation τ sig (Elt F) := after I2 (R2 V)
abbrev R4 (V : Valuation τ sig (Elt F)) : Valuation τ sig (Elt F) := after I3 (R3 V)
abbrev R5 (V : Valuation τ sig (Elt F)) : Valuation τ sig (Elt F) := after I4 (R4 V)
abbrev R6 (V : Valuation τ sig (Elt F)) : Valuation τ sig (Elt F) := after I5 (R5 V)
abbrev R7 (V : Valuation τ sig (Elt F)) : Valuation τ sig (Elt F) := after I6 (R6 V)
abbrev R8 (V : Valuation τ sig (Elt F)) : Valuation τ sig (Elt F) := after I7 (R7 V)
abbrev R9 (V : Valuation τ sig (Elt F)) : Valuation τ sig (Elt F) := after I8 (R8 V)
abbrev R10 (V : Valuation τ sig (Elt F)) : Valuation τ sig (Elt F) := after I9 (R9 V)
abbrev R11 (V : Valuation τ sig (Elt F)) : Valuation τ sig (Elt F) := after I10 (R10 V)
abbrev R12 (V : Valuation τ sig (Elt F)) : Valuation τ sig (Elt F) := after I11 (R11 V)
abbrev R13 (V : Valuation τ sig (Elt F)) : Valuation τ sig (Elt F) := after I12 (R12 V)

/-- The fold of all the operations is the last stretch's contents. -/
theorem after_ops (V : Valuation τ sig (Elt F)) : after (items (F := F)).flatten V = R13 V := by
  simp only [items, List.flatten_cons, List.flatten_nil, List.append_nil, after_append]

/-- Every weakly fair execution of the reference terminates with each buffer at the last stretch's contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R13 (launchContents m c) (Proc.devRef .tc b) :=
  (θ_run defs _ _).mono (fun _ h c b => (h c b).trans (congrFun (after_ops _) _))
    (run_seq scopedRefs_eq scopedSems_eq defs main (fun _ => (items (F := F)).flatten) main_eq (fun _ => ops_sub) m ρ
      (fun _ => ops_fresh))

end Cert.ReferenceIdeal.Run

end
-- ==== Proof.RCarry.lean ====
/-
  What the reference program's stretches leave untouched: no operation writes an argument buffer, so after every
  stretch each argument holds its launch contents; and the pre-normalisation rows and their column means are carried
  unchanged across the stretches between the one that computes them and the one that reads them.
-/
import proofs.«400428_j65575560675752_4_alg».proof.Proof.RefRun
import Idealize.ShloMosaic.PureOps.Ideal

set_option maxRecDepth 16384

noncomputable section

namespace Cert.ReferenceIdeal.Carry

open Cert.ReferenceIdeal Cert.ReferenceIdeal.Gen Cert.ReferenceIdeal.Ops Cert.ReferenceIdeal.Run
open Idealize.ShloMosaic Idealize.ShloMosaic.TcCoe Idealize.SL.Sem Idealize.ShloMosaic.StableHlo

variable {F : FTy → Type} [FloatOps F]
variable (V : Valuation τ sig (Elt F))

/-- The sixteen argument buffers. -/
abbrev argList : List (Ref sig .tc) :=
  [main_arg0, main_arg1, main_arg2, main_arg3, main_arg4, main_arg5, main_arg6, main_arg7, main_arg8, main_arg9, main_arg10,
   main_arg11, main_arg12, main_arg13, main_arg14, main_arg15]

/-- A stretch of host operations leaves a buffer it does not write as it was. -/
macro "keep_host" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))))

/-- The same for a buffer known only as one of the arguments: no operation writes an argument. -/
macro "keep_arg" ops:ident hb:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (fun h => absurd (h ▸ $hb) (by decide)))))

/-! ## The arguments after each stretch -/

theorem args1 (b : Ref sig .tc) (hb : b ∈ argList) : R1 V (Proc.devRef .tc b) = V (Proc.devRef .tc b) := by
  keep_arg I0 hb

theorem args2 (b : Ref sig .tc) (hb : b ∈ argList) : R2 V (Proc.devRef .tc b) = V (Proc.devRef .tc b) :=
  (by keep_arg I1 hb : R2 V (Proc.devRef .tc b) = R1 V (Proc.devRef .tc b)).trans (args1 V b hb)

theorem args3 (b : Ref sig .tc) (hb : b ∈ argList) : R3 V (Proc.devRef .tc b) = V (Proc.devRef .tc b) :=
  (by keep_arg I2 hb : R3 V (Proc.devRef .tc b) = R2 V (Proc.devRef .tc b)).trans (args2 V b hb)

theorem args4 (b : Ref sig .tc) (hb : b ∈ argList) : R4 V (Proc.devRef .tc b) = V (Proc.devRef .tc b) :=
  (by keep_arg I3 hb : R4 V (Proc.devRef .tc b) = R3 V (Proc.devRef .tc b)).trans (args3 V b hb)

theorem args5 (b : Ref sig .tc) (hb : b ∈ argList) : R5 V (Proc.devRef .tc b) = V (Proc.devRef .tc b) :=
  (by keep_arg I4 hb : R5 V (Proc.devRef .tc b) = R4 V (Proc.devRef .tc b)).trans (args4 V b hb)

theorem args6 (b : Ref sig .tc) (hb : b ∈ argList) : R6 V (Proc.devRef .tc b) = V (Proc.devRef .tc b) :=
  (by keep_arg I5 hb : R6 V (Proc.devRef .tc b) = R5 V (Proc.devRef .tc b)).trans (args5 V b hb)

theorem args7 (b : Ref sig .tc) (hb : b ∈ argList) : R7 V (Proc.devRef .tc b) = V (Proc.devRef .tc b) :=
  (by keep_arg I6 hb : R7 V (Proc.devRef .tc b) = R6 V (Proc.devRef .tc b)).trans (args6 V b hb)

theorem args8 (b : Ref sig .tc) (hb : b ∈ argList) : R8 V (Proc.devRef .tc b) = V (Proc.devRef .tc b) :=
  (by keep_arg I7 hb : R8 V (Proc.devRef .tc b) = R7 V (Proc.devRef .tc b)).trans (args7 V b hb)

theorem args9 (b : Ref sig .tc) (hb : b ∈ argList) : R9 V (Proc.devRef .tc b) = V (Proc.devRef .tc b) :=
  (by keep_arg I8 hb : R9 V (Proc.devRef .tc b) = R8 V (Proc.devRef .tc b)).trans (args8 V b hb)

theorem args10 (b : Ref sig .tc) (hb : b ∈ argList) : R10 V (Proc.devRef .tc b) = V (Proc.devRef .tc b) :=
  (by keep_arg I9 hb : R10 V (Proc.devRef .tc b) = R9 V (Proc.devRef .tc b)).trans (args9 V b hb)

theorem args11 (b : Ref sig .tc) (hb : b ∈ argList) : R11 V (Proc.devRef .tc b) = V (Proc.devRef .tc b) :=
  (by keep_arg I10 hb : R11 V (Proc.devRef .tc b) = R10 V (Proc.devRef .tc b)).trans (args10 V b hb)

theorem args12 (b : Ref sig .tc) (hb : b ∈ argList) : R12 V (Proc.devRef .tc b) = V (Proc.devRef .tc b) :=
  (by keep_arg I11 hb : R12 V (Proc.devRef .tc b) = R11 V (Proc.devRef .tc b)).trans (args11 V b hb)

theorem args13 (b : Ref sig .tc) (hb : b ∈ argList) : R13 V (Proc.devRef .tc b) = V (Proc.devRef .tc b) :=
  (by keep_arg I12 hb : R13 V (Proc.devRef .tc b) = R12 V (Proc.devRef .tc b)).trans (args12 V b hb)

/-! ## Intermediate buffers carried to their readers -/

/-- The pre-normalisation rows, across the stretches that compute their column means and variances. -/
theorem v104_at11 : R11 V (Proc.devRef .tc main_v104) = R9 V (Proc.devRef .tc main_v104) :=
  calc R11 V (Proc.devRef .tc main_v104)
    _ = R10 V (Proc.devRef .tc main_v104) := by keep_host I10
    _ = R9 V (Proc.devRef .tc main_v104) := by keep_host I9

/-- The column means, across the variance's stretch. -/
theorem v107_at11 : R11 V (Proc.devRef .tc main_v107) = R10 V (Proc.devRef .tc main_v107) := by
  keep_host I10

end Cert.ReferenceIdeal.Carry

end
-- ==== Proof.LibReal.lean ====
/-
  Arrays of extended reals all of whose entries are real numbers (`IsReal`), positive real numbers (`IsPos`) or
  non-negative real numbers (`IsNonneg`), and the operations that keep them so: sums, differences, products, maxima,
  quotients by a positive array, reciprocal square roots of a positive array, broadcasts, contractions, sums along
  an axis, row gathers and accumulating scatters.
-/
import Idealize.ShloMosaic.PureOps.Ideal
import Idealize.ShloMosaic.PureOps.Ideal.Laws

noncomputable section

open scoped BigOperators

namespace Idealize.ShloMosaic.RealArr

/-- Every entry is a real number. -/
def IsReal {s : Shape} (v : s.Idx → EReal) : Prop := ∀ i, ∃ r : ℝ, v i = (r : EReal)

/-- Every entry is a positive real number. -/
def IsPos {s : Shape} (v : s.Idx → EReal) : Prop := ∀ i, ∃ r : ℝ, 0 < r ∧ v i = (r : EReal)

/-- Every entry is a non-negative real number. -/
def IsNonneg {s : Shape} (v : s.Idx → EReal) : Prop := ∀ i, ∃ r : ℝ, 0 ≤ r ∧ v i = (r : EReal)

variable {s t : Shape}

theorem IsPos.isReal {v : s.Idx → EReal} (h : IsPos v) : IsReal v := fun i =>
  let ⟨r, _, e⟩ := h i; ⟨r, e⟩

theorem IsNonneg.isReal {v : s.Idx → EReal} (h : IsNonneg v) : IsReal v := fun i =>
  let ⟨r, _, e⟩ := h i; ⟨r, e⟩

theorem IsPos.isNonneg {v : s.Idx → EReal} (h : IsPos v) : IsNonneg v := fun i =>
  let ⟨r, hr, e⟩ := h i; ⟨r, hr.le, e⟩

/-! ### The literals -/

/-- The pattern of `+0.0` denotes `0`. -/
theorem ofBits_zero : Ideal.ofBits .f32 0x00000000#32 = ((0 : ℝ) : EReal) := by
  simp [Ideal.ofBits, Ideal.ieee]

/-- The pattern of `1.0` denotes `1`. -/
theorem ofBits_one : Ideal.ofBits .f32 0x3F800000#32 = ((1 : ℝ) : EReal) := by
  simp [Ideal.ofBits, Ideal.ieee, -EReal.coe_mul]; norm_num

/-- The pattern `0x47435000` denotes `50000`. -/
theorem ofBits_50000 : Ideal.ofBits .f32 0x47435000#32 = ((50000 : ℝ) : EReal) := by
  simp [Ideal.ofBits, Ideal.ieee, -EReal.coe_mul]; norm_num

/-- The pattern `0x49C35000` denotes `1600000`. -/
theorem ofBits_1600000 : Ideal.ofBits .f32 0x49C35000#32 = ((1600000 : ℝ) : EReal) := by
  simp [Ideal.ofBits, Ideal.ieee, -EReal.coe_mul]; norm_num

/-- The pattern `0x3727C5AC` (about `1e-5`) denotes a positive real. -/
theorem ofBits_eps : ∃ r : ℝ, 0 < r ∧ Ideal.ofBits .f32 0x3727C5AC#32 = (r : EReal) := by
  refine ⟨10995116 * (2 : ℝ) ^ (-40 : Int), by positivity, ?_⟩
  simp [Ideal.ofBits, Ideal.ieee, -EReal.coe_mul]

/-! ### Sums of real numbers -/

/-- A finite sum of real numbers is a real number. -/
theorem sum_real {ι : Type} (S : Finset ι) (f : ι → EReal) (h : ∀ i ∈ S, ∃ r : ℝ, f i = (r : EReal)) :
    ∃ r : ℝ, ∑ i ∈ S, f i = (r : EReal) := by
  refine Finset.sum_induction f (fun a => ∃ r : ℝ, a = (r : EReal)) ?_ ⟨0, EReal.coe_zero.symm⟩ h
  rintro a b ⟨r, rfl⟩ ⟨r', rfl⟩
  exact ⟨r + r', (EReal.coe_add r r').symm⟩

/-- A finite sum of non-negative real numbers is a non-negative real number. -/
theorem sum_nonneg {ι : Type} (S : Finset ι) (f : ι → EReal) (h : ∀ i ∈ S, ∃ r : ℝ, 0 ≤ r ∧ f i = (r : EReal)) :
    ∃ r : ℝ, 0 ≤ r ∧ ∑ i ∈ S, f i = (r : EReal) := by
  refine Finset.sum_induction f (fun a => ∃ r : ℝ, 0 ≤ r ∧ a = (r : EReal)) ?_ ⟨0, le_rfl, EReal.coe_zero.symm⟩ h
  rintro a b ⟨r, hr, rfl⟩ ⟨r', hr', rfl⟩
  exact ⟨r + r', add_nonneg hr hr', (EReal.coe_add r r').symm⟩

/-! ### Constants and broadcasts -/

/-- The splat of a pattern that denotes a real number. -/
theorem IsReal.constant {b : BitVec 32} {r : ℝ} (h : Ideal.ofBits .f32 b = (r : EReal)) :
    IsReal (constant (F := Ideal) s .f32 b) := fun _ => ⟨r, h⟩

/-- The splat of a pattern that denotes a positive real number. -/
theorem IsPos.constant {b : BitVec 32} (h : ∃ r : ℝ, 0 < r ∧ Ideal.ofBits .f32 b = (r : EReal)) :
    IsPos (constant (F := Ideal) s .f32 b) := fun _ => h

/-- The splat of `+0.0` is non-negative. -/
theorem IsNonneg.constant_zero : IsNonneg (constant (F := Ideal) s .f32 0x00000000#32) := fun _ => ⟨0, le_rfl, ofBits_zero⟩

/-- Every entry of the splat of `+0.0` is zero. -/
theorem constant_zero_apply (i : s.Idx) : constant (F := Ideal) s .f32 0x00000000#32 i = (0 : EReal) :=
  ofBits_zero.trans EReal.coe_zero

theorem IsReal.broadcastInDim {x : s.Idx → EReal} (hx : IsReal x) (dims : Fin s.rank → Fin t.rank)
    (h : s.BroadcastsInDim t dims) : IsReal (broadcastInDim t dims h x) := fun _ => hx _

theorem IsPos.broadcastInDim {x : s.Idx → EReal} (hx : IsPos x) (dims : Fin s.rank → Fin t.rank)
    (h : s.BroadcastsInDim t dims) : IsPos (broadcastInDim t dims h x) := fun _ => hx _

theorem IsNonneg.broadcastInDim {x : s.Idx → EReal} (hx : IsNonneg x) (dims : Fin s.rank → Fin t.rank)
    (h : s.BroadcastsInDim t dims) : IsNonneg (broadcastInDim t dims h x) := fun _ => hx _

/-! ### Elementwise arithmetic -/

/-- The maximum of two reals, taken among the extended reals, is their maximum. -/
theorem coe_max_coe (a b : ℝ) : max (a : EReal) (b : EReal) = ((max a b : ℝ) : EReal) :=
  (EReal.coe_strictMono.monotone.map_max).symm

theorem IsReal.addf {x y : FVec Ideal s .f32} (hx : IsReal x) (hy : IsReal y) : IsReal (addf x y) := fun i => by
  obtain ⟨a, ha⟩ := hx i; obtain ⟨b, hb⟩ := hy i
  exact ⟨a + b, by show x i + y i = _; rw [ha, hb, EReal.coe_add]⟩

theorem IsReal.subf {x y : FVec Ideal s .f32} (hx : IsReal x) (hy : IsReal y) : IsReal (subf x y) := fun i => by
  obtain ⟨a, ha⟩ := hx i; obtain ⟨b, hb⟩ := hy i
  exact ⟨a - b, by show x i - y i = _; rw [ha, hb, EReal.coe_sub]⟩

theorem IsReal.mulf {x y : FVec Ideal s .f32} (hx : IsReal x) (hy : IsReal y) : IsReal (mulf x y) := fun i => by
  obtain ⟨a, ha⟩ := hx i; obtain ⟨b, hb⟩ := hy i
  exact ⟨a * b, by show x i * y i = _; rw [ha, hb, EReal.coe_mul]⟩

/-- The square of a real array is non-negative. -/
theorem IsNonneg.mulf_self {x : FVec Ideal s .f32} (hx : IsReal x) : IsNonneg (mulf x x) := fun i => by
  obtain ⟨a, ha⟩ := hx i
  exact ⟨a * a, mul_self_nonneg a, by show x i * x i = _; rw [ha, EReal.coe_mul]⟩

theorem IsReal.maximumf {x y : FVec Ideal s .f32} (hx : IsReal x) (hy : IsReal y) : IsReal (maximumf x y) := fun i => by
  obtain ⟨a, ha⟩ := hx i; obtain ⟨b, hb⟩ := hy i
  exact ⟨max a b, by show max (x i) (y i) = _; rw [ha, hb, coe_max_coe]⟩

/-- The maximum with a positive array is positive. -/
theorem IsPos.maximumf_right {x y : FVec Ideal s .f32} (hx : IsReal x) (hy : IsPos y) : IsPos (maximumf x y) := fun i => by
  obtain ⟨a, ha⟩ := hx i; obtain ⟨b, hb0, hb⟩ := hy i
  exact ⟨max a b, lt_of_lt_of_le hb0 (le_max_right a b), by show max (x i) (y i) = _; rw [ha, hb, coe_max_coe]⟩

/-- A non-negative array plus a positive one is positive. -/
theorem IsPos.addf_nonneg_pos {x y : FVec Ideal s .f32} (hx : IsNonneg x) (hy : IsPos y) : IsPos (addf x y) := fun i => by
  obtain ⟨a, ha0, ha⟩ := hx i; obtain ⟨b, hb0, hb⟩ := hy i
  exact ⟨a + b, add_pos_of_nonneg_of_pos ha0 hb0, by show x i + y i = _; rw [ha, hb, EReal.coe_add]⟩

/-- A positive array less a zero array is positive. -/
theorem IsPos.subf_zero {x y : FVec Ideal s .f32} (hx : IsPos x) (hy : ∀ i, y i = 0) : IsPos (subf x y) := fun i => by
  obtain ⟨a, ha0, ha⟩ := hx i
  exact ⟨a, ha0, by show x i - y i = _; rw [hy i, sub_zero, ha]⟩

/-- The conversion of the integer zero is the real zero. -/
theorem sitofp_zero_apply (i : s.Idx) : sitofp (F := Ideal) .f32 (constantI s 32 0#32) i = 0 := by
  show (((0#32 : BitVec 32).toInt : ℝ) : EReal) = 0
  simp

/-- The host's quotient of a real array by a positive one is real. -/
theorem IsReal.hostDivf {x y : FVec Ideal s .f32} (hx : IsReal x) (hy : IsPos y) : IsReal (Host.divf x y) := fun i => by
  obtain ⟨a, ha⟩ := hx i; obtain ⟨b, hb0, hb⟩ := hy i
  refine ⟨a * (1 / b), ?_⟩
  show Ideal.div (x i) (y i) = _
  rw [ha, hb, Ideal.div_coe hb0.ne', EReal.coe_mul]

/-- The host's quotient of a non-negative array by a positive one is non-negative. -/
theorem IsNonneg.hostDivf {x y : FVec Ideal s .f32} (hx : IsNonneg x) (hy : IsPos y) : IsNonneg (Host.divf x y) := fun i => by
  obtain ⟨a, ha0, ha⟩ := hx i; obtain ⟨b, hb0, hb⟩ := hy i
  refine ⟨a * (1 / b), mul_nonneg ha0 (by positivity), ?_⟩
  show Ideal.div (x i) (y i) = _
  rw [ha, hb, Ideal.div_coe hb0.ne', EReal.coe_mul]

/-- The host's reciprocal square root of a positive array is real. -/
theorem IsReal.hostRsqrt {x : FVec Ideal s .f32} (hx : IsPos x) : IsReal (Host.rsqrt x) := fun i => by
  obtain ⟨a, ha0, ha⟩ := hx i
  refine ⟨(Real.sqrt a)⁻¹, ?_⟩
  show Ideal.rsqrt (x i) = _
  rw [ha, Ideal.rsqrt_coe, if_neg (not_lt.mpr ha0.le), if_neg ha0.ne']

/-! ### Contractions, sums along axes, gathers, scatters, concatenations -/

/-- The host's contraction of real arrays is real: each entry is a finite sum of products. -/
theorem IsReal.hostDotGeneral {sl sr so : Shape} (d : DotDims sl sr so) (prec : Option ContractPrecision)
    {x : FVec Ideal sl .f32} {y : FVec Ideal sr .f32} (hx : IsReal x) (hy : IsReal y) :
    IsReal (Host.dotGeneral d prec x y : FVec Ideal so .f32) := fun j => by
  obtain ⟨r, hr⟩ := sum_real Finset.univ (fun k : d.contr.Idx => x (d.lhsIdx j k) * y (d.rhsIdx j k)) fun k _ => by
    obtain ⟨a, ha⟩ := hx (d.lhsIdx j k); obtain ⟨b, hb⟩ := hy (d.rhsIdx j k)
    exact ⟨a * b, by rw [ha, hb, EReal.coe_mul]⟩
  refine ⟨r, ?_⟩
  show (0 : EReal) + ∑ k : d.contr.Idx, x (d.lhsIdx j k) * y (d.rhsIdx j k) = _
  rw [hr, zero_add]

/-- The host's sum along axes of a real array from a real initial value is real. -/
theorem IsReal.hostReduceAdd {axes : List (Fin s.rank)} {u : Shape} {x : FVec Ideal s .f32} {init : u.Idx → EReal}
    (hx : IsReal x) (hi : IsReal init) (h : s.ReducesTo axes t) (hu : 0 < u.numel) :
    IsReal (Host.reduceAdd x init h hu : FVec Ideal t .f32) := fun j => by
  obtain ⟨a, ha⟩ := hi (Shape.Idx.first hu)
  obtain ⟨r, hr⟩ := sum_real (Finset.univ.filter fun i => h.drop i = j) x fun i _ => hx i
  refine ⟨a + r, ?_⟩
  show init (Shape.Idx.first hu) + ∑ i ∈ Finset.univ.filter (fun i => h.drop i = j), x i = _
  rw [ha, hr, EReal.coe_add]

/-- The host's sum along axes of a non-negative array from a non-negative initial value is non-negative. -/
theorem IsNonneg.hostReduceAdd {axes : List (Fin s.rank)} {u : Shape} {x : FVec Ideal s .f32} {init : u.Idx → EReal}
    (hx : IsNonneg x) (hi : IsNonneg init) (h : s.ReducesTo axes t) (hu : 0 < u.numel) :
    IsNonneg (Host.reduceAdd x init h hu : FVec Ideal t .f32) := fun j => by
  obtain ⟨a, ha0, ha⟩ := hi (Shape.Idx.first hu)
  obtain ⟨r, hr0, hr⟩ := sum_nonneg (Finset.univ.filter fun i => h.drop i = j) x fun i _ => hx i
  refine ⟨a + r, add_nonneg ha0 hr0, ?_⟩
  show init (Shape.Idx.first hu) + ∑ i ∈ Finset.univ.filter (fun i => h.drop i = j), x i = _
  rw [ha, hr, EReal.coe_add]

/-- A gather's entries are entries of its operand. -/
theorem IsReal.hostGather {si : Shape} {w : Nat} (d : GatherDims s si t) {x : s.Idx → EReal} (hx : IsReal x)
    (idx : IVec si w) : IsReal (Host.gather d x idx) := fun _ => hx _

/-- The host's accumulating scatter of a real array of updates into a real array is real. -/
theorem IsReal.hostScatterAdd {si u : Shape} {w : Nat} (d : ScatterDims s si u) {x : FVec Ideal s .f32}
    {upd : FVec Ideal u .f32} (hx : IsReal x) (idx : IVec si w) (hu : IsReal upd) :
    IsReal (Host.scatterAdd d x idx upd) := fun i => by
  obtain ⟨a, ha⟩ := hx i
  obtain ⟨r, hr⟩ := sum_real (Finset.univ.filter fun j => d.resultIdx? j idx = some i) upd fun j _ => hu j
  refine ⟨a + r, ?_⟩
  show x i + ∑ j ∈ Finset.univ.filter (fun j => d.resultIdx? j idx = some i), upd j = _
  rw [ha, hr, EReal.coe_add]

/-- A concatenation's entries are entries of its operands. -/
theorem IsReal.concatenate (a : Fin t.rank) (xs : List ((s : Shape) × (s.Idx → EReal)))
    (h : Shape.Concatenates (xs.map (·.1)) t a) (hxs : ∀ p ∈ xs, IsReal p.2) : IsReal (concatenate t a xs h) :=
  fun _ => hxs _ (List.getElem_mem _) _

/-- A concatenation of three real arrays is real. -/
theorem IsReal.concatenate3 (a : Fin t.rank) {s₁ s₂ s₃ : Shape} {x₁ : s₁.Idx → EReal} {x₂ : s₂.Idx → EReal}
    {x₃ : s₃.Idx → EReal}
    (h : Shape.Concatenates (([⟨s₁, x₁⟩, ⟨s₂, x₂⟩, ⟨s₃, x₃⟩] : List ((s : Shape) × (s.Idx → EReal))).map (·.1)) t a)
    (h₁ : IsReal x₁) (h₂ : IsReal x₂) (h₃ : IsReal x₃) :
    IsReal (Idealize.ShloMosaic.concatenate t a [⟨s₁, x₁⟩, ⟨s₂, x₂⟩, ⟨s₃, x₃⟩] h) := by
  apply IsReal.concatenate
  intro p hp
  simp only [List.mem_cons, List.mem_nil_iff, or_false] at hp
  rcases hp with rfl | rfl | rfl <;> assumption

/-! ### Comparisons and selections -/

/-- "Greater than" of a positive array over a zero array holds everywhere. -/
theorem cmpf_ogt_pos_zero {x y : FVec Ideal s .f32} (hx : IsPos x) (hy : ∀ i, y i = 0) (i : s.Idx) :
    cmpf .ogt x y i = 1 := by
  obtain ⟨a, ha0, ha⟩ := hx i
  show BitVec.ofBool (decide (y i < x i)) = 1
  rw [hy i, ha, decide_eq_true (by exact_mod_cast ha0)]
  rfl

/-- A selection whose condition holds everywhere is its first branch. -/
theorem select_of_one {α : Type} {c : IVec s 1} (hc : ∀ i, c i = 1) (a b : s.Idx → α) : select c a b = a := by
  funext i
  show (if c i = 1 then a i else b i) = a i
  rw [if_pos (hc i)]

/-- The broadcast of a condition that holds everywhere holds everywhere. -/
theorem broadcastInDim_one {c : IVec s 1} (hc : ∀ i, c i = 1) (dims : Fin s.rank → Fin t.rank)
    (h : s.BroadcastsInDim t dims) (j : t.Idx) : broadcastInDim t dims h c j = 1 := hc _

theorem IsReal.select_of_one {c : IVec s 1} {a b : s.Idx → EReal} (hc : ∀ i, c i = 1) (ha : IsReal a) :
    IsReal (select c a b) := by rw [RealArr.select_of_one hc]; exact ha

theorem IsNonneg.select_of_one {c : IVec s 1} {a b : s.Idx → EReal} (hc : ∀ i, c i = 1) (ha : IsNonneg a) :
    IsNonneg (select c a b) := by rw [RealArr.select_of_one hc]; exact ha

end Idealize.ShloMosaic.RealArr

end
-- ==== Proof.PreReal.lean ====
/-
  The precondition says every float argument array holds only finite values; read on the extended reals, every
  entry of each of the fourteen float argument arrays is a real number.
-/
import proofs.«400428_j65575560675752_4_alg».proof.Defs
import proofs.«400428_j65575560675752_4_alg».proof.Proof.Gen.Pre_finite_inputs
import proofs.«400428_j65575560675752_4_alg».proof.Proof.LibReal
import Idealize.ShloMosaic.Lib.ReduceAll
import Idealize.ShloMosaic.Lib.ValueIdx

set_option maxRecDepth 16384

noncomputable section

namespace Cert.PreReal

open Idealize.ShloMosaic Idealize.ShloMosaic.TcCoe Idealize.SL.Sem Idealize.ShloMosaic.RealArr
open Cert.KernelIdeal

/-- The scalar shape has one index. -/
instance : Subsingleton Cert.Pre_finite_inputs.S_.Idx := ⟨fun a b => funext fun d => d.elim0⟩

/-- The f32 pattern 0x7F800000 (sign 0, exponent all ones, significand 0) denotes +∞. -/
theorem posInf_eq_top : Ideal.ofBits .f32 0x7F800000#32 = (⊤ : EReal) := by
  simp [Ideal.ofBits, Ideal.ieee]

/-- An extended real whose absolute value max x (-x) lies strictly below +∞ is a real number: +∞ fails since
    max ⊤ ⊥ = ⊤, and -∞ fails since max ⊥ ⊤ = ⊤. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One conjunct of the precondition: if the conjunction over all entries of "|x| < +∞" (a reduce by "and" over every axis
    of the array of comparisons, into the scalar shape) is 1, every entry of x is a real number. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr h0 ValueIdx.ix0 = 1#1) :
    IsReal (x : s.Idx → EReal) := by
  intro i
  have hi := Host.reduce_andi_all _ _ hr h0 _ e i
  -- the comparison at i is the order's "<" between max (x i) (-(x i)) and the constant, which is +∞
  have hbit : BitVec.ofBool (decide (max (x i) (-(x i)) < Ideal.ofBits .f32 0x7F800000#32)) = 1#1 := hi
  have hlt : max (x i) (-(x i)) < Ideal.ofBits .f32 0x7F800000#32 := by
    by_contra hn
    rw [decide_eq_false hn] at hbit
    exact absurd hbit (by decide)
  rw [posInf_eq_top] at hlt
  exact real_of_abs_lt_top (x i) hlt

variable [hPre : Cert.Pre_finite_inputs.Facts]

/-- Under the precondition of the idealized kernel program, on every device, each float argument array of the launch
    memory is a real array. -/
theorem args_real (m : (ℓ : Loc nD τ sig) → Buf (Elt Ideal) ℓ) (hpre : Cert.Pre_KernelIdeal m) (c : Dev nD) :
    IsReal (m ((c.tc : Thread nD τ).loc main_arg0) : S50000x128.Idx → EReal)
    ∧ IsReal (m ((c.tc : Thread nD τ).loc main_arg1) : S1600000x32.Idx → EReal)
    ∧ IsReal (m ((c.tc : Thread nD τ).loc main_arg4) : S128x16.Idx → EReal)
    ∧ IsReal (m ((c.tc : Thread nD τ).loc main_arg5) : S16.Idx → EReal)
    ∧ IsReal (m ((c.tc : Thread nD τ).loc main_arg6) : S16.Idx → EReal)
    ∧ IsReal (m ((c.tc : Thread nD τ).loc main_arg7) : S16.Idx → EReal)
    ∧ IsReal (m ((c.tc : Thread nD τ).loc main_arg8) : S16x64.Idx → EReal)
    ∧ IsReal (m ((c.tc : Thread nD τ).loc main_arg9) : S64.Idx → EReal)
    ∧ IsReal (m ((c.tc : Thread nD τ).loc main_arg10) : S160x16.Idx → EReal)
    ∧ IsReal (m ((c.tc : Thread nD τ).loc main_arg11) : S16.Idx → EReal)
    ∧ IsReal (m ((c.tc : Thread nD τ).loc main_arg12) : S16.Idx → EReal)
    ∧ IsReal (m ((c.tc : Thread nD τ).loc main_arg13) : S16.Idx → EReal)
    ∧ IsReal (m ((c.tc : Thread nD τ).loc main_arg14) : S16x8.Idx → EReal)
    ∧ IsReal (m ((c.tc : Thread nD τ).loc main_arg15) : S8.Idx → EReal) := by
  -- the precondition on device c, read at the scalar result's one index
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Idealize.ShloMosaic.andi] at h
  -- a conjunction of one-bit words is 1 exactly when each is
  simp only [IntOp.andi_eq_one] at h
  obtain ⟨⟨⟨⟨⟨⟨⟨⟨⟨⟨⟨⟨⟨h0, h1⟩, h4⟩, h5⟩, h6⟩, h7⟩, h8⟩, h9⟩, h10⟩, h11⟩, h12⟩, h13⟩, h14⟩, h15⟩ := h
  exact ⟨isReal_of_all _ _ _ _ h0, isReal_of_all _ _ _ _ h1, isReal_of_all _ _ _ _ h4, isReal_of_all _ _ _ _ h5,
    isReal_of_all _ _ _ _ h6, isReal_of_all _ _ _ _ h7, isReal_of_all _ _ _ _ h8, isReal_of_all _ _ _ _ h9,
    isReal_of_all _ _ _ _ h10, isReal_of_all _ _ _ _ h11, isReal_of_all _ _ _ _ h12, isReal_of_all _ _ _ _ h13,
    isReal_of_all _ _ _ _ h14, isReal_of_all _ _ _ _ h15⟩

end Cert.PreReal

end
-- ==== Proof.KCarry.lean ====
/-
  What the kernel program's host stretches and regions leave untouched: no host operation and no region's write-back
  writes an argument buffer, so at every boundary of @main each argument holds its launch contents; and a few
  intermediate buffers (the two degree scales, the first pass's output, the column means) are carried unchanged
  from the stretch that computes them to the region or stretch that reads them.
-/
import proofs.«400428_j65575560675752_4_alg».proof.Proof.Gen.KernelIdeal.Frame
import Idealize.ShloMosaic.PureOps.Ideal

set_option maxRecDepth 16384

noncomputable section

namespace Cert.KernelIdeal.Carry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The sixteen argument buffers. -/
abbrev argList : List (Ref sig .tc) :=
  [main_arg0, main_arg1, main_arg2, main_arg3, main_arg4, main_arg5, main_arg6, main_arg7, main_arg8, main_arg9, main_arg10,
   main_arg11, main_arg12, main_arg13, main_arg14, main_arg15]

/-- A stretch of host operations leaves a buffer it does not write as it was. -/
macro "keep_host" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- The same for a buffer known only as one of the arguments: no operation writes an argument. -/
macro "keep_arg" ops:ident hb:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => absurd (h ▸ $hb) (by decide)))))

/-! ## The arguments at each boundary -/

theorem args1 (c : Dev nD) (b : Ref sig .tc) (hb : b ∈ argList) :
    W1 m ρ c (Proc.devRef .tc b) = W0 m ρ c (Proc.devRef .tc b) := by
  keep_arg hostOps0 hb

/-- Region 0 reads the node features and the first layer's weights through input windows and writes neither. -/
theorem args2 (c : Dev nD) (b : Ref sig .tc) (hb : b ∈ argList) :
    W2 m ρ c (Proc.devRef .tc b) = W0 m ρ c (Proc.devRef .tc b) := by
  have h1 := args1 m ρ c b hb
  simp only [argList, List.mem_cons, List.mem_nil_iff, or_false] at hb
  rcases hb with rfl | rfl | rfl | rfl | rfl | rfl | rfl | rfl | rfl | rfl | rfl | rfl | rfl | rfl | rfl | rfl
  all_goals first
    | exact (W2_of_ne m ρ c _ (by decide)).trans h1
    | exact ((W2_arr m ρ c 0).trans (((dat0 (V1 m ρ) c).arrAt_in 0 rfl _).trans (A_eq0 (V1 m ρ) c 0))).trans h1
    | exact ((W2_arr m ρ c 1).trans (((dat0 (V1 m ρ) c).arrAt_in 1 rfl _).trans (A_eq0 (V1 m ρ) c 1))).trans h1

theorem args3 (c : Dev nD) (b : Ref sig .tc) (hb : b ∈ argList) :
    W3 m ρ c (Proc.devRef .tc b) = W0 m ρ c (Proc.devRef .tc b) :=
  (by keep_arg hostOps1 hb : W3 m ρ c (Proc.devRef .tc b) = W2 m ρ c (Proc.devRef .tc b)).trans (args2 m ρ c b hb)

theorem args4 (c : Dev nD) (b : Ref sig .tc) (hb : b ∈ argList) :
    W4 m ρ c (Proc.devRef .tc b) = W0 m ρ c (Proc.devRef .tc b) :=
  (by keep_arg hostOps1_1 hb : W4 m ρ c (Proc.devRef .tc b) = W3 m ρ c (Proc.devRef .tc b)).trans (args3 m ρ c b hb)

theorem args5 (c : Dev nD) (b : Ref sig .tc) (hb : b ∈ argList) :
    W5 m ρ c (Proc.devRef .tc b) = W0 m ρ c (Proc.devRef .tc b) :=
  (by keep_arg hostOps1_2 hb : W5 m ρ c (Proc.devRef .tc b) = W4 m ρ c (Proc.devRef .tc b)).trans (args4 m ρ c b hb)

theorem args6 (c : Dev nD) (b : Ref sig .tc) (hb : b ∈ argList) :
    W6 m ρ c (Proc.devRef .tc b) = W0 m ρ c (Proc.devRef .tc b) :=
  (by keep_arg hostOps1_3 hb : W6 m ρ c (Proc.devRef .tc b) = W5 m ρ c (Proc.devRef .tc b)).trans (args5 m ρ c b hb)

theorem args7 (c : Dev nD) (b : Ref sig .tc) (hb : b ∈ argList) :
    W7 m ρ c (Proc.devRef .tc b) = W0 m ρ c (Proc.devRef .tc b) :=
  (by keep_arg hostOps1_4 hb : W7 m ρ c (Proc.devRef .tc b) = W6 m ρ c (Proc.devRef .tc b)).trans (args6 m ρ c b hb)

/-- Region 1 reads the second layer's weights through an input window and writes no argument. -/
theorem args8 (c : Dev nD) (b : Ref sig .tc) (hb : b ∈ argList) :
    W8 m ρ c (Proc.devRef .tc b) = W0 m ρ c (Proc.devRef .tc b) := by
  have h1 := args7 m ρ c b hb
  simp only [argList, List.mem_cons, List.mem_nil_iff, or_false] at hb
  rcases hb with rfl | rfl | rfl | rfl | rfl | rfl | rfl | rfl | rfl | rfl | rfl | rfl | rfl | rfl | rfl | rfl
  all_goals first
    | exact (W8_of_ne m ρ c _ (by decide)).trans h1
    | exact ((W8_arr m ρ c 1).trans (((dat1 (V7 m ρ) c).arrAt_in 1 rfl _).trans (A_eq1 (V7 m ρ) c 1))).trans h1

theorem args9 (c : Dev nD) (b : Ref sig .tc) (hb : b ∈ argList) :
    W9 m ρ c (Proc.devRef .tc b) = W0 m ρ c (Proc.devRef .tc b) :=
  (by keep_arg hostOps2 hb : W9 m ρ c (Proc.devRef .tc b) = W8 m ρ c (Proc.devRef .tc b)).trans (args8 m ρ c b hb)

/-- Region 2's windows are all intermediate buffers. -/
theorem args10 (c : Dev nD) (b : Ref sig .tc) (hb : b ∈ argList) :
    W10 m ρ c (Proc.devRef .tc b) = W0 m ρ c (Proc.devRef .tc b) := by
  have h1 := args9 m ρ c b hb
  simp only [argList, List.mem_cons, List.mem_nil_iff, or_false] at hb
  rcases hb with rfl | rfl | rfl | rfl | rfl | rfl | rfl | rfl | rfl | rfl | rfl | rfl | rfl | rfl | rfl | rfl
  all_goals exact (W10_of_ne m ρ c _ (by decide)).trans h1

theorem args11 (c : Dev nD) (b : Ref sig .tc) (hb : b ∈ argList) :
    W11 m ρ c (Proc.devRef .tc b) = W0 m ρ c (Proc.devRef .tc b) :=
  (by keep_arg hostOps3 hb : W11 m ρ c (Proc.devRef .tc b) = W10 m ρ c (Proc.devRef .tc b)).trans (args10 m ρ c b hb)

theorem args12 (c : Dev nD) (b : Ref sig .tc) (hb : b ∈ argList) :
    W12 m ρ c (Proc.devRef .tc b) = W0 m ρ c (Proc.devRef .tc b) :=
  (by keep_arg hostOps3_1 hb : W12 m ρ c (Proc.devRef .tc b) = W11 m ρ c (Proc.devRef .tc b)).trans (args11 m ρ c b hb)

theorem args13 (c : Dev nD) (b : Ref sig .tc) (hb : b ∈ argList) :
    W13 m ρ c (Proc.devRef .tc b) = W0 m ρ c (Proc.devRef .tc b) :=
  (by keep_arg hostOps3_2 hb : W13 m ρ c (Proc.devRef .tc b) = W12 m ρ c (Proc.devRef .tc b)).trans (args12 m ρ c b hb)

/-! ## Intermediate buffers carried to their readers -/

/-- The in-degree scale column, computed before region 0, as region 0 leaves it. -/
theorem v14_at2 (c : Dev nD) : W2 m ρ c (Proc.devRef .tc main_v14) = W1 m ρ c (Proc.devRef .tc main_v14) :=
  W2_of_ne m ρ c main_v14 (by decide)

/-- … and as region 1 leaves it. -/
theorem v14_at8 (c : Dev nD) : W8 m ρ c (Proc.devRef .tc main_v14) = W1 m ρ c (Proc.devRef .tc main_v14) :=
  calc W8 m ρ c (Proc.devRef .tc main_v14)
    _ = W7 m ρ c (Proc.devRef .tc main_v14) := W8_of_ne m ρ c main_v14 (by decide)
    _ = W6 m ρ c (Proc.devRef .tc main_v14) := by keep_host hostOps1_4
    _ = W5 m ρ c (Proc.devRef .tc main_v14) := by keep_host hostOps1_3
    _ = W4 m ρ c (Proc.devRef .tc main_v14) := by keep_host hostOps1_2
    _ = W3 m ρ c (Proc.devRef .tc main_v14) := by keep_host hostOps1_1
    _ = W2 m ρ c (Proc.devRef .tc main_v14) := by keep_host hostOps1
    _ = W1 m ρ c (Proc.devRef .tc main_v14) := v14_at2 m ρ c

/-- The out-degree scale, computed before region 0, when the last stretch before region 1 reshapes it again. -/
theorem v12_at6 (c : Dev nD) : W6 m ρ c (Proc.devRef .tc main_v12) = W1 m ρ c (Proc.devRef .tc main_v12) :=
  calc W6 m ρ c (Proc.devRef .tc main_v12)
    _ = W5 m ρ c (Proc.devRef .tc main_v12) := by keep_host hostOps1_3
    _ = W4 m ρ c (Proc.devRef .tc main_v12) := by keep_host hostOps1_2
    _ = W3 m ρ c (Proc.devRef .tc main_v12) := by keep_host hostOps1_1
    _ = W2 m ρ c (Proc.devRef .tc main_v12) := by keep_host hostOps1
    _ = W1 m ρ c (Proc.devRef .tc main_v12) := W2_of_ne m ρ c main_v12 (by decide)

/-- The first pass's output, as region 3 finds it. -/
theorem v92_at13 (c : Dev nD) : W13 m ρ c (Proc.devRef .tc main_v92) = W10 m ρ c (Proc.devRef .tc main_v92) :=
  calc W13 m ρ c (Proc.devRef .tc main_v92)
    _ = W12 m ρ c (Proc.devRef .tc main_v92) := by keep_host hostOps3_2
    _ = W11 m ρ c (Proc.devRef .tc main_v92) := by keep_host hostOps3_1
    _ = W10 m ρ c (Proc.devRef .tc main_v92) := by keep_host hostOps3

/-- The column means, across the variance's stretch. -/
theorem v96_at12 (c : Dev nD) : W12 m ρ c (Proc.devRef .tc main_v96) = W11 m ρ c (Proc.devRef .tc main_v96) := by
  keep_host hostOps3_1

end Cert.KernelIdeal.Carry

end
-- ==== Proof.HostBridgeA.lean ====
/-
  The kernel program's host stretches against the reference's, buffer by buffer. Both programs apply the same host
  operations to the same values; so a buffer of the kernel program and the reference's corresponding buffer are one
  array as soon as the values going in are: the operations' composed terms are read off both sides and compared.
  Here: the agreement of the two launch memories on the arguments, and the two degree scales.
-/
import proofs.«400428_j65575560675752_4_alg».proof.Proof.KCarry
import proofs.«400428_j65575560675752_4_alg».proof.Proof.RCarry
import Idealize.ShloMosaic.PureOps.Ideal

set_option maxRecDepth 16384
set_option maxHeartbeats 8000000

noncomputable section

namespace Cert.Bridge

open Idealize.ShloMosaic Idealize.ShloMosaic.TcCoe Idealize.SL.Sem Idealize.ShloMosaic.StableHlo
open Cert.KernelIdeal.Gen Cert.ReferenceIdeal.Run Cert.ReferenceIdeal.Ops

/-- A launch memory of the idealized kernel program, and one of the idealized reference. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- On device `c` the reference's launch memory holds the kernel program's sixteen arguments. -/
structure Agree (m : KMem) (m' : RMem) (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

variable (m : KMem) (ρ : Dev Cert.KernelIdeal.nD → PrngReg) (m' : RMem) (c : Dev Cert.KernelIdeal.nD)

/-- The reference's launch contents on device `c`. -/
abbrev VR : Valuation Cert.ReferenceIdeal.τ Cert.ReferenceIdeal.sig (Elt Ideal) := launchContents m' c

variable (hag : Agree m m' c)
include hag

/-- The out-degree scale `rsqrt(max(deg_out, 1))`: one array in both programs. -/
theorem rsOut_eq :
    (W1 m ρ c (Proc.devRef .tc Cert.KernelIdeal.main_v12) : Cert.KernelIdeal.S50000.Idx → EReal) = R1 (VR m' c) (Proc.devRef .tc Cert.ReferenceIdeal.main_v12) := by
  have e2 : launchContents m' c (Proc.devRef .tc Cert.ReferenceIdeal.main_arg2) = W0 m ρ c (Proc.devRef .tc Cert.KernelIdeal.main_arg2) := hag.a2
  dsimp only [W1, VR, R1, hostOps0, I0]
  after_results_simp
  rw [e2]
  rfl

/-- The in-degree scale as one column: the kernel program computes it before its first region, the reference in its
    second stretch. -/
theorem rsInCol_eq :
    (W1 m ρ c (Proc.devRef .tc Cert.KernelIdeal.main_v14) : Cert.KernelIdeal.S50000x1.Idx → EReal) = R2 (VR m' c) (Proc.devRef .tc Cert.ReferenceIdeal.main_v27) := by
  have e3 : launchContents m' c (Proc.devRef .tc Cert.ReferenceIdeal.main_arg3) = W0 m ρ c (Proc.devRef .tc Cert.KernelIdeal.main_arg3) := hag.a3
  dsimp only [W1, VR, R2, R1, hostOps0, I0, I1]
  after_results_simp
  rw [e3]
  rfl

/-- … and the reference computes it once more in its eighth stretch, for the second convolution. -/
theorem rsInCol_eq' :
    (W1 m ρ c (Proc.devRef .tc Cert.KernelIdeal.main_v14) : Cert.KernelIdeal.S50000x1.Idx → EReal) = R8 (VR m' c) (Proc.devRef .tc Cert.ReferenceIdeal.main_v80) := by
  have e3 : launchContents m' c (Proc.devRef .tc Cert.ReferenceIdeal.main_arg3) = W0 m ρ c (Proc.devRef .tc Cert.KernelIdeal.main_arg3) := hag.a3
  dsimp only [W1, VR, R8, R7, R6, R5, R4, R3, R2, R1, hostOps0, I0, I1, I2, I3, I4, I5, I6, I7]
  after_results_simp
  rw [e3]
  rfl

omit hag in
/-- The reference's second computation of the out-degree scale is its first. -/
theorem rsOut_again (V : Valuation Cert.ReferenceIdeal.τ Cert.ReferenceIdeal.sig (Elt Ideal)) :
    (R7 V (Proc.devRef .tc Cert.ReferenceIdeal.main_v65) : Cert.ReferenceIdeal.S50000.Idx → EReal) = R1 V (Proc.devRef .tc Cert.ReferenceIdeal.main_v12) := by
  dsimp only [R7, R6, R5, R4, R3, R2, R1, I0, I1, I2, I3, I4, I5, I6]
  after_results_simp

end Cert.Bridge

end
-- ==== Proof.HostBridgeB.lean ====
/-
  The first graph convolution after its projection, and the second one's degree-scale column: from the projection
  (region 0's output, the reference's `main_v15`) both programs gather the source rows, scatter-add them at the
  destinations, scale by the in-degree column, add the bias, apply relu and the batch normalisation — the same host
  operations on the same values, so the normalised hidden features are one array in both.
-/
import proofs.«400428_j65575560675752_4_alg».proof.Proof.HostBridgeA
import Idealize.ShloMosaic.Lib.ValueIdx
import Idealize.ShloMosaic.Lib.Pipeline.Value

set_option maxRecDepth 16384
set_option maxHeartbeats 16000000

noncomputable section

namespace Cert.Bridge

open Idealize.ShloMosaic Idealize.ShloMosaic.TcCoe Idealize.SL.Sem Idealize.ShloMosaic.StableHlo Idealize.ShloMosaic.ValueIdx
open Cert.KernelIdeal.Gen Cert.ReferenceIdeal.Run Cert.ReferenceIdeal.Ops

variable (m : KMem) (ρ : Dev Cert.KernelIdeal.nD → PrngReg) (m' : RMem) (c : Dev Cert.KernelIdeal.nD) (hag : Agree m m' c)
include hag

/-- The normalised hidden features `h1`, given that the first projection is one array in both programs. -/
theorem h1_eq
    (hB : (W2 m ρ c (Proc.devRef .tc Cert.KernelIdeal.main_v16) : Cert.KernelIdeal.S50000x16.Idx → EReal) = R1 (VR m' c) (Proc.devRef .tc Cert.ReferenceIdeal.main_v15)) :
    (W7 m ρ c (Proc.devRef .tc Cert.KernelIdeal.main_v51) : Cert.KernelIdeal.S50000x16.Idx → EReal) = R7 (VR m' c) (Proc.devRef .tc Cert.ReferenceIdeal.main_v52) := by
  have k14 : W2 m ρ c (Proc.devRef .tc Cert.KernelIdeal.main_v14) = after I1 (R1 (VR m' c)) (Proc.devRef .tc Cert.ReferenceIdeal.main_v27) :=
    (Cert.KernelIdeal.Carry.v14_at2 m ρ c).trans (rsInCol_eq m ρ m' c hag)
  have k2 := Cert.KernelIdeal.Carry.args2 m ρ c Cert.KernelIdeal.main_arg2 (by decide)
  have k3 := Cert.KernelIdeal.Carry.args2 m ρ c Cert.KernelIdeal.main_arg3 (by decide)
  have k5 := Cert.KernelIdeal.Carry.args2 m ρ c Cert.KernelIdeal.main_arg5 (by decide)
  have k6 := Cert.KernelIdeal.Carry.args2 m ρ c Cert.KernelIdeal.main_arg6 (by decide)
  have k7 := Cert.KernelIdeal.Carry.args2 m ρ c Cert.KernelIdeal.main_arg7 (by decide)
  have r2 := Cert.ReferenceIdeal.Carry.args1 (VR m' c) Cert.ReferenceIdeal.main_arg2 (by decide)
  have r3 := Cert.ReferenceIdeal.Carry.args1 (VR m' c) Cert.ReferenceIdeal.main_arg3 (by decide)
  have r5 := Cert.ReferenceIdeal.Carry.args1 (VR m' c) Cert.ReferenceIdeal.main_arg5 (by decide)
  have r6 := Cert.ReferenceIdeal.Carry.args1 (VR m' c) Cert.ReferenceIdeal.main_arg6 (by decide)
  have r7 := Cert.ReferenceIdeal.Carry.args1 (VR m' c) Cert.ReferenceIdeal.main_arg7 (by decide)
  have e2 : launchContents m' c (Proc.devRef .tc Cert.ReferenceIdeal.main_arg2) = W0 m ρ c (Proc.devRef .tc Cert.KernelIdeal.main_arg2) := hag.a2
  have e3 : launchContents m' c (Proc.devRef .tc Cert.ReferenceIdeal.main_arg3) = W0 m ρ c (Proc.devRef .tc Cert.KernelIdeal.main_arg3) := hag.a3
  have e5 : launchContents m' c (Proc.devRef .tc Cert.ReferenceIdeal.main_arg5) = W0 m ρ c (Proc.devRef .tc Cert.KernelIdeal.main_arg5) := hag.a5
  have e6 : launchContents m' c (Proc.devRef .tc Cert.ReferenceIdeal.main_arg6) = W0 m ρ c (Proc.devRef .tc Cert.KernelIdeal.main_arg6) := hag.a6
  have e7 : launchContents m' c (Proc.devRef .tc Cert.ReferenceIdeal.main_arg7) = W0 m ρ c (Proc.devRef .tc Cert.KernelIdeal.main_arg7) := hag.a7
  dsimp only [W7, W6, W5, W4, W3, R7, R6, R5, R4, R3, R2, hostOps1, hostOps1_1, hostOps1_2, hostOps1_3, hostOps1_4, I1, I2, I3, I4, I5, I6]
  generalize R1 (VR m' c) = X at hB k14 r2 r3 r5 r6 r7 ⊢
  after_results_simp
  simp only [hB, k14, k2, k3, k5, k6, k7]
  dsimp only [I1]
  after_results_simp
  simp only [r2, r3, r5, r6, r7, e2, e3, e5, e6, e7]
  rfl

end Cert.Bridge

end
-- ==== Proof.HostBridgeC1.lean ====
/-
  Inside the kernel program's stretch before region 2: the node embeddings narrowed to bf16 are the embeddings (the
  narrowing is the identity on the extended reals), and the rows gathered at the edges' sources and destinations are
  the gathers of the narrowed embeddings at the wrapped index columns.
-/
import proofs.«400428_j65575560675752_4_alg».proof.Proof.HostBridgeA

set_option maxRecDepth 16384
set_option maxHeartbeats 16000000
-- one proof at a time: several of the proofs below hold a long fold of operations each while it is read
set_option Elab.async false

noncomputable section

namespace Cert.Bridge

open Idealize.ShloMosaic Idealize.ShloMosaic.TcCoe Idealize.SL.Sem Idealize.ShloMosaic.StableHlo
open Cert.KernelIdeal.Gen Cert.ReferenceIdeal.Run Cert.ReferenceIdeal.Ops

variable (m : KMem) (ρ : Dev Cert.KernelIdeal.nD → PrngReg) (m' : RMem) (c : Dev Cert.KernelIdeal.nD)

/-! ## Inside the kernel program's stretch before region 2 -/

/-- The embeddings narrowed to bf16 are the embeddings. -/
theorem h2_narrow :
    (W9 m ρ c (Proc.devRef .tc Cert.KernelIdeal.main_v72) : Cert.KernelIdeal.S50000x64.Idx → EReal) = W9 m ρ c (Proc.devRef .tc Cert.KernelIdeal.main_v68) := by
  funext i
  dsimp only [W9, hostOps2]
  after_results_simp
  exact Ideal.truncf_def _ _ _

/-- The source rows are the gather of the narrowed embeddings at the wrapped source indices. -/
theorem hs_gather :
    (W9 m ρ c (Proc.devRef .tc Cert.KernelIdeal.main_v79) : Cert.KernelIdeal.S1600000x64.Idx → EReal)
      = Host.gather Cert.KernelIdeal.gather_S50000x64_S1600000x1_S1600000x64_1_0_n_n_0_1_164 (W9 m ρ c (Proc.devRef .tc Cert.KernelIdeal.main_v72) : Cert.KernelIdeal.S50000x64.Idx → EReal) (W9 m ρ c (Proc.devRef .tc Cert.KernelIdeal.main_v78)) := by
  dsimp only [W9, hostOps2]
  after_results_simp

/-- The destination rows are the gather of the narrowed embeddings at the wrapped destination indices. -/
theorem hd_gather :
    (W9 m ρ c (Proc.devRef .tc Cert.KernelIdeal.main_v86) : Cert.KernelIdeal.S1600000x64.Idx → EReal)
      = Host.gather Cert.KernelIdeal.gather_S50000x64_S1600000x1_S1600000x64_1_0_n_n_0_1_164 (W9 m ρ c (Proc.devRef .tc Cert.KernelIdeal.main_v72) : Cert.KernelIdeal.S50000x64.Idx → EReal) (W9 m ρ c (Proc.devRef .tc Cert.KernelIdeal.main_v85)) := by
  dsimp only [W9, hostOps2]
  after_results_simp

end Cert.Bridge

end
-- ==== Proof.HostBridgeC2.lean ====
/-
  Inside the reference's stretches: the rows gathered at the edges' sources and destinations are the gathers of the
  node embeddings at the wrapped index columns; and the wrapped index columns (a negative index moved up by the node
  count) are one array each in the two programs.
-/
import proofs.«400428_j65575560675752_4_alg».proof.Proof.HostBridgeA

set_option maxRecDepth 16384
set_option maxHeartbeats 16000000
-- one proof at a time: several of the proofs below hold a long fold of operations each while it is read
set_option Elab.async false

noncomputable section

namespace Cert.Bridge

open Idealize.ShloMosaic Idealize.ShloMosaic.TcCoe Idealize.SL.Sem Idealize.ShloMosaic.StableHlo
open Cert.KernelIdeal.Gen Cert.ReferenceIdeal.Run Cert.ReferenceIdeal.Ops

variable (m : KMem) (ρ : Dev Cert.KernelIdeal.nD → PrngReg) (m' : RMem) (c : Dev Cert.KernelIdeal.nD)

/-! ## Inside the reference's stretches -/

/-- The reference's source rows are the gather of the embeddings at the wrapped source indices. -/
theorem ref_hs_gather (V : Valuation Cert.ReferenceIdeal.τ Cert.ReferenceIdeal.sig (Elt Ideal)) :
    (R8 V (Proc.devRef .tc Cert.ReferenceIdeal.main_v92) : Cert.ReferenceIdeal.S1600000x64.Idx → EReal)
      = Host.gather Cert.ReferenceIdeal.gather_S50000x64_S1600000x1_S1600000x64_1_0_n_n_0_1_164 (R8 V (Proc.devRef .tc Cert.ReferenceIdeal.main_v85) : Cert.ReferenceIdeal.S50000x64.Idx → EReal) (R8 V (Proc.devRef .tc Cert.ReferenceIdeal.main_v91)) := by
  dsimp only [R8, I7]
  generalize R7 V = X
  after_results_simp

/-- The reference's destination rows are the gather of the embeddings at the wrapped destination indices. -/
theorem ref_hd_gather (V : Valuation Cert.ReferenceIdeal.τ Cert.ReferenceIdeal.sig (Elt Ideal)) :
    (R9 V (Proc.devRef .tc Cert.ReferenceIdeal.main_v99) : Cert.ReferenceIdeal.S1600000x64.Idx → EReal)
      = Host.gather Cert.ReferenceIdeal.gather_S50000x64_S1600000x1_S1600000x64_1_0_n_n_0_1_164 (R8 V (Proc.devRef .tc Cert.ReferenceIdeal.main_v85) : Cert.ReferenceIdeal.S50000x64.Idx → EReal) (R9 V (Proc.devRef .tc Cert.ReferenceIdeal.main_v98)) := by
  dsimp only [R9, R8, I7, I8]
  generalize R7 V = X
  after_results_simp

variable (hag : Agree m m' c)
include hag

/-! ## Across the two programs -/

/-- The wrapped source indices, one column. -/
theorem idxS_eq :
    (W9 m ρ c (Proc.devRef .tc Cert.KernelIdeal.main_v78) : Cert.KernelIdeal.S1600000x1.Idx → BitVec 32) = R8 (VR m' c) (Proc.devRef .tc Cert.ReferenceIdeal.main_v91) := by
  have k2 := Cert.KernelIdeal.Carry.args8 m ρ c Cert.KernelIdeal.main_arg2 (by decide)
  have r2 := Cert.ReferenceIdeal.Carry.args7 (VR m' c) Cert.ReferenceIdeal.main_arg2 (by decide)
  have e2 : launchContents m' c (Proc.devRef .tc Cert.ReferenceIdeal.main_arg2) = W0 m ρ c (Proc.devRef .tc Cert.KernelIdeal.main_arg2) := hag.a2
  dsimp only [W9, R8, hostOps2, I7]
  generalize R7 (VR m' c) = X at r2 ⊢
  after_results_simp
  simp only [k2, r2, e2]

/-- The wrapped destination indices, one column. -/
theorem idxD_eq :
    (W9 m ρ c (Proc.devRef .tc Cert.KernelIdeal.main_v85) : Cert.KernelIdeal.S1600000x1.Idx → BitVec 32) = R9 (VR m' c) (Proc.devRef .tc Cert.ReferenceIdeal.main_v98) := by
  have k3 := Cert.KernelIdeal.Carry.args8 m ρ c Cert.KernelIdeal.main_arg3 (by decide)
  have r3 := Cert.ReferenceIdeal.Carry.args7 (VR m' c) Cert.ReferenceIdeal.main_arg3 (by decide)
  have e3 : launchContents m' c (Proc.devRef .tc Cert.ReferenceIdeal.main_arg3) = W0 m ρ c (Proc.devRef .tc Cert.KernelIdeal.main_arg3) := hag.a3
  dsimp only [W9, R9, R8, hostOps2, I7, I8]
  generalize R7 (VR m' c) = X at r3 ⊢
  after_results_simp
  simp only [k3, r3, e3]

end Cert.Bridge

end
-- ==== Proof.HostBridgeC3.lean ====
/-
  The second graph convolution after its projection: from the projection (region 1's output, the reference's
  `main_v68`) both programs gather the source rows, scatter-add them at the destinations, scale by the in-degree
  column and add the bias — the same host operations on the same values, so the node embeddings `h2` are one array
  in both.
-/
import proofs.«400428_j65575560675752_4_alg».proof.Proof.HostBridgeA

set_option maxRecDepth 16384
set_option maxHeartbeats 16000000
-- one proof at a time: several of the proofs below hold a long fold of operations each while it is read
set_option Elab.async false

noncomputable section

namespace Cert.Bridge

open Idealize.ShloMosaic Idealize.ShloMosaic.TcCoe Idealize.SL.Sem Idealize.ShloMosaic.StableHlo
open Cert.KernelIdeal.Gen Cert.ReferenceIdeal.Run Cert.ReferenceIdeal.Ops

variable (m : KMem) (ρ : Dev Cert.KernelIdeal.nD → PrngReg) (m' : RMem) (c : Dev Cert.KernelIdeal.nD)

variable (hag : Agree m m' c)
include hag

/-- The node embeddings `h2`, given that the second projection is one array in both programs. -/
theorem h2_eq
    (hD : (W8 m ρ c (Proc.devRef .tc Cert.KernelIdeal.main_v53) : Cert.KernelIdeal.S50000x64.Idx → EReal) = R7 (VR m' c) (Proc.devRef .tc Cert.ReferenceIdeal.main_v68)) :
    (W9 m ρ c (Proc.devRef .tc Cert.KernelIdeal.main_v68) : Cert.KernelIdeal.S50000x64.Idx → EReal) = R8 (VR m' c) (Proc.devRef .tc Cert.ReferenceIdeal.main_v85) := by
  have k14 : W8 m ρ c (Proc.devRef .tc Cert.KernelIdeal.main_v14) = after I7 (R7 (VR m' c)) (Proc.devRef .tc Cert.ReferenceIdeal.main_v80) :=
    (Cert.KernelIdeal.Carry.v14_at8 m ρ c).trans (rsInCol_eq' m ρ m' c hag)
  have k2 := Cert.KernelIdeal.Carry.args8 m ρ c Cert.KernelIdeal.main_arg2 (by decide)
  have k3 := Cert.KernelIdeal.Carry.args8 m ρ c Cert.KernelIdeal.main_arg3 (by decide)
  have k9 := Cert.KernelIdeal.Carry.args8 m ρ c Cert.KernelIdeal.main_arg9 (by decide)
  have r2 := Cert.ReferenceIdeal.Carry.args7 (VR m' c) Cert.ReferenceIdeal.main_arg2 (by decide)
  have r3 := Cert.ReferenceIdeal.Carry.args7 (VR m' c) Cert.ReferenceIdeal.main_arg3 (by decide)
  have r9 := Cert.ReferenceIdeal.Carry.args7 (VR m' c) Cert.ReferenceIdeal.main_arg9 (by decide)
  have e2 : launchContents m' c (Proc.devRef .tc Cert.ReferenceIdeal.main_arg2) = W0 m ρ c (Proc.devRef .tc Cert.KernelIdeal.main_arg2) := hag.a2
  have e3 : launchContents m' c (Proc.devRef .tc Cert.ReferenceIdeal.main_arg3) = W0 m ρ c (Proc.devRef .tc Cert.KernelIdeal.main_arg3) := hag.a3
  have e9 : launchContents m' c (Proc.devRef .tc Cert.ReferenceIdeal.main_arg9) = W0 m ρ c (Proc.devRef .tc Cert.KernelIdeal.main_arg9) := hag.a9
  dsimp only [W9, R8, hostOps2, I7]
  generalize R7 (VR m' c) = X at hD k14 r2 r3 r9 ⊢
  after_results_simp
  simp only [hD, k14, k2, k3, k9]
  dsimp only [I7]
  after_results_simp
  simp only [r2, r3, r9, e2, e3, e9]
  rfl

end Cert.Bridge

end
-- ==== Proof.HostBridgeC.lean ====
/-
  The rows the edge predictor gathers: the node embeddings' rows at the edges' sources and at their destinations are
  one array each in the two programs — gathers of one array (the embeddings; the kernel program's narrowing to bf16
  is the identity) at one index column.
-/
import proofs.«400428_j65575560675752_4_alg».proof.Proof.HostBridgeC1
import proofs.«400428_j65575560675752_4_alg».proof.Proof.HostBridgeC2
import proofs.«400428_j65575560675752_4_alg».proof.Proof.HostBridgeC3

set_option maxRecDepth 16384
set_option maxHeartbeats 16000000
-- one proof at a time: several of the proofs below hold a long fold of operations each while it is read
set_option Elab.async false

noncomputable section

namespace Cert.Bridge

open Idealize.ShloMosaic Idealize.ShloMosaic.TcCoe Idealize.SL.Sem Idealize.ShloMosaic.StableHlo
open Cert.KernelIdeal.Gen Cert.ReferenceIdeal.Run Cert.ReferenceIdeal.Ops

variable (m : KMem) (ρ : Dev Cert.KernelIdeal.nD → PrngReg) (m' : RMem) (c : Dev Cert.KernelIdeal.nD)

variable (hag : Agree m m' c)
include hag

/-- The embeddings' rows at the edges' sources. -/
theorem hs_eq
    (hD : (W8 m ρ c (Proc.devRef .tc Cert.KernelIdeal.main_v53) : Cert.KernelIdeal.S50000x64.Idx → EReal) = R7 (VR m' c) (Proc.devRef .tc Cert.ReferenceIdeal.main_v68)) :
    (W9 m ρ c (Proc.devRef .tc Cert.KernelIdeal.main_v79) : Cert.KernelIdeal.S1600000x64.Idx → EReal) = R8 (VR m' c) (Proc.devRef .tc Cert.ReferenceIdeal.main_v92) := by
  rw [hs_gather m ρ c, h2_narrow m ρ c, h2_eq m ρ m' c hag hD, idxS_eq m ρ m' c hag, ref_hs_gather (VR m' c)]
  generalize R8 (VR m' c) (Proc.devRef .tc Cert.ReferenceIdeal.main_v85) = a
  generalize R8 (VR m' c) (Proc.devRef .tc Cert.ReferenceIdeal.main_v91) = b
  rfl

/-- The embeddings' rows at the edges' destinations. -/
theorem hd_eq
    (hD : (W8 m ρ c (Proc.devRef .tc Cert.KernelIdeal.main_v53) : Cert.KernelIdeal.S50000x64.Idx → EReal) = R7 (VR m' c) (Proc.devRef .tc Cert.ReferenceIdeal.main_v68)) :
    (W9 m ρ c (Proc.devRef .tc Cert.KernelIdeal.main_v86) : Cert.KernelIdeal.S1600000x64.Idx → EReal) = R9 (VR m' c) (Proc.devRef .tc Cert.ReferenceIdeal.main_v99) := by
  rw [hd_gather m ρ c, h2_narrow m ρ c, h2_eq m ρ m' c hag hD, idxD_eq m ρ m' c hag, ref_hd_gather (VR m' c)]
  generalize R8 (VR m' c) (Proc.devRef .tc Cert.ReferenceIdeal.main_v85) = a
  generalize R9 (VR m' c) (Proc.devRef .tc Cert.ReferenceIdeal.main_v98) = b
  rfl

end Cert.Bridge

end
-- ==== Proof.HostBridgeD.lean ====
/-
  The batch statistics of the edge predictor's first layer: from the layer's output (region 2's output widened back
  to f32, the identity on the extended reals; the reference's `main_v104`) both programs take the column means and
  the column variances by the same host operations, so the means and the variances are one array each in both.
-/
import proofs.«400428_j65575560675752_4_alg».proof.Proof.HostBridgeA

set_option maxRecDepth 16384
set_option maxHeartbeats 16000000

noncomputable section

namespace Cert.Bridge

open Idealize.ShloMosaic Idealize.ShloMosaic.TcCoe Idealize.SL.Sem Idealize.ShloMosaic.StableHlo
open Cert.KernelIdeal.Gen Cert.ReferenceIdeal.Run Cert.ReferenceIdeal.Ops

variable (m : KMem) (ρ : Dev Cert.KernelIdeal.nD → PrngReg) (m' : RMem) (c : Dev Cert.KernelIdeal.nD)

/-- The column means, given that the first layer's output is one array in both programs. -/
theorem mean_eq
    (hF : (W10 m ρ c (Proc.devRef .tc Cert.KernelIdeal.main_v92) : Cert.KernelIdeal.S1600000x16.Idx → EReal) = R9 (VR m' c) (Proc.devRef .tc Cert.ReferenceIdeal.main_v104)) :
    (W11 m ρ c (Proc.devRef .tc Cert.KernelIdeal.main_v96) : Cert.KernelIdeal.S16.Idx → EReal) = R10 (VR m' c) (Proc.devRef .tc Cert.ReferenceIdeal.main_v107) := by
  dsimp only [W11, R10, hostOps3, I9]
  generalize R9 (VR m' c) = X at hF ⊢
  after_results_simp
  simp only [hF]
  rfl

/-- The column variances. -/
theorem var_eq
    (hF : (W10 m ρ c (Proc.devRef .tc Cert.KernelIdeal.main_v92) : Cert.KernelIdeal.S1600000x16.Idx → EReal) = R9 (VR m' c) (Proc.devRef .tc Cert.ReferenceIdeal.main_v104)) :
    (W12 m ρ c (Proc.devRef .tc Cert.KernelIdeal.main_v97) : Cert.KernelIdeal.S16.Idx → EReal) = R11 (VR m' c) (Proc.devRef .tc Cert.ReferenceIdeal.main_v108) := by
  dsimp only [W12, W11, R11, R10, hostOps3, hostOps3_1, I9, I10]
  generalize R9 (VR m' c) = X at hF ⊢
  after_results_simp
  simp only [hF]
  rfl

end Cert.Bridge

end
-- ==== Proof.HostReads.lean ====
/-
  Layout operations of the kernel program's host stretches read at an index, over arbitrary contents `Y` before the
  stretch: a vector reshaped to a one-column or a one-row array holds the vector's entries; a narrowing of the float
  format is the identity on the extended reals; a row slice of the first predictor layer's weights holds the rows of
  its offset.
-/
import proofs.«400428_j65575560675752_4_alg».proof.Proof.Gen.KernelIdeal.Frame
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

set_option maxRecDepth 16384
set_option maxHeartbeats 4000000

noncomputable section

namespace Cert.KernelIdeal.Reads

open Cert.KernelIdeal Cert.KernelIdeal.Gen
open Idealize.ShloMosaic Idealize.ShloMosaic.TcCoe Idealize.SL.Sem Idealize.ShloMosaic.StableHlo Idealize.ShloMosaic.ValueIdx

variable (Y : Valuation τ sig (Elt Ideal))

/-- A vector cast to one column reads, at row `p`, the vector's entry `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The out-degree scale as one column (before region 0). -/
theorem sclCol_read (p : Fin 50000) :
    (after (hostOps0 (F := Ideal)) Y (Proc.devRef .tc Cert.KernelIdeal.main_v15) : S50000x1.Idx → EReal) (ix2 p 0)
      = (after (hostOps0 (F := Ideal)) Y (Proc.devRef .tc Cert.KernelIdeal.main_v12) : S50000.Idx → EReal) (ix1 p) := by
  dsimp only [hostOps0]
  after_results_simp
  exact shapeCast_a_a1_apply _ _ p 0

/-- The out-degree scale as one column again (before region 1). -/
theorem sclCol2_read (p : Fin 50000) :
    (after (hostOps1_4 (F := Ideal)) Y (Proc.devRef .tc Cert.KernelIdeal.main_v52) : S50000x1.Idx → EReal) (ix2 p 0)
      = (Y (Proc.devRef .tc Cert.KernelIdeal.main_v12) : S50000.Idx → EReal) (ix1 p) := by
  dsimp only [hostOps1_4]
  after_results_simp
  exact shapeCast_a_a1_apply _ _ p 0

/-- The edge features narrowed to bf16. -/
theorem ef_read (e : Fin 1600000) (k : Fin 32) :
    (after (hostOps2 (F := Ideal)) Y (Proc.devRef .tc Cert.KernelIdeal.main_v87) : S1600000x32.Idx → EReal) (ix2 e k)
      = (Y (Proc.devRef .tc Cert.KernelIdeal.main_arg1) : S1600000x32.Idx → EReal) (ix2 e k) := by
  dsimp only [hostOps2]
  after_results_simp
  rfl

/-- The first predictor layer's bias as one row. -/
theorem bias_read (j : Fin 16) :
    (after (hostOps2 (F := Ideal)) Y (Proc.devRef .tc Cert.KernelIdeal.main_v88) : S1x16.Idx → EReal) (ix2 0 j)
      = (Y (Proc.devRef .tc Cert.KernelIdeal.main_arg11) : S16.Idx → EReal) (ix1 j) := by
  dsimp only [hostOps2]
  after_results_simp
  exact shapeCast_a_1a_apply _ _ 0 j

/-- The three row blocks of the first predictor layer's weights, narrowed to bf16. -/
theorem we_read (k : Fin 32) (j : Fin 16) :
    (after (hostOps2 (F := Ideal)) Y (Proc.devRef .tc Cert.KernelIdeal.main_v89) : S32x16.Idx → EReal) (ix2 k j)
      = (Y (Proc.devRef .tc Cert.KernelIdeal.main_arg10) : S160x16.Idx → EReal) (ix2 ⟨k.val, by omega⟩ j) := by
  dsimp only [hostOps2]
  after_results_simp
  change extractStridedSlice S32x16 ![0, 0] (Y (Proc.devRef .tc main_arg10)) Facts₀.slices_S160x16_S32x16_0_0 (ix2 k j) = _
  exact extractStridedSlice_apply _ _ _ (ix2 k j) (ix2 ⟨k.val, by omega⟩ j) (fun a => by
    match a with
    | ⟨0, _⟩ => show k.val = 0 + k.val; omega
    | ⟨1, _⟩ => show j.val = 0 + j.val; omega)

theorem whs_read (k : Fin 64) (j : Fin 16) :
    (after (hostOps2 (F := Ideal)) Y (Proc.devRef .tc Cert.KernelIdeal.main_v90) : S64x16.Idx → EReal) (ix2 k j)
      = (Y (Proc.devRef .tc Cert.KernelIdeal.main_arg10) : S160x16.Idx → EReal) (ix2 ⟨32 + k.val, by omega⟩ j) := by
  dsimp only [hostOps2]
  after_results_simp
  change extractStridedSlice S64x16 ![32, 0] (Y (Proc.devRef .tc main_arg10)) Facts₀.slices_S160x16_S64x16_32_0 (ix2 k j) = _
  exact extractStridedSlice_apply _ _ _ (ix2 k j) (ix2 ⟨32 + k.val, by omega⟩ j) (fun a => by
    match a with
    | ⟨0, _⟩ => show 32 + k.val = 32 + k.val; rfl
    | ⟨1, _⟩ => show j.val = 0 + j.val; omega)

theorem whd_read (k : Fin 64) (j : Fin 16) :
    (after (hostOps2 (F := Ideal)) Y (Proc.devRef .tc Cert.KernelIdeal.main_v91) : S64x16.Idx → EReal) (ix2 k j)
      = (Y (Proc.devRef .tc Cert.KernelIdeal.main_arg10) : S160x16.Idx → EReal) (ix2 ⟨96 + k.val, by omega⟩ j) := by
  dsimp only [hostOps2]
  after_results_simp
  change extractStridedSlice S64x16 ![96, 0] (Y (Proc.devRef .tc main_arg10)) Facts₀.slices_S160x16_S64x16_96_0 (ix2 k j) = _
  exact extractStridedSlice_apply _ _ _ (ix2 k j) (ix2 ⟨96 + k.val, by omega⟩ j) (fun a => by
    match a with
    | ⟨0, _⟩ => show 96 + k.val = 96 + k.val; rfl
    | ⟨1, _⟩ => show j.val = 0 + j.val; omega)

/-- The column means, the column variances, the normalisation's scale and shift, and the second layer's bias, each
    as one row (before region 3). -/
theorem mu_read (k : Fin 16) :
    (after (hostOps3_2 (F := Ideal)) Y (Proc.devRef .tc Cert.KernelIdeal.main_v98) : S1x16.Idx → EReal) (ix2 0 k) = (Y (Proc.devRef .tc Cert.KernelIdeal.main_v96) : S16.Idx → EReal) (ix1 k) := by
  dsimp only [hostOps3_2]
  after_results_simp
  exact shapeCast_a_1a_apply _ _ 0 k

theorem sig2_read (k : Fin 16) :
    (after (hostOps3_2 (F := Ideal)) Y (Proc.devRef .tc Cert.KernelIdeal.main_v99) : S1x16.Idx → EReal) (ix2 0 k) = (Y (Proc.devRef .tc Cert.KernelIdeal.main_v97) : S16.Idx → EReal) (ix1 k) := by
  dsimp only [hostOps3_2]
  after_results_simp
  exact shapeCast_a_1a_apply _ _ 0 k

theorem gam_read (k : Fin 16) :
    (after (hostOps3_2 (F := Ideal)) Y (Proc.devRef .tc Cert.KernelIdeal.main_v100) : S1x16.Idx → EReal) (ix2 0 k) = (Y (Proc.devRef .tc Cert.KernelIdeal.main_arg12) : S16.Idx → EReal) (ix1 k) := by
  dsimp only [hostOps3_2]
  after_results_simp
  exact shapeCast_a_1a_apply _ _ 0 k

theorem bet_read (k : Fin 16) :
    (after (hostOps3_2 (F := Ideal)) Y (Proc.devRef .tc Cert.KernelIdeal.main_v101) : S1x16.Idx → EReal) (ix2 0 k) = (Y (Proc.devRef .tc Cert.KernelIdeal.main_arg13) : S16.Idx → EReal) (ix1 k) := by
  dsimp only [hostOps3_2]
  after_results_simp
  exact shapeCast_a_1a_apply _ _ 0 k

theorem b2_read (j : Fin 8) :
    (after (hostOps3_2 (F := Ideal)) Y (Proc.devRef .tc Cert.KernelIdeal.main_v102) : S1x8.Idx → EReal) (ix2 0 j) = (Y (Proc.devRef .tc Cert.KernelIdeal.main_arg15) : S8.Idx → EReal) (ix1 j) := by
  dsimp only [hostOps3_2]
  after_results_simp
  exact shapeCast_a_1a_apply _ _ 0 j

end Cert.KernelIdeal.Reads

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Region0.lean ====
/-
  Region 0 of the kernel program — the first graph convolution's projection — read as a value: whatever the buffers
  hold when the region is entered, its output array ends, entry (p, q), at the row-p-times-column-q product of the
  node features and the weights, times row p's degree scale.
-/
import proofs.«400428_j65575560675752_4_alg».proof.Proof.Gen.KernelIdeal.Frame
import proofs.«400428_j65575560675752_4_alg».proof.Proof.LibRowDims
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Val0

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The node features as the region finds them. -/
abbrev feat (c : Dev nD) : S50000x128.Idx → EReal := V c main_arg0
/-- The first layer's weights as the region finds them. -/
abbrev wgt (c : Dev nD) : S128x16.Idx → EReal := V c main_arg4
/-- The out-degree scale, one column, as the region finds it. -/
abbrev scl (c : Dev nD) : S50000x1.Idx → EReal := V c main_v15
/-- The output array as the region's write-backs leave it. -/
abbrev outArr (c : Dev nD) : S50000x16.Idx → EReal := (dat0 V c).arrAt 3 cfg0.N

/-! ## The body's arithmetic at an entry -/

/-- A one-column array broadcast along the columns reads, at `(p, c)`, the operand's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One block of the body's result, entry `(r, q)`: row `r` of the feature block against column `q` of the weights,
    times the scale block's entry in row `r`. -/
theorem payload_apply (x0 : Vec Ideal S2000x128 .f32) (x1 : Vec Ideal S128x16 .f32) (x2 : Vec Ideal S2000x1 .f32)
    (r : Fin 2000) (q : Fin 16) :
    k0_pay1 x0 x1 x2 (ix2 r q) = (∑ k : Fin 128, x0 (ix2 r k) * x1 (ix2 k q)) * x2 (ix2 r 0) := by
  unfold k0_pay1
  refine (mulf_apply _ _ _).trans ?_
  congr 1
  · exact RowDims.matmul_plain_zero_apply none x0 x1 r q
  · rw [shapeCast_self]
    exact broadcastTo_a1_ab_apply x2 _ r q

/-! ## The region's result as one array -/

/-- Entry `(p, q)` of the result: row `p` of the features against column `q` of the weights, times row `p`'s scale. -/
def entry (c : Dev nD) (p : Fin 50000) (q : Fin 16) : EReal :=
  (∑ k : Fin 128, feat V c (ix2 p k) * wgt V c (ix2 k q)) * scl V c (ix2 p 0)

/-- The result array, index by index. -/
def proj (c : Dev nD) : S50000x16.Idx → EReal := fun i => entry V c (i 0) (i 1)

/-- Two arrays of two axes are equal when they agree at every pair of coordinates. -/
theorem ext_ix2 {n0 n1 : ℕ} {α : Type} {f g : (⟨2, ![n0, n1]⟩ : Shape).Idx → α}
    (h : ∀ (r : Fin n0) (q : Fin n1), f (ix2 r q) = g (ix2 r q)) : f = g :=
  funext fun j => by rw [eq_ix2 j]; exact h _ _

/-! ## The blocks of a grid point -/

theorem zero_offsets : (![0, 0] : Fin 2 → Nat) = fun _ => 0 := funext fun a => by fin_cases a <;> rfl

/-- The index maps over the grid: on the row axis the output's block and each row-tiled input's block sit at the
    point; on the column axis every block sits at 0; the weights' block is the whole array at every point. -/
theorem block_indices : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `2000 t … 2000 t + 1999` of the features. -/
theorem feat_block (c : Dev nD) (t : Fin cfg0.N) (r : Fin 2000) (k : Fin 128) (p : Fin 50000)
    (hp : p.val = t.val * 2000 + r.val) :
    (iblk0 V c 0 t : Vec Ideal S2000x128 .f32) (ix2 r k) = feat V c (ix2 p k) := by
  obtain ⟨-, -, e0, e1, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * r.val = p.val; rw [e0, hp]; omega
  | ⟨1, _⟩ => show win0_0.index t (1 : Fin 2) * 128 + 1 * k.val = k.val; rw [e1]; omega

/-- The weight block at every point is the whole weight array. -/
theorem wgt_block (c : Dev nD) (t : Fin cfg0.N) (k : Fin 128) (q : Fin 16) :
    (iblk0 V c 1 t : Vec Ideal S128x16 .f32) (ix2 k q) = wgt V c (ix2 k q) := by
  obtain ⟨-, -, -, -, e0, e1, -⟩ := block_indices t
  unfold iblk0
  rw [View.read_apply]
  show V c main_arg4 _ = V c main_arg4 _
  congr 1
  funext a
  apply Fin.ext
  match a with
  | ⟨0, _⟩ => show win0_1.index t (0 : Fin 2) * 128 + 1 * k.val = k.val; rw [e0]; omega
  | ⟨1, _⟩ => show win0_1.index t (1 : Fin 2) * 16 + 1 * q.val = q.val; rw [e1]; omega

/-- The scale block at point `t` is rows `2000 t … 2000 t + 1999` of the scale column. -/
theorem scl_block (c : Dev nD) (t : Fin cfg0.N) (r : Fin 2000) (p : Fin 50000)
    (hp : p.val = t.val * 2000 + r.val) :
    (iblk0 V c 2 t : Vec Ideal S2000x1 .f32) (ix2 r 0) = scl V c (ix2 p 0) := by
  obtain ⟨-, -, -, -, -, -, e0, e1⟩ := block_indices t
  unfold iblk0
  rw [View.read_apply]
  show V c main_v15 _ = V c main_v15 _
  congr 1
  funext a
  apply Fin.ext
  match a with
  | ⟨0, _⟩ => show win0_2.index t (0 : Fin 2) * 2000 + 1 * r.val = p.val; rw [e0, hp]; omega
  | ⟨1, _⟩ => show win0_2.index t (1 : Fin 2) * 1 + 1 * 0 = 0; rw [e1]

/-- What the body leaves at point `t`, entry `(r, q)` of its block, is entry `(2000 t + r, q)` of the result. -/
theorem body_block (c : Dev nD) (t : Fin cfg0.N) (r : Fin 2000) (q : Fin 16) (p : Fin 50000)
    (hp : p.val = t.val * 2000 + r.val) :
    k0_pay1 (iblk0 V c 0 t) (iblk0 V c 1 t) (iblk0 V c 2 t) (ix2 r q) = entry V c p q := by
  refine (payload_apply (iblk0 V c 0 t) (iblk0 V c 1 t) (iblk0 V c 2 t) r q).trans ?_
  unfold entry
  rw [scl_block V c t r p hp]
  congr 1
  refine Finset.sum_congr rfl fun k _ => ?_
  rw [feat_block V c t r k p hp, wgt_block V c t k q]

/-- The result read through the output block of point `t`, entry `(r, q)`, is its entry `(2000 t + r, q)`. -/
theorem proj_block (c : Dev nD) (t : Fin cfg0.N) (r : Fin 2000) (q : Fin 16) (p : Fin 50000)
    (hp : p.val = t.val * 2000 + r.val) :
    ((cfg0.win 3).blk t).view.read (Elt Ideal) (proj V c) (ix2 r q) = entry V c p q := by
  obtain ⟨e0, e1, -⟩ := block_indices t
  rw [View.read_apply]
  show proj V c _ = proj V c (ix2 p q)
  congr 1
  funext a
  apply Fin.ext
  match a with
  | ⟨0, _⟩ => show win0_3.index t (0 : Fin 2) * 2000 + 1 * r.val = p.val; rw [e0, hp]; omega
  | ⟨1, _⟩ => show win0_3.index t (1 : Fin 2) * 16 + 1 * q.val = q.val; rw [e1]; omega

/-! ## From the blocks to the array -/

/-- What point `t` writes back is the result read through the point's output block. -/
theorem flushed_eq (c : Dev nD) (t : Fin cfg0.N) :
    (dat0 V c).flushed 3 t = ((cfg0.win 3).blk t).view.read (Elt Ideal) (proj V c) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S128x16) zero_offsets,
    View.ld_unit_zero (S := S2000x1) zero_offsets]
  refine ext_ix2 (n0 := 2000) (n1 := 16) fun r q => ?_
  have hp : t.val * 2000 + r.val < 50000 := by
    have ht : t.val < 25 := lt_of_lt_of_eq t.isLt N_0
    have hr := r.isLt
    omega
  exact (body_block V c t r q ⟨t.val * 2000 + r.val, hp⟩ rfl).trans
    (proj_block V c t r q ⟨t.val * 2000 + r.val, hp⟩ rfl).symm

/-- An index of the output array is in point `t`'s block iff each coordinate is in the block's range on its axis. -/
theorem mem_block (t : Fin cfg0.N) (i : S50000x16.Idx) :
    i ∈ ((cfg0.win 3).blk t).view.set ↔ ∀ a : Fin 2, win0_3.index t a * S2000x16.size a ≤ (i a).val
      ∧ (i a).val < win0_3.index t a * S2000x16.size a + S2000x16.size a := by
  show i ∈ ((View.whole main_v16).slice (win0_3.rect t)).set ↔ _
  rw [View.set_slice_whole, Rect.mem_set_unit]
  exact Iff.rfl

/-- Every index of the output array is in the block of the point its row falls in: row `p` in point `p / 2000`. -/
theorem covered (i : S50000x16.Idx) :
    ∃ t : Fin cfg0.N, (cfg0.win 3).flush t = true ∧ i ∈ ((cfg0.win 3).blk t).view.set := by
  have hi0 : (i 0).val < 50000 := (i 0).isLt
  have hi1 : (i 1).val < 16 := (i 1).isLt
  have ht : (i 0).val / 2000 < cfg0.N := lt_of_lt_of_eq (by omega : (i 0).val / 2000 < 25) N_0.symm
  obtain ⟨e0, e1, -⟩ := block_indices ⟨(i 0).val / 2000, ht⟩
  refine ⟨⟨(i 0).val / 2000, ht⟩, flush0_3 _, ?_⟩
  rw [mem_block]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e0]; dsimp only; omega
  | ⟨1, _⟩ =>
    show win0_3.index ⟨(i 0).val / 2000, ht⟩ (1 : Fin 2) * 16 ≤ (i 1).val
      ∧ (i 1).val < win0_3.index ⟨(i 0).val / 2000, ht⟩ (1 : Fin 2) * 16 + 16
    rw [e1]; omega

/-- So the output array ends holding the result. -/
theorem final (c : Dev nD) : (dat0 V c).arrAt 3 cfg0.N = proj V c :=
  (dat0 V c).arrAt_eq_of_cover 3 (proj V c) (fun t _ => flushed_eq V c t) covered

/-- The output array after the region, entry by entry. -/
theorem region0_apply (c : Dev nD) (p : Fin 50000) (q : Fin 16) :
    outArr V c (ix2 p q) = (∑ k : Fin 128, feat V c (ix2 p k) * wgt V c (ix2 k q)) * scl V c (ix2 p 0) := by
  exact congrFun (final V c) (ix2 p q)

end Cert.KernelIdeal.Val0

end
-- ==== Proof.Region1.lean ====
/-
  Region 1 of the kernel program — the second graph convolution's projection — read as a value: its output array
  ends, entry (p, q), at the row-p-times-column-q product of the normalised hidden features and the weights, times
  row p's degree scale.
-/
import proofs.«400428_j65575560675752_4_alg».proof.Proof.Gen.KernelIdeal.Frame
import proofs.«400428_j65575560675752_4_alg».proof.Proof.LibRowDims
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Val1

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The normalised hidden features as the region finds them. -/
abbrev feat (c : Dev nD) : S50000x16.Idx → EReal := V c main_v51
/-- The second layer's weights as the region finds them. -/
abbrev wgt (c : Dev nD) : S16x64.Idx → EReal := V c main_arg8
/-- The out-degree scale, one column, as the region finds it. -/
abbrev scl (c : Dev nD) : S50000x1.Idx → EReal := V c main_v52
/-- The output array as the region's write-backs leave it. -/
abbrev outArr (c : Dev nD) : S50000x64.Idx → EReal := (dat1 V c).arrAt 3 cfg1.N

/-! ## The body's arithmetic at an entry -/

/-- A one-column array broadcast along the columns reads, at `(p, c)`, the operand's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One block of the body's result, entry `(r, q)`: row `r` of the feature block against column `q` of the weights,
    times the scale block's entry in row `r`. -/
theorem payload_apply (x0 : Vec Ideal S2000x16 .f32) (x1 : Vec Ideal S16x64 .f32) (x2 : Vec Ideal S2000x1 .f32)
    (r : Fin 2000) (q : Fin 64) :
    k1_pay1 x0 x1 x2 (ix2 r q) = (∑ k : Fin 16, x0 (ix2 r k) * x1 (ix2 k q)) * x2 (ix2 r 0) := by
  unfold k1_pay1
  refine (mulf_apply _ _ _).trans ?_
  congr 1
  · rw [shapeCast_self]
    exact RowDims.matmul_plain_zero_apply none x0 x1 r q
  · rw [shapeCast_self]
    exact broadcastTo_a1_ab_apply x2 _ r q

/-! ## The region's result as one array -/

/-- Entry `(p, q)` of the result: row `p` of the features against column `q` of the weights, times row `p`'s scale. -/
def entry (c : Dev nD) (p : Fin 50000) (q : Fin 64) : EReal :=
  (∑ k : Fin 16, feat V c (ix2 p k) * wgt V c (ix2 k q)) * scl V c (ix2 p 0)

/-- The result array, index by index. -/
def proj (c : Dev nD) : S50000x64.Idx → EReal := fun i => entry V c (i 0) (i 1)

/-- Two arrays of two axes are equal when they agree at every pair of coordinates. -/
theorem ext_ix2 {n0 n1 : ℕ} {α : Type} {f g : (⟨2, ![n0, n1]⟩ : Shape).Idx → α}
    (h : ∀ (r : Fin n0) (q : Fin n1), f (ix2 r q) = g (ix2 r q)) : f = g :=
  funext fun j => by rw [eq_ix2 j]; exact h _ _

/-! ## The blocks of a grid point -/

theorem zero_offsets : (![0, 0] : Fin 2 → Nat) = fun _ => 0 := funext fun a => by fin_cases a <;> rfl

/-- The index maps over the grid: on the row axis the output's block and each row-tiled input's block sit at the
    point; on the column axis every block sits at 0; the weights' block is the whole array at every point. -/
theorem block_indices : ∀ t : Fin cfg1.N,
    win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature block at point `t` is rows `2000 t … 2000 t + 1999` of the features. -/
theorem feat_block (c : Dev nD) (t : Fin cfg1.N) (r : Fin 2000) (k : Fin 16) (p : Fin 50000)
    (hp : p.val = t.val * 2000 + r.val) :
    (iblk1 V c 0 t : Vec Ideal S2000x16 .f32) (ix2 r k) = feat V c (ix2 p k) := by
  obtain ⟨-, -, e0, e1, -⟩ := block_indices t
  unfold iblk1
  rw [View.read_apply]
  show V c main_v51 _ = V c main_v51 _
  congr 1
  funext a
  apply Fin.ext
  match a with
  | ⟨0, _⟩ => show win1_0.index t (0 : Fin 2) * 2000 + 1 * r.val = p.val; rw [e0, hp]; omega
  | ⟨1, _⟩ => show win1_0.index t (1 : Fin 2) * 16 + 1 * k.val = k.val; rw [e1]; omega

/-- The weight block at every point is the whole weight array. -/
theorem wgt_block (c : Dev nD) (t : Fin cfg1.N) (k : Fin 16) (q : Fin 64) :
    (iblk1 V c 1 t : Vec Ideal S16x64 .f32) (ix2 k q) = wgt V c (ix2 k q) := by
  obtain ⟨-, -, -, -, e0, e1, -⟩ := block_indices t
  unfold iblk1
  rw [View.read_apply]
  show V c main_arg8 _ = V c main_arg8 _
  congr 1
  funext a
  apply Fin.ext
  match a with
  | ⟨0, _⟩ => show win1_1.index t (0 : Fin 2) * 16 + 1 * k.val = k.val; rw [e0]; omega
  | ⟨1, _⟩ => show win1_1.index t (1 : Fin 2) * 64 + 1 * q.val = q.val; rw [e1]; omega

/-- The scale block at point `t` is rows `2000 t … 2000 t + 1999` of the scale column. -/
theorem scl_block (c : Dev nD) (t : Fin cfg1.N) (r : Fin 2000) (p : Fin 50000)
    (hp : p.val = t.val * 2000 + r.val) :
    (iblk1 V c 2 t : Vec Ideal S2000x1 .f32) (ix2 r 0) = scl V c (ix2 p 0) := by
  obtain ⟨-, -, -, -, -, -, e0, e1⟩ := block_indices t
  unfold iblk1
  rw [View.read_apply]
  show V c main_v52 _ = V c main_v52 _
  congr 1
  funext a
  apply Fin.ext
  match a with
  | ⟨0, _⟩ => show win1_2.index t (0 : Fin 2) * 2000 + 1 * r.val = p.val; rw [e0, hp]; omega
  | ⟨1, _⟩ => show win1_2.index t (1 : Fin 2) * 1 + 1 * 0 = 0; rw [e1]

/-- What the body leaves at point `t`, entry `(r, q)` of its block, is entry `(2000 t + r, q)` of the result. -/
theorem body_block (c : Dev nD) (t : Fin cfg1.N) (r : Fin 2000) (q : Fin 64) (p : Fin 50000)
    (hp : p.val = t.val * 2000 + r.val) :
    k1_pay1 (iblk1 V c 0 t) (iblk1 V c 1 t) (iblk1 V c 2 t) (ix2 r q) = entry V c p q := by
  refine (payload_apply (iblk1 V c 0 t) (iblk1 V c 1 t) (iblk1 V c 2 t) r q).trans ?_
  unfold entry
  rw [scl_block V c t r p hp]
  congr 1
  refine Finset.sum_congr rfl fun k _ => ?_
  rw [feat_block V c t r k p hp, wgt_block V c t k q]

/-- The result read through the output block of point `t`, entry `(r, q)`, is its entry `(2000 t + r, q)`. -/
theorem proj_block (c : Dev nD) (t : Fin cfg1.N) (r : Fin 2000) (q : Fin 64) (p : Fin 50000)
    (hp : p.val = t.val * 2000 + r.val) :
    ((cfg1.win 3).blk t).view.read (Elt Ideal) (proj V c) (ix2 r q) = entry V c p q := by
  obtain ⟨e0, e1, -⟩ := block_indices t
  rw [View.read_apply]
  show proj V c _ = proj V c (ix2 p q)
  congr 1
  funext a
  apply Fin.ext
  match a with
  | ⟨0, _⟩ => show win1_3.index t (0 : Fin 2) * 2000 + 1 * r.val = p.val; rw [e0, hp]; omega
  | ⟨1, _⟩ => show win1_3.index t (1 : Fin 2) * 64 + 1 * q.val = q.val; rw [e1]; omega

/-! ## From the blocks to the array -/

/-- What point `t` writes back is the result read through the point's output block. -/
theorem flushed_eq (c : Dev nD) (t : Fin cfg1.N) :
    (dat1 V c).flushed 3 t = ((cfg1.win 3).blk t).view.read (Elt Ideal) (proj V c) := by
  show (cfg1.win 3).cut (grid1.coords t) ((dat1 V c).after 3 t) = _
  rw [after1_3]
  unfold out1_3
  rw [View.canon_unit_zero zero_offsets]
  simp only [View.ld_unit_zero (S := S2000x16) zero_offsets, View.ld_unit_zero (S := S16x64) zero_offsets,
    View.ld_unit_zero (S := S2000x1) zero_offsets]
  refine ext_ix2 (n0 := 2000) (n1 := 64) fun r q => ?_
  have hp : t.val * 2000 + r.val < 50000 := by
    have ht : t.val < 25 := lt_of_lt_of_eq t.isLt N_1
    have hr := r.isLt
    omega
  exact (body_block V c t r q ⟨t.val * 2000 + r.val, hp⟩ rfl).trans
    (proj_block V c t r q ⟨t.val * 2000 + r.val, hp⟩ rfl).symm

/-- An index of the output array is in point `t`'s block iff each coordinate is in the block's range on its axis. -/
theorem mem_block (t : Fin cfg1.N) (i : S50000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v53).slice (win1_3.rect t)).set ↔ _
  rw [View.set_slice_whole, Rect.mem_set_unit]
  exact Iff.rfl

/-- Every index of the output array is in the block of the point its row falls in: row `p` in point `p / 2000`. -/
theorem covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have ht : (i 0).val / 2000 < cfg1.N := lt_of_lt_of_eq (by omega : (i 0).val / 2000 < 25) N_1.symm
  obtain ⟨e0, e1, -⟩ := block_indices ⟨(i 0).val / 2000, ht⟩
  refine ⟨⟨(i 0).val / 2000, ht⟩, flush1_3 _, ?_⟩
  rw [mem_block]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e0]; dsimp only; omega
  | ⟨1, _⟩ =>
    show win1_3.index ⟨(i 0).val / 2000, ht⟩ (1 : Fin 2) * 64 ≤ (i 1).val
      ∧ (i 1).val < win1_3.index ⟨(i 0).val / 2000, ht⟩ (1 : Fin 2) * 64 + 64
    rw [e1]; omega

/-- So the output array ends holding the result. -/
theorem final (c : Dev nD) : (dat1 V c).arrAt 3 cfg1.N = proj V c :=
  (dat1 V c).arrAt_eq_of_cover 3 (proj V c) (fun t _ => flushed_eq V c t) covered

/-- The output array after the region, entry by entry. -/
theorem region1_apply (c : Dev nD) (p : Fin 50000) (q : Fin 64) :
    outArr V c (ix2 p q) = (∑ k : Fin 16, feat V c (ix2 p k) * wgt V c (ix2 k q)) * scl V c (ix2 p 0) := by
  exact congrFun (final V c) (ix2 p q)

end Cert.KernelIdeal.Val1

end
-- ==== Proof.Region2.lean ====
/-
  Region 2 of the kernel program — the edge predictor's first linear layer as three partial products — read as a
  value: its output array ends, entry (e, j), at the sum of the edge-feature, source-node and destination-node
  partial products of row e with column j of their weight blocks, plus the bias (the narrowing to bf16 is the
  identity on the extended reals).
-/
import proofs.«400428_j65575560675752_4_alg».proof.Proof.Gen.KernelIdeal.Frame
import proofs.«400428_j65575560675752_4_alg».proof.Proof.LibRowDims
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Val2

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The edge features, the gathered source rows and the gathered destination rows as the region finds them. -/
abbrev ef (c : Dev nD) : S1600000x32.Idx → EReal := V c main_v87
abbrev hs (c : Dev nD) : S1600000x64.Idx → EReal := V c main_v79
abbrev hd (c : Dev nD) : S1600000x64.Idx → EReal := V c main_v86
/-- The three blocks of the first layer's weights, and its bias as one row. -/
abbrev we (c : Dev nD) : S32x16.Idx → EReal := V c main_v89
abbrev whs (c : Dev nD) : S64x16.Idx → EReal := V c main_v90
abbrev whd (c : Dev nD) : S64x16.Idx → EReal := V c main_v91
abbrev bias (c : Dev nD) : S1x16.Idx → EReal := V c main_v88
/-- The output array as the region's write-backs leave it. -/
abbrev outArr (c : Dev nD) : S1600000x16.Idx → EReal := (dat2 V c).arrAt 7 cfg2.N

/-- The body's arithmetic read at one entry of the block: the three partial products of row `p` with column `q` of
    their weight blocks, added in the body's order, plus the bias row at `q` (each shape cast is of a shape to itself,
    each product runs into the zero accumulator, the narrowing is the identity on the extended reals). -/
theorem pay_apply (x0 : FVec Ideal S8000x32 .bf16) (x3 : FVec Ideal S32x16 .bf16) (x1 : FVec Ideal S8000x64 .bf16)
    (x4 : FVec Ideal S64x16 .bf16) (x2 : FVec Ideal S8000x64 .bf16) (x5 : FVec Ideal S64x16 .bf16)
    (x6 : FVec Ideal S1x16 .f32) (p : Fin 8000) (q : Fin 16) :
    k2_pay1 (F := Ideal) x0 x3 x1 x4 x2 x5 x6 (ix2 p q)
      = (((∑ k : Fin 32, x0 (ix2 p k) * x3 (ix2 k q)) + (∑ k : Fin 64, x1 (ix2 p k) * x4 (ix2 k q)))
          + (∑ k : Fin 64, x2 (ix2 p k) * x5 (ix2 k q))) + x6 (ix2 0 q) := by
  unfold k2_pay1
  simp only [shapeCast_self]
  refine congrArg₂ (fun a b : EReal => a + b) (congrArg₂ (fun a b : EReal => a + b) (congrArg₂ (fun a b : EReal => a + b) ?_ ?_) ?_) ?_
  · exact Idealize.ShloMosaic.RowDims.matmul_plain_zero_apply none x0 x3 p q
  · exact Idealize.ShloMosaic.RowDims.matmul_plain_zero_apply none x1 x4 p q
  · exact Idealize.ShloMosaic.RowDims.matmul_plain_zero_apply none x2 x5 p q
  · exact broadcastTo_1b_ab_apply x6 _ p q

/-- The zero offsets of a whole-shape rectangle, as the constant function. -/
theorem hz : (![0, 0] : Fin 2 → Nat) = fun _ => 0 := funext fun a => by fin_cases a <;> rfl

/-- The printed index maps, decided over the grid: the output window and the three row-tiled input windows sit at
    block `(t, 0)` at point `t`; the three weight windows and the bias window sit at block `(0, 0)` at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The edge-feature window's block at point `t` is rows `8000 t … 8000 t + 7999` of the edge features. -/
theorem efBlk_apply (c : Dev nD) (t : Fin cfg2.N) (p : Fin 8000) (k : Fin 32) (e : Fin 1600000)
    (he : e.val = t.val * 8000 + p.val) :
    (iblk2 V c 0 t : Vec Ideal S8000x32 .bf16) (ix2 p k) = ef V c (ix2 e k) := by
  obtain ⟨h0, h1, -⟩ := idx_facts t
  unfold iblk2
  rw [View.read_apply]
  show V c main_v87 _ = V c main_v87 _
  congr 1
  funext a
  apply Fin.ext
  match a with
  | ⟨0, _⟩ => show win2_0.index t (0 : Fin 2) * 8000 + 1 * p.val = e.val; rw [h0, he]; omega
  | ⟨1, _⟩ => show win2_0.index t (1 : Fin 2) * 32 + 1 * k.val = k.val; rw [h1]; omega

/-- The source-row window's block at point `t` is rows `8000 t … 8000 t + 7999` of the gathered source rows. -/
theorem hsBlk_apply (c : Dev nD) (t : Fin cfg2.N) (p : Fin 8000) (k : Fin 64) (e : Fin 1600000)
    (he : e.val = t.val * 8000 + p.val) :
    (iblk2 V c 1 t : Vec Ideal S8000x64 .bf16) (ix2 p k) = hs V c (ix2 e k) := by
  obtain ⟨-, -, h0, h1, -⟩ := idx_facts t
  unfold iblk2
  rw [View.read_apply]
  show V c main_v79 _ = V c main_v79 _
  congr 1
  funext a
  apply Fin.ext
  match a with
  | ⟨0, _⟩ => show win2_1.index t (0 : Fin 2) * 8000 + 1 * p.val = e.val; rw [h0, he]; omega
  | ⟨1, _⟩ => show win2_1.index t (1 : Fin 2) * 64 + 1 * k.val = k.val; rw [h1]; omega

/-- The destination-row window's block at point `t` is rows `8000 t … 8000 t + 7999` of the gathered destination rows. -/
theorem hdBlk_apply (c : Dev nD) (t : Fin cfg2.N) (p : Fin 8000) (k : Fin 64) (e : Fin 1600000)
    (he : e.val = t.val * 8000 + p.val) :
    (iblk2 V c 2 t : Vec Ideal S8000x64 .bf16) (ix2 p k) = hd V c (ix2 e k) := by
  obtain ⟨-, -, -, -, h0, h1, -⟩ := idx_facts t
  unfold iblk2
  rw [View.read_apply]
  show V c main_v86 _ = V c main_v86 _
  congr 1
  funext a
  apply Fin.ext
  match a with
  | ⟨0, _⟩ => show win2_2.index t (0 : Fin 2) * 8000 + 1 * p.val = e.val; rw [h0, he]; omega
  | ⟨1, _⟩ => show win2_2.index t (1 : Fin 2) * 64 + 1 * k.val = k.val; rw [h1]; omega

/-- The edge-feature weight window's block at every point is the whole weight block. -/
theorem weBlk_apply (c : Dev nD) (t : Fin cfg2.N) (k : Fin 32) (q : Fin 16) :
    (iblk2 V c 3 t : Vec Ideal S32x16 .bf16) (ix2 k q) = we V c (ix2 k q) := by
  obtain ⟨-, -, -, -, -, -, h0, h1, -⟩ := idx_facts t
  unfold iblk2
  rw [View.read_apply]
  show V c main_v89 _ = V c main_v89 _
  congr 1
  funext a
  apply Fin.ext
  match a with
  | ⟨0, _⟩ => show win2_3.index t (0 : Fin 2) * 32 + 1 * k.val = k.val; rw [h0]; omega
  | ⟨1, _⟩ => show win2_3.index t (1 : Fin 2) * 16 + 1 * q.val = q.val; rw [h1]; omega

/-- The source-row weight window's block at every point is the whole weight block. -/
theorem whsBlk_apply (c : Dev nD) (t : Fin cfg2.N) (k : Fin 64) (q : Fin 16) :
    (iblk2 V c 4 t : Vec Ideal S64x16 .bf16) (ix2 k q) = whs V c (ix2 k q) := by
  obtain ⟨-, -, -, -, -, -, -, -, h0, h1, -⟩ := idx_facts t
  unfold iblk2
  rw [View.read_apply]
  show V c main_v90 _ = V c main_v90 _
  congr 1
  funext a
  apply Fin.ext
  match a with
  | ⟨0, _⟩ => show win2_4.index t (0 : Fin 2) * 64 + 1 * k.val = k.val; rw [h0]; omega
  | ⟨1, _⟩ => show win2_4.index t (1 : Fin 2) * 16 + 1 * q.val = q.val; rw [h1]; omega

/-- The destination-row weight window's block at every point is the whole weight block. -/
theorem whdBlk_apply (c : Dev nD) (t : Fin cfg2.N) (k : Fin 64) (q : Fin 16) :
    (iblk2 V c 5 t : Vec Ideal S64x16 .bf16) (ix2 k q) = whd V c (ix2 k q) := by
  obtain ⟨-, -, -, -, -, -, -, -, -, -, h0, h1, -⟩ := idx_facts t
  unfold iblk2
  rw [View.read_apply]
  show V c main_v91 _ = V c main_v91 _
  congr 1
  funext a
  apply Fin.ext
  match a with
  | ⟨0, _⟩ => show win2_5.index t (0 : Fin 2) * 64 + 1 * k.val = k.val; rw [h0]; omega
  | ⟨1, _⟩ => show win2_5.index t (1 : Fin 2) * 16 + 1 * q.val = q.val; rw [h1]; omega

/-- The bias window's block at every point is the whole bias row. -/
theorem biasBlk_apply (c : Dev nD) (t : Fin cfg2.N) (k : Fin 1) (q : Fin 16) :
    (iblk2 V c 6 t : Vec Ideal S1x16 .f32) (ix2 k q) = bias V c (ix2 k q) := by
  obtain ⟨-, -, -, -, -, -, -, -, -, -, -, -, h0, h1, -⟩ := idx_facts t
  unfold iblk2
  rw [View.read_apply]
  show V c main_v88 _ = V c main_v88 _
  congr 1
  funext a
  apply Fin.ext
  match a with
  | ⟨0, _⟩ => show win2_6.index t (0 : Fin 2) * 1 + 1 * k.val = k.val; rw [h0]; omega
  | ⟨1, _⟩ => show win2_6.index t (1 : Fin 2) * 16 + 1 * q.val = q.val; rw [h1]; omega

/-- Entry `(e, j)` of the layer's output: row `e` of the edge features, of the source rows and of the destination rows
    each against column `j` of its weight block, the three partial products added in the body's order, plus the bias. -/
def rowOut (c : Dev nD) (e : Fin 1600000) (j : Fin 16) : EReal :=
  (((∑ k : Fin 32, ef V c (ix2 e k) * we V c (ix2 k j)) + (∑ k : Fin 64, hs V c (ix2 e k) * whs V c (ix2 k j)))
      + (∑ k : Fin 64, hd V c (ix2 e k) * whd V c (ix2 k j))) + bias V c (ix2 0 j)

/-- The layer's output as one array, index by index. -/
abbrev layerOut (c : Dev nD) : S1600000x16.Idx → EReal :=
  fun i => rowOut V c ⟨(i 0).val, idx2_lt0 i⟩ ⟨(i 1).val, idx2_lt1 i⟩

/-- Entry `(p, q)` of the output window's block at point `t` is entry `(8000 t + p, q)` of the output array. -/
theorem outBlk_emb (t : Fin cfg2.N) (p : Fin 8000) (q : Fin 16) (e : Fin 1600000) (he : e.val = t.val * 8000 + p.val) :
    ((cfg2.win 7).blk t).view.emb (ix2 p q) = ix2 e q := by
  obtain ⟨-, -, -, -, -, -, -, -, -, -, -, -, -, -, h0, h1⟩ := idx_facts t
  funext a
  apply Fin.ext
  match a with
  | ⟨0, _⟩ => show win2_7.index t (0 : Fin 2) * 8000 + 1 * p.val = e.val; rw [h0, he]; omega
  | ⟨1, _⟩ => show win2_7.index t (1 : Fin 2) * 16 + 1 * q.val = q.val; rw [h1]; omega

/-- What point `t` writes back is block `t` of the layer's output. -/
theorem flushed_eq (c : Dev nD) (t : Fin cfg2.N) :
    (dat2 V c).flushed 7 t = ((cfg2.win 7).blk t).view.read (Elt Ideal) (layerOut V c) := by
  show (cfg2.win 7).cut (grid2.coords t) ((dat2 V c).after 7 t) = _
  rw [after2_7]
  unfold out2_7
  rw [View.canon_unit_zero hz]
  simp only [View.ld_unit_zero (S := S8000x32) hz, View.ld_unit_zero (S := S32x16) hz,
    View.ld_unit_zero (S := S8000x64) hz, View.ld_unit_zero (S := S64x16) hz, View.ld_unit_zero (S := S1x16) hz]
  funext y
  obtain ⟨p, q, rfl⟩ : ∃ (p : Fin 8000) (q : Fin 16), y = ix2 p q := ⟨y 0, y 1, eq_ix2 y⟩
  have hN : cfg2.N = 200 := N_2
  have ht : t.val < 200 := hN ▸ t.isLt
  have hp : p.val < 8000 := p.isLt
  obtain ⟨e, he⟩ : ∃ e : Fin 1600000, e.val = t.val * 8000 + p.val := ⟨⟨t.val * 8000 + p.val, by omega⟩, rfl⟩
  refine (pay_apply (iblk2 V c 0 t) (iblk2 V c 3 t) (iblk2 V c 1 t) (iblk2 V c 4 t) (iblk2 V c 2 t) (iblk2 V c 5 t)
    (iblk2 V c 6 t) p q).trans ?_
  show _ = layerOut V c (((cfg2.win 7).blk t).view.emb (ix2 p q))
  rw [outBlk_emb t p q e he]
  show _ = rowOut V c e q
  unfold rowOut
  refine congrArg₂ (fun a b : EReal => a + b) (congrArg₂ (fun a b : EReal => a + b) (congrArg₂ (fun a b : EReal => a + b)
    (Finset.sum_congr rfl fun k _ => congrArg₂ (fun a b : EReal => a * b) (efBlk_apply V c t p k e he) (weBlk_apply V c t k q))
    (Finset.sum_congr rfl fun k _ => congrArg₂ (fun a b : EReal => a * b) (hsBlk_apply V c t p k e he) (whsBlk_apply V c t k q)))
    (Finset.sum_congr rfl fun k _ => congrArg₂ (fun a b : EReal => a * b) (hdBlk_apply V c t p k e he) (whdBlk_apply V c t k q)))
    (biasBlk_apply V c t 0 q)

/-- An index of the output array is in point `t`'s block iff each coordinate is in the block's range on its axis. -/
theorem mem_blk (t : Fin cfg2.N) (i : S1600000x16.Idx) :
    i ∈ ((cfg2.win 7).blk t).view.set ↔ ∀ a : Fin 2, win2_7.index t a * S8000x16.size a ≤ (i a).val
      ∧ (i a).val < win2_7.index t a * S8000x16.size a + S8000x16.size a := by
  show i ∈ ((View.whole main_v92).slice (win2_7.rect t)).set ↔ _
  rw [View.set_slice_whole, Rect.mem_set_unit]
  exact Iff.rfl

/-- The output's blocks tile the array: row `r` is in the block of point `r / 8000`. -/
theorem cover (i : S1600000x16.Idx) :
    ∃ t : Fin cfg2.N, (cfg2.win 7).flush t = true ∧ i ∈ ((cfg2.win 7).blk t).view.set := by
  have hi0 : (i 0).val < 1600000 := (i 0).isLt
  have hi1 : (i 1).val < 16 := (i 1).isLt
  have hN : cfg2.N = 200 := N_2
  obtain ⟨t, ht⟩ : ∃ t : Fin cfg2.N, t.val = (i 0).val / 8000 := ⟨⟨(i 0).val / 8000, by rw [hN]; omega⟩, rfl⟩
  obtain ⟨-, -, -, -, -, -, -, -, -, -, -, -, -, -, h0, h1⟩ := idx_facts t
  refine ⟨t, flush2_7 t, ?_⟩
  rw [mem_blk]
  intro a
  match a with
  | ⟨0, _⟩ =>
    show win2_7.index t (0 : Fin 2) * 8000 ≤ (i 0).val ∧ (i 0).val < win2_7.index t (0 : Fin 2) * 8000 + 8000
    rw [h0, ht]; omega
  | ⟨1, _⟩ =>
    show win2_7.index t (1 : Fin 2) * 16 ≤ (i 1).val ∧ (i 1).val < win2_7.index t (1 : Fin 2) * 16 + 16
    rw [h1]; omega

/-- The output array after the region is the layer's output. -/
theorem outArr_eq (c : Dev nD) : outArr V c = layerOut V c :=
  (dat2 V c).arrAt_eq_of_cover 7 (layerOut V c) (fun t _ => flushed_eq V c t) cover

/-- The output array after the region, entry by entry. -/
theorem region2_apply (c : Dev nD) (e : Fin 1600000) (j : Fin 16) :
    outArr V c (ix2 e j)
      = (((∑ k : Fin 32, ef V c (ix2 e k) * we V c (ix2 k j)) + (∑ k : Fin 64, hs V c (ix2 e k) * whs V c (ix2 k j)))
          + (∑ k : Fin 64, hd V c (ix2 e k) * whd V c (ix2 k j))) + bias V c (ix2 0 j) := by
  rw [outArr_eq V c]
  rfl

end Cert.KernelIdeal.Val2

end
-- ==== Proof.Spec.lean ====
/-
  The arithmetic of the edge predictor's last stage, entry by entry, on the extended reals: one batch-normalised
  entry, one logit of a row, a row's maximum, and the two spellings of a row's log-softmax — the kernel's
  `x − (m + log Σ exp(x_k − m))` and the reference's `(x − m) − log Σ exp(x_k − m)`. The two agree when the row's
  maximum `m` is a real number: then `−(m + ℓ) = −m − ℓ` for every extended real `ℓ`, and addition is associative.
-/
import Idealize.ShloMosaic.PureOps.Ideal

noncomputable section

open scoped BigOperators

namespace Cert.Spec

open Idealize.ShloMosaic

/-- The variance guard of the batch normalisation, as both programs print it. -/
abbrev epsBN : EReal := Ideal.ofBits .f32 0x3727C5AC#32

/-- The initial value of a row maximum: −∞. -/
abbrev negInf : EReal := Ideal.ofBits .f32 0xFF800000#32

/-- One batch-normalised entry: `((z − μ) · rsqrt(σ² + ε)) · γ + β`. -/
def bnAt (z μ σ2 γ β : EReal) : EReal := ((z - μ) * Ideal.rsqrt (σ2 + epsBN)) * γ + β

/-- One logit of a row: the sum over the sixteen normalised entries times a column of the weights, plus the bias. -/
def logitAt (zn w : Fin 16 → EReal) (b : EReal) : EReal := (∑ k, zn k * w k) + b

/-- A row's maximum, folded from −∞. -/
def rowMax (L : Fin 8 → EReal) : EReal := (Finset.univ : Finset (Fin 8)).fold max negInf L

/-- The kernel's log-softmax entry. -/
def lsmK (L : Fin 8 → EReal) (j : Fin 8) : EReal := L j - (rowMax L + Ideal.log (∑ k, Ideal.exp (L k - rowMax L)))

/-- The reference's log-softmax entry. -/
def lsmR (L : Fin 8 → EReal) (j : Fin 8) : EReal := (L j - rowMax L) - Ideal.log (∑ k, Ideal.exp (L k - rowMax L))

/-- The initial value of a row maximum is −∞. -/
theorem negInf_eq_bot : negInf = ⊥ := by
  simp [negInf, Ideal.ofBits, Ideal.ieee]

/-- A row's maximum is the supremum of its entries. -/
theorem rowMax_eq_sup (L : Fin 8 → EReal) : rowMax L = (Finset.univ : Finset (Fin 8)).sup L := by
  unfold rowMax
  rw [negInf_eq_bot]
  rfl

/-- The maximum of a row of real numbers is a real number: it is one of the entries. -/
theorem rowMax_real (L : Fin 8 → EReal) (hL : ∀ k, ∃ r : ℝ, L k = (r : EReal)) :
    ∃ r : ℝ, rowMax L = (r : EReal) := by
  rw [rowMax_eq_sup]
  obtain ⟨i, _, hi⟩ := Finset.exists_mem_eq_sup (Finset.univ : Finset (Fin 8)) Finset.univ_nonempty L
  rw [hi]
  exact hL i

/-- Subtracting a sum whose first term is real: `x − (m + ℓ) = (x − m) − ℓ`. -/
theorem sub_add_real (x ℓ : EReal) (m : ℝ) : x - ((m : EReal) + ℓ) = (x - (m : EReal)) - ℓ := by
  rw [sub_eq_add_neg, sub_eq_add_neg, sub_eq_add_neg,
    EReal.neg_add (Or.inl (EReal.coe_ne_bot m)) (Or.inl (EReal.coe_ne_top m)), sub_eq_add_neg, add_assoc]

/-- On a row of real logits the two spellings agree. -/
theorem lsmK_eq_lsmR (L : Fin 8 → EReal) (hL : ∀ k, ∃ r : ℝ, L k = (r : EReal)) (j : Fin 8) : lsmK L j = lsmR L j := by
  obtain ⟨m, hm⟩ := rowMax_real L hL
  unfold lsmK lsmR
  rw [hm]
  exact sub_add_real _ _ m

end Cert.Spec

end
-- ==== Proof.Region3.lean ====
/-
  Region 3 of the kernel program — batch normalisation, the second linear layer and the log-softmax of the edge
  predictor — read as a value: its output array ends, entry (e, j), at the kernel's spelling of the log-softmax of
  row e's eight logits, each logit the normalised row times a column of the weights plus the bias.
-/
import proofs.«400428_j65575560675752_4_alg».proof.Proof.Gen.KernelIdeal.Frame
import proofs.«400428_j65575560675752_4_alg».proof.Proof.LibRowDims
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

import proofs.«400428_j65575560675752_4_alg».proof.Proof.Spec
set_option maxRecDepth 16384

noncomputable section

open scoped BigOperators

namespace Cert.KernelIdeal.Val3

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open Cert.Spec
/-- The logits of a block of rows: normalise, contract with the weights, add the bias. -/
def logitsV (x0 : FVec Ideal S8000x16 .bf16) (x1 x2 x3 x4 : FVec Ideal S1x16 .f32) (x5 : FVec Ideal S16x8 .f32)
    (x6 : FVec Ideal S1x8 .f32) : FVec Ideal S8000x8 .f32 :=
  addf
    (matmul dot_S8000x16_S16x8_S8000x8_1_0_0_1_n_n none
      (addf
        (mulf
          (mulf (subf (extf .f32 (shapeCast S8000x16 x0 shapeCasts_S8000x16_S8000x16) bitsLt_bf16_f32)
              (broadcastTo S8000x16 (shapeCast S1x16 x1 shapeCasts_S1x16_S1x16) broadcasts_S1x16_S8000x16))
            (broadcastTo S8000x16
              (rsqrt (addf (shapeCast S1x16 x2 shapeCasts_S1x16_S1x16) (broadcast S1x16 (Scalar.ofBits (F := Ideal) .f32 0x3727C5AC#32))))
              broadcasts_S1x16_S8000x16))
          (broadcastTo S8000x16 (shapeCast S1x16 x3 shapeCasts_S1x16_S1x16) broadcasts_S1x16_S8000x16))
        (broadcastTo S8000x16 (shapeCast S1x16 x4 shapeCasts_S1x16_S1x16) broadcasts_S1x16_S8000x16))
      x5 (constant (F := Ideal) S8000x8 .f32 0x00000000#32))
    (broadcastTo S8000x8 (shapeCast S1x8 x6 shapeCasts_S1x8_S1x8) broadcasts_S1x8_S8000x8)

/-- A row's maximum of a block, kept as a column. -/
def maxCol (L : FVec Ideal S8000x8 .f32) : FVec Ideal S8000x1 .f32 :=
  shapeCast S8000x1
    (multiReduction (F := Ideal) .maximumf [1] S8000 L 0xFF800000#32 reduces_S8000x8_S8000 (.inl rfl) rfl)
    shapeCasts_S8000_S8000x1

/-- A row's sum of exponentials of the shifted block, kept as a column. -/
def sumCol (L : FVec Ideal S8000x8 .f32) : FVec Ideal S8000x1 .f32 :=
  shapeCast S8000x1
    (multiReduction (F := Ideal) .add [1] S8000
      (exp (subf L (broadcastTo S8000x8 (maxCol L) broadcasts_S8000x1_S8000x8))) 0x00000000#32 reduces_S8000x8_S8000 (.inl rfl) rfl)
    shapeCasts_S8000_S8000x1

/-- The log-softmax of a block of logits as the body spells it. -/
def lsmV (L : FVec Ideal S8000x8 .f32) : FVec Ideal S8000x8 .f32 :=
  subf L (broadcastTo S8000x8 (addf (maxCol L) (log (sumCol L))) broadcasts_S8000x1_S8000x8)

theorem pay_eq (x0 : FVec Ideal S8000x16 .bf16) (x1 x2 x3 x4 : FVec Ideal S1x16 .f32) (x5 : FVec Ideal S16x8 .f32)
    (x6 : FVec Ideal S1x8 .f32) :
    k3_pay1 (F := Ideal) x0 x1 x2 x3 x4 x5 x6 = lsmV (logitsV x0 x1 x2 x3 x4 x5 x6) := rfl

/-! ## Two keepdims layout forms -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along the columns inserts: row `r`, column `k`. -/
theorem lift_row (h : S8000x8.Reduces [1] S8000) (r : Fin 8000) (k : Fin 8) : h.lift (ix1 r) k = ix2 r k := by
  funext a
  apply Fin.ext
  match a with
  | ⟨0, _⟩ => rfl
  | ⟨1, _⟩ => rfl

/-! ## The log-softmax tail at an entry -/

theorem maxCol_apply (L : FVec Ideal S8000x8 .f32) (r : Fin 8000) (u : Fin 1) :
    maxCol L (ix2 r u) = rowMax (fun k => L (ix2 r k)) := by
  unfold maxCol
  refine (shapeCast_a_a1_apply _ _ r u).trans ?_
  refine (Ideal.multiReduction_maximumf_single L 0xFF800000#32 reduces_S8000x8_S8000 (.inl rfl) rfl (ix1 r)).trans ?_
  have e : (L ∘ reduces_S8000x8_S8000.lift (ix1 r)) = fun k : Fin 8 => L (ix2 r k) :=
    funext fun k => congrArg L (lift_row _ r k)
  rw [e]
  rfl

theorem sumCol_apply (L : FVec Ideal S8000x8 .f32) (r : Fin 8000) (u : Fin 1) :
    sumCol L (ix2 r u) = ∑ k : Fin 8, Ideal.exp (L (ix2 r k) - rowMax (fun k => L (ix2 r k))) := by
  unfold sumCol
  refine (shapeCast_a_a1_apply _ _ r u).trans ?_
  refine (Ideal.multiReduction_add_single _ 0x00000000#32 reduces_S8000x8_S8000 (.inl rfl) rfl (ix1 r)).trans ?_
  show ∑ k : Fin 8, (exp (subf L (broadcastTo S8000x8 (maxCol L) broadcasts_S8000x1_S8000x8)))
      (reduces_S8000x8_S8000.lift (ix1 r) k) = _
  refine Finset.sum_congr rfl fun k _ => ?_
  refine (congrArg (exp (subf L (broadcastTo S8000x8 (maxCol L) broadcasts_S8000x1_S8000x8))) (lift_row _ r k)).trans ?_
  show Ideal.exp (L (ix2 r k) - broadcastTo S8000x8 (maxCol L) broadcasts_S8000x1_S8000x8 (ix2 r k)) = _
  rw [broadcastTo_a1_ab_apply, maxCol_apply]

theorem lsmV_apply (L : FVec Ideal S8000x8 .f32) (r : Fin 8000) (j : Fin 8) :
    lsmV L (ix2 r j) = lsmK (fun k => L (ix2 r k)) j := by
  unfold lsmV
  show L (ix2 r j) - broadcastTo S8000x8 (addf (maxCol L) (log (sumCol L))) broadcasts_S8000x1_S8000x8 (ix2 r j) = _
  rw [broadcastTo_a1_ab_apply]
  show L (ix2 r j) - (maxCol L (ix2 r 0) + Ideal.log (sumCol L (ix2 r 0))) = _
  rw [maxCol_apply, sumCol_apply]
  rfl

/-! ## The logits at an entry -/

theorem logitsV_apply (x0 : FVec Ideal S8000x16 .bf16) (x1 x2 x3 x4 : FVec Ideal S1x16 .f32) (x5 : FVec Ideal S16x8 .f32)
    (x6 : FVec Ideal S1x8 .f32) (r : Fin 8000) (k : Fin 8) :
    logitsV x0 x1 x2 x3 x4 x5 x6 (ix2 r k)
      = logitAt (fun q => bnAt (x0 (ix2 r q)) (x1 (ix2 0 q)) (x2 (ix2 0 q)) (x3 (ix2 0 q)) (x4 (ix2 0 q)))
          (fun q => x5 (ix2 q k)) (x6 (ix2 0 k)) := by
  unfold logitsV
  simp only [shapeCast_self]
  rw [addf_apply, broadcastTo_1b_ab_apply]
  refine congrArg (· + x6 (ix2 0 k)) ?_
  refine (Idealize.ShloMosaic.RowDims.matmul_plain_zero_apply (M := 8000) (K := 16) (N := 8) none _ x5 r k).trans ?_
  refine Finset.sum_congr rfl fun q _ => ?_
  refine congrArg (· * x5 (ix2 q k)) ?_
  simp only [addf_apply, mulf_apply, subf_apply, broadcastTo_1b_ab_apply, extf_apply]
  rfl

/-! ## The payload at an entry -/

/-- The body's payload at row `r`, column `j` of a block: the log-softmax of the row's logits. -/
theorem pay_apply (x0 : FVec Ideal S8000x16 .bf16) (x1 x2 x3 x4 : FVec Ideal S1x16 .f32) (x5 : FVec Ideal S16x8 .f32)
    (x6 : FVec Ideal S1x8 .f32) (r : Fin 8000) (j : Fin 8) :
    k3_pay1 (F := Ideal) x0 x1 x2 x3 x4 x5 x6 (ix2 r j)
      = lsmK (fun k => logitAt (fun q => bnAt (x0 (ix2 r q)) (x1 (ix2 0 q)) (x2 (ix2 0 q)) (x3 (ix2 0 q)) (x4 (ix2 0 q)))
          (fun q => x5 (ix2 q k)) (x6 (ix2 0 k))) j := by
  rw [pay_eq, lsmV_apply]
  simp only [logitsV_apply]

-- the TensorCore's buffer contents when the region is entered
variable (V : (c : Dev nD) → (b : Ref sig .tc) → Buf (Elt Ideal) ((c : Thread nD τ).loc b))

/-- The pre-normalisation rows, their column means and variances, the normalisation's scale and shift (one row
    each), the second layer's weights and its bias (one row), as the region finds them. -/
abbrev zpre (c : Dev nD) : S1600000x16.Idx → EReal := V c main_v92
abbrev mu (c : Dev nD) : S1x16.Idx → EReal := V c main_v98
abbrev sig2 (c : Dev nD) : S1x16.Idx → EReal := V c main_v99
abbrev gam (c : Dev nD) : S1x16.Idx → EReal := V c main_v100
abbrev bet (c : Dev nD) : S1x16.Idx → EReal := V c main_v101
abbrev w2 (c : Dev nD) : S16x8.Idx → EReal := V c main_arg14
abbrev b2 (c : Dev nD) : S1x8.Idx → EReal := V c main_v102
/-- The output array as the region's write-backs leave it. -/
abbrev outArr (c : Dev nD) : S1600000x8.Idx → EReal := (dat3 V c).arrAt 7 cfg3.N

/-- Row e's logits as the region computes them from the buffers it finds. -/
def logitK (c : Dev nD) (e : Fin 1600000) (j : Fin 8) : EReal :=
  logitAt (fun k => bnAt (zpre V c (ix2 e k)) (mu V c (ix2 0 k)) (sig2 V c (ix2 0 k)) (gam V c (ix2 0 k)) (bet V c (ix2 0 k)))
    (fun k => w2 V c (ix2 k j)) (b2 V c (ix2 0 j))

/-! ## From the blocks to the array -/

theorem zero_offsets : (![0, 0] : Fin 2 → Nat) = fun _ => 0 := funext fun a => by fin_cases a <;> rfl

/-- The printed index maps, decided over the grid: the row-tiled windows (the rows read and the rows written) sit at
    block `t` of axis 0 and block 0 of axis 1; every other window sits at block (0, 0). -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

theorem points_eq : cfg3.N = 200 := rfl

/-- The rows window's block at point `t` is rows `8000 t … 8000 t + 7999` of the pre-normalisation array. -/
theorem rows_blk_apply (c : Dev nD) (t : Fin cfg3.N) (x : S8000x16.Idx) (k : S1600000x16.Idx)
    (hk0 : (k 0).val = t.val * 8000 + (x 0).val) (hk1 : (k 1).val = (x 1).val) :
    (iblk3 V c 0 t : Vec Ideal S8000x16 .bf16) x = zpre V c k := by
  obtain ⟨e0, e1, -⟩ := block_indices t
  unfold iblk3
  rw [View.read_apply]
  show V c main_v92 _ = V c main_v92 k
  congr 1
  funext a
  apply Fin.ext
  match a with
  | ⟨0, _⟩ => show win3_0.index t (0 : Fin 2) * 8000 + 1 * (x 0).val = (k 0).val; rw [e0, hk0]; omega
  | ⟨1, _⟩ => show win3_0.index t (1 : Fin 2) * 16 + 1 * (x 1).val = (k 1).val; rw [e1, hk1]; omega

/-- The means window's block is the whole row of means. -/
theorem mu_blk_apply (c : Dev nD) (t : Fin cfg3.N) (x : S1x16.Idx) :
    (iblk3 V c 1 t : Vec Ideal S1x16 .f32) x = mu V c x := by
  obtain ⟨-, -, e0, e1, -⟩ := block_indices t
  unfold iblk3
  rw [View.read_apply]
  show V c main_v98 _ = V c main_v98 x
  congr 1
  funext a
  apply Fin.ext
  match a with
  | ⟨0, _⟩ => show win3_1.index t (0 : Fin 2) * 1 + 1 * (x 0).val = (x 0).val; rw [e0]; omega
  | ⟨1, _⟩ => show win3_1.index t (1 : Fin 2) * 16 + 1 * (x 1).val = (x 1).val; rw [e1]; omega

/-- The variances window's block is the whole row of variances. -/
theorem sig2_blk_apply (c : Dev nD) (t : Fin cfg3.N) (x : S1x16.Idx) :
    (iblk3 V c 2 t : Vec Ideal S1x16 .f32) x = sig2 V c x := by
  obtain ⟨-, -, -, -, e0, e1, -⟩ := block_indices t
  unfold iblk3
  rw [View.read_apply]
  show V c main_v99 _ = V c main_v99 x
  congr 1
  funext a
  apply Fin.ext
  match a with
  | ⟨0, _⟩ => show win3_2.index t (0 : Fin 2) * 1 + 1 * (x 0).val = (x 0).val; rw [e0]; omega
  | ⟨1, _⟩ => show win3_2.index t (1 : Fin 2) * 16 + 1 * (x 1).val = (x 1).val; rw [e1]; omega

/-- The scale window's block is the whole row of scales. -/
theorem gam_blk_apply (c : Dev nD) (t : Fin cfg3.N) (x : S1x16.Idx) :
    (iblk3 V c 3 t : Vec Ideal S1x16 .f32) x = gam V c x := by
  obtain ⟨-, -, -, -, -, -, e0, e1, -⟩ := block_indices t
  unfold iblk3
  rw [View.read_apply]
  show V c main_v100 _ = V c main_v100 x
  congr 1
  funext a
  apply Fin.ext
  match a with
  | ⟨0, _⟩ => show win3_3.index t (0 : Fin 2) * 1 + 1 * (x 0).val = (x 0).val; rw [e0]; omega
  | ⟨1, _⟩ => show win3_3.index t (1 : Fin 2) * 16 + 1 * (x 1).val = (x 1).val; rw [e1]; omega

/-- The shift window's block is the whole row of shifts. -/
theorem bet_blk_apply (c : Dev nD) (t : Fin cfg3.N) (x : S1x16.Idx) :
    (iblk3 V c 4 t : Vec Ideal S1x16 .f32) x = bet V c x := by
  obtain ⟨-, -, -, -, -, -, -, -, e0, e1, -⟩ := block_indices t
  unfold iblk3
  rw [View.read_apply]
  show V c main_v101 _ = V c main_v101 x
  congr 1
  funext a
  apply Fin.ext
  match a with
  | ⟨0, _⟩ => show win3_4.index t (0 : Fin 2) * 1 + 1 * (x 0).val = (x 0).val; rw [e0]; omega
  | ⟨1, _⟩ => show win3_4.index t (1 : Fin 2) * 16 + 1 * (x 1).val = (x 1).val; rw [e1]; omega

/-- The weights window's block is the whole weights array. -/
theorem w2_blk_apply (c : Dev nD) (t : Fin cfg3.N) (x : S16x8.Idx) :
    (iblk3 V c 5 t : Vec Ideal S16x8 .f32) x = w2 V c x := by
  obtain ⟨-, -, -, -, -, -, -, -, -, -, e0, e1, -⟩ := block_indices t
  unfold iblk3
  rw [View.read_apply]
  show V c main_arg14 _ = V c main_arg14 x
  congr 1
  funext a
  apply Fin.ext
  match a with
  | ⟨0, _⟩ => show win3_5.index t (0 : Fin 2) * 16 + 1 * (x 0).val = (x 0).val; rw [e0]; omega
  | ⟨1, _⟩ => show win3_5.index t (1 : Fin 2) * 8 + 1 * (x 1).val = (x 1).val; rw [e1]; omega

/-- The bias window's block is the whole bias row. -/
theorem b2_blk_apply (c : Dev nD) (t : Fin cfg3.N) (x : S1x8.Idx) :
    (iblk3 V c 6 t : Vec Ideal S1x8 .f32) x = b2 V c x := by
  obtain ⟨-, -, -, -, -, -, -, -, -, -, -, -, e0, e1, -⟩ := block_indices t
  unfold iblk3
  rw [View.read_apply]
  show V c main_v102 _ = V c main_v102 x
  congr 1
  funext a
  apply Fin.ext
  match a with
  | ⟨0, _⟩ => show win3_6.index t (0 : Fin 2) * 1 + 1 * (x 0).val = (x 0).val; rw [e0]; omega
  | ⟨1, _⟩ => show win3_6.index t (1 : Fin 2) * 8 + 1 * (x 1).val = (x 1).val; rw [e1]; omega

/-- The array the region's write-backs leave: entry `(e, j)` is the log-softmax of row `e`'s logits at `j`. -/
def outG (c : Dev nD) : S1600000x8.Idx → EReal := fun i => lsmK (fun k => logitK V c (i 0) k) (i 1)

/-- Row `r` of point `t`'s block is row `8000 t + r` of the array. -/
theorem block_entry (c : Dev nD) (t : Fin cfg3.N) (r : Fin 8000) (j : Fin 8) (e : Fin 1600000)
    (he : e.val = t.val * 8000 + r.val) :
    k3_pay1 (F := Ideal) (iblk3 V c 0 t) (iblk3 V c 1 t) (iblk3 V c 2 t) (iblk3 V c 3 t) (iblk3 V c 4 t) (iblk3 V c 5 t)
        (iblk3 V c 6 t) (ix2 r j)
      = lsmK (fun k => logitK V c e k) j := by
  refine (pay_apply (iblk3 V c 0 t) (iblk3 V c 1 t) (iblk3 V c 2 t) (iblk3 V c 3 t) (iblk3 V c 4 t) (iblk3 V c 5 t)
    (iblk3 V c 6 t) r j).trans ?_
  unfold logitK
  simp only [mu_blk_apply, sig2_blk_apply, gam_blk_apply, bet_blk_apply, w2_blk_apply, b2_blk_apply,
    fun q => rows_blk_apply V c t (ix2 r q) (ix2 e q) he rfl]

/-- WHAT POINT `t` WRITES BACK is block `t` of that array. -/
theorem written_block_eq (c : Dev nD) (t : Fin cfg3.N) :
    (dat3 V c).flushed 7 t = ((cfg3.win 7).blk t).view.read (Elt Ideal) (outG V c) := by
  show (cfg3.win 7).cut (grid3.coords t) ((dat3 V c).after 7 t) = _
  rw [after3_7]
  unfold out3_7
  rw [View.canon_unit_zero zero_offsets]
  simp only [View.ld_unit_zero (S := S8000x16) zero_offsets, View.ld_unit_zero (S := S1x16) zero_offsets, View.ld_unit_zero (S := S16x8) zero_offsets,
    View.ld_unit_zero (S := S1x8) zero_offsets]
  obtain ⟨-, -, -, -, -, -, -, -, -, -, -, -, -, -, e0, e1⟩ := block_indices t
  have ht : t.val < 200 := t.isLt
  refine funext fun (y : S8000x8.Idx) => ?_
  obtain ⟨r, j, rfl⟩ : ∃ (r : Fin 8000) (j : Fin 8), y = ix2 r j := ⟨y 0, y 1, eq_ix2 y⟩
  refine (block_entry V c t r j ⟨t.val * 8000 + r.val, by omega⟩ rfl).trans ?_
  show _ = outG V c (((cfg3.win 7).blk t).view.emb (ix2 r j))
  unfold outG
  have h : ((cfg3.win 7).blk t).view.emb (ix2 r j) = ix2 (⟨t.val * 8000 + r.val, by omega⟩ : Fin 1600000) j := by
    funext a
    apply Fin.ext
    match a with
    | ⟨0, _⟩ => show win3_7.index t (0 : Fin 2) * 8000 + 1 * r.val = t.val * 8000 + r.val; rw [e0]; omega
    | ⟨1, _⟩ => show win3_7.index t (1 : Fin 2) * 8 + 1 * j.val = j.val; rw [e1]; omega
  rw [h]

/-- An index of the array is in point `t`'s block iff each coordinate is in the block's range on its axis. -/
theorem mem_out_block (t : Fin cfg3.N) (i : S1600000x8.Idx) :
    i ∈ ((cfg3.win 7).blk t).view.set ↔ ∀ a : Fin 2, win3_7.index t a * S8000x8.size a ≤ (i a).val ∧ (i a).val < win3_7.index t a * S8000x8.size a + S8000x8.size a := by
  show i ∈ ((View.whole main_v103).slice (win3_7.rect t)).set ↔ _
  rw [View.set_slice_whole, Rect.mem_set_unit]
  exact Iff.rfl

/-- Every row of the array is in the block of the point `row / 8000`. -/
theorem rows_covered (i : S1600000x8.Idx) : ∃ t : Fin cfg3.N, (cfg3.win 7).flush t = true ∧ i ∈ ((cfg3.win 7).blk t).view.set := by
  have hi0 : (i 0).val < 1600000 := (i 0).isLt
  have hi1 : (i 1).val < 8 := (i 1).isLt
  let t : Fin cfg3.N := ⟨(i 0).val / 8000, by rw [points_eq]; omega⟩
  obtain ⟨-, -, -, -, -, -, -, -, -, -, -, -, -, -, e0, e1⟩ := block_indices t
  have tv : t.val = (i 0).val / 8000 := rfl
  refine ⟨t, flush3_7 t, ?_⟩
  rw [mem_out_block]
  intro a
  match a with
  | ⟨0, _⟩ => show win3_7.index t (0 : Fin 2) * 8000 ≤ (i 0).val ∧ (i 0).val < win3_7.index t (0 : Fin 2) * 8000 + 8000; rw [e0, tv]; omega
  | ⟨1, _⟩ => show win3_7.index t (1 : Fin 2) * 8 ≤ (i 1).val ∧ (i 1).val < win3_7.index t (1 : Fin 2) * 8 + 8; rw [e1]; omega

/-- The output array after the region. -/
theorem outArr_eq (c : Dev nD) : outArr V c = outG V c :=
  (dat3 V c).arrAt_eq_of_cover 7 (outG V c) (fun t _ => written_block_eq V c t) rows_covered

/-- The output array after the region, entry by entry. -/
theorem region3_apply (c : Dev nD) (e : Fin 1600000) (j : Fin 8) :
    outArr V c (ix2 e j) = lsmK (fun k => logitK V c e k) j := by
  rw [outArr_eq]
  rfl

end Cert.KernelIdeal.Val3

end
-- ==== Proof.RefRead.lean ====
/-
  The reference program's stages read entry by entry, each stretch of host operations over ARBITRARY contents `X`
  before it: the scaled projection of a graph convolution as a sum over the contracted coordinate times the row's
  degree scale; the edge predictor's first linear layer over the concatenated features as the three partial sums;
  the logits from the batch-normalised rows; the log-softmax of a row.
-/
import proofs.«400428_j65575560675752_4_alg».proof.Proof.RefOps
import proofs.«400428_j65575560675752_4_alg».proof.Proof.LibRowDims
import proofs.«400428_j65575560675752_4_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.ReferenceIdeal.Read

open Cert.ReferenceIdeal Cert.ReferenceIdeal.Gen Cert.ReferenceIdeal.Ops Cert.Spec
open Idealize.ShloMosaic Idealize.ShloMosaic.TcCoe Idealize.SL.Sem Idealize.ShloMosaic.StableHlo Idealize.ShloMosaic.ValueIdx

-- the buffer contents before the stretch
variable (X : Valuation τ sig (Elt Ideal))

/-! The buffers read, at their literal types: `a·` an argument array in `X`, `x·` an earlier stretch's result in `X`,
    `o·` a result of the stretch itself. -/
abbrev a0 : S50000x128.Idx → EReal := X (Proc.devRef .tc main_arg0)
abbrev a1 : S1600000x32.Idx → EReal := X (Proc.devRef .tc main_arg1)
abbrev a4 : S128x16.Idx → EReal := X (Proc.devRef .tc main_arg4)
abbrev a8 : S16x64.Idx → EReal := X (Proc.devRef .tc main_arg8)
abbrev a10 : S160x16.Idx → EReal := X (Proc.devRef .tc main_arg10)
abbrev a11 : S16.Idx → EReal := X (Proc.devRef .tc main_arg11)
abbrev a12 : S16.Idx → EReal := X (Proc.devRef .tc main_arg12)
abbrev a13 : S16.Idx → EReal := X (Proc.devRef .tc main_arg13)
abbrev a14 : S16x8.Idx → EReal := X (Proc.devRef .tc main_arg14)
abbrev a15 : S8.Idx → EReal := X (Proc.devRef .tc main_arg15)
abbrev x92 : S1600000x64.Idx → EReal := X (Proc.devRef .tc main_v92)
abbrev x104 : S1600000x16.Idx → EReal := X (Proc.devRef .tc main_v104)
abbrev x107 : S16.Idx → EReal := X (Proc.devRef .tc main_v107)
abbrev x108 : S16.Idx → EReal := X (Proc.devRef .tc main_v108)
abbrev x127 : S1600000x8.Idx → EReal := X (Proc.devRef .tc main_v127)
abbrev o12 : S50000.Idx → EReal := after (I0 (F := Ideal)) X (Proc.devRef .tc main_v12)
abbrev o15 : S50000x16.Idx → EReal := after (I0 (F := Ideal)) X (Proc.devRef .tc main_v15)
abbrev o52 : S50000x16.Idx → EReal := after (I6 (F := Ideal)) X (Proc.devRef .tc main_v52)
abbrev o65 : S50000.Idx → EReal := after (I6 (F := Ideal)) X (Proc.devRef .tc main_v65)
abbrev o68 : S50000x64.Idx → EReal := after (I6 (F := Ideal)) X (Proc.devRef .tc main_v68)
abbrev o99 : S1600000x64.Idx → EReal := after (I8 (F := Ideal)) X (Proc.devRef .tc main_v99)
abbrev o104 : S1600000x16.Idx → EReal := after (I8 (F := Ideal)) X (Proc.devRef .tc main_v104)
abbrev o127 : S1600000x8.Idx → EReal := after (I11 (F := Ideal)) X (Proc.devRef .tc main_v127)
abbrev o128 : S1600000x8.Idx → EReal := after (I12 (F := Ideal)) X (Proc.devRef .tc main_v128)

/-! Two broadcasts in a row, read at an entry. -/

/-- A vector over the rows, made a column and spread over the columns: entry (p, q) is the vector at p. -/
theorem bcast_rows_apply {N C : Nat} (h1 : (⟨1, ![N]⟩ : Shape).BroadcastsInDim ⟨2, ![N, 1]⟩ ![0])
    (h2 : (⟨2, ![N, 1]⟩ : Shape).BroadcastsInDim ⟨2, ![N, C]⟩ ![0, 1]) (v : (⟨1, ![N]⟩ : Shape).Idx → EReal)
    (p : Fin N) (q : Fin C) :
    broadcastInDim ⟨2, ![N, C]⟩ ![0, 1] h2 (broadcastInDim ⟨2, ![N, 1]⟩ ![0] h1 v) (ix2 p q) = v (ix1 p) := by
  rw [broadcastInDim_apply ![0, 1] h2 _ (ix2 p q) (ix2 p (0 : Fin 1)) (fun a => by
    match a with
    | ⟨0, _⟩ =>
      show p.val = if N = 1 then 0 else p.val
      split
      · have := p.isLt; omega
      · rfl
    | ⟨1, _⟩ => rfl)]
  rw [broadcastInDim_apply ![0] h1 v (ix2 p (0 : Fin 1)) (ix1 p) (fun a => by
    match a with
    | ⟨0, _⟩ =>
      show p.val = if N = 1 then 0 else p.val
      split
      · have := p.isLt; omega
      · rfl)]

/-- A vector over the columns, made a row and spread over the rows: entry (p, q) is the vector at q. -/
theorem bcast_cols_apply {N C : Nat} (h1 : (⟨1, ![C]⟩ : Shape).BroadcastsInDim ⟨2, ![1, C]⟩ ![1])
    (h2 : (⟨2, ![1, C]⟩ : Shape).BroadcastsInDim ⟨2, ![N, C]⟩ ![0, 1]) (v : (⟨1, ![C]⟩ : Shape).Idx → EReal)
    (p : Fin N) (q : Fin C) :
    broadcastInDim ⟨2, ![N, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => rfl
    | ⟨1, _⟩ =>
      show q.val = if C = 1 then 0 else q.val
      split
      · have := q.isLt; omega
      · rfl)]
  rw [broadcastInDim_apply ![1] h1 v (ix2 (0 : Fin 1) q) (ix1 q) (fun a => by
    match a with
    | ⟨0, _⟩ =>
      show q.val = if C = 1 then 0 else q.val
      split
      · have := q.isLt; omega
      · rfl)]

/-- A column spread over the columns: entry (p, q) is the column at p. -/
theorem bcast_col_apply {N C : Nat} (h2 : (⟨2, ![N, 1]⟩ : Shape).BroadcastsInDim ⟨2, ![N, C]⟩ ![0, 1])
    (w : (⟨2, ![N, 1]⟩ : Shape).Idx → EReal) (p : Fin N) (q : Fin C) :
    broadcastInDim ⟨2, ![N, C]⟩ ![0, 1] h2 w (ix2 p q) = w (ix2 p (0 : Fin 1)) :=
  broadcastInDim_apply ![0, 1] h2 w (ix2 p q) (ix2 p (0 : Fin 1)) (fun a => by
    match a with
    | ⟨0, _⟩ =>
      show p.val = if N = 1 then 0 else p.val
      split
      · have := p.isLt; omega
      · rfl
    | ⟨1, _⟩ => rfl)

/-- A vector over the rows made a column: entry (p, 0) is the vector at p. -/
theorem bcast_tocol_apply {N : Nat} (h1 : (⟨1, ![N]⟩ : Shape).BroadcastsInDim ⟨2, ![N, 1]⟩ ![0])
    (v : (⟨1, ![N]⟩ : Shape).Idx → EReal) (p : Fin N) :
    broadcastInDim ⟨2, ![N, 1]⟩ ![0] h1 v (ix2 p (0 : Fin 1)) = v (ix1 p) :=
  broadcastInDim_apply ![0] h1 v (ix2 p (0 : Fin 1)) (ix1 p) (fun a => by
    match a with
    | ⟨0, _⟩ =>
      show p.val = if N = 1 then 0 else p.val
      split
      · have := p.isLt; omega
      · rfl)

/-- A scalar spread over a vector: every entry is the scalar. -/
theorem bcast_scalar_apply {t : Shape} (h : (⟨0, ![]⟩ : Shape).BroadcastsInDim t ![]) (v : (⟨0, ![]⟩ : Shape).Idx → EReal)
    (j : t.Idx) : broadcastInDim t ![] h v j = v ix0 :=
  broadcastInDim_apply ![] h v j ix0 (fun a => a.elim0)

/-! Stretch 0: the first convolution's scaled projection. -/

/-- The stretch's last product, its degree scale kept as the stretch's own result. -/
theorem o15_eq : o15 X = mulf (F := Ideal) (φ := .f32) (Host.dotGeneral (φ₁ := .f32) (φ₂ := .f32) dot_S50000x128_S128x16_S50000x16_1_0_0_1_n_n none (a0 X) (a4 X))
      (broadcastInDim S50000x16 ![0, 1] bcast_S50000x1_S50000x16_0_1
        (broadcastInDim S50000x1 ![0] bcast_S50000_S50000x1_0 (o12 X))) := by
  unfold o15 o12
  after_results_simp

/-- The first convolution's scaled projection (stretch 0), entry (p, q). -/
theorem v15_apply (p : Fin 50000) (q : Fin 16) :
    o15 X (ix2 p q) = (∑ k : Fin 128, a0 X (ix2 p k) * a4 X (ix2 k q)) * o12 X (ix1 p) := by
  refine (congrFun (o15_eq X) (ix2 p q)).trans ?_
  refine congrArg₂ (· * ·) ?_ ?_
  · exact RowDims.dotGeneral_plain_apply (M := 50000) (K := 128) (N := 16) none _ (a0 X) (a4 X) p q
  · exact bcast_rows_apply _ _ (o12 X) p q

/-! Stretch 6: the second convolution's scaled projection. -/

/-- The stretch's last product, its operand and its degree scale kept as the stretch's own results. -/
theorem o68_eq : o68 X = mulf (F := Ideal) (φ := .f32) (Host.dotGeneral (φ₁ := .f32) (φ₂ := .f32) dot_S50000x16_S16x64_S50000x64_1_0_0_1_n_n none (o52 X) (a8 X))
      (broadcastInDim S50000x64 ![0, 1] bcast_S50000x1_S50000x64_0_1
        (broadcastInDim S50000x1 ![0] bcast_S50000_S50000x1_0 (o65 X))) := by
  unfold o68 o65 o52
  after_results_simp

/-- The second convolution's scaled projection (stretch 6), entry (p, q). -/
theorem v68_apply (p : Fin 50000) (q : Fin 64) :
    o68 X (ix2 p q) = (∑ k : Fin 16, o52 X (ix2 p k) * a8 X (ix2 k q)) * o65 X (ix1 p) := by
  refine (congrFun (o68_eq X) (ix2 p q)).trans ?_
  refine congrArg₂ (· * ·) ?_ ?_
  · exact RowDims.dotGeneral_plain_apply (M := 50000) (K := 16) (N := 64) none _ (o52 X) (a8 X) p q
  · exact bcast_rows_apply _ _ (o65 X) p q

/-! Stretch 8: the predictor's first linear layer over the concatenated features. -/

/-- The stretch's last sum, the three concatenated arrays at their own names. -/
theorem o104_eq : o104 X = addf (F := Ideal) (φ := .f32)
      (Host.dotGeneral (φ₁ := .f32) (φ₂ := .f32) dot_S1600000x160_S160x16_S1600000x16_1_0_0_1_n_n none
        (concatenate S1600000x160 1 [⟨S1600000x32, a1 X⟩, ⟨S1600000x64, x92 X⟩, ⟨S1600000x64, o99 X⟩]
          concatenates_S1600000x32_S1600000x64_S1600000x64_S1600000x160_d1) (a10 X))
      (broadcastInDim S1600000x16 ![0, 1] bcast_S1x16_S1600000x16_0_1 (broadcastInDim S1x16 ![1] bcast_S16_S1x16_1 (a11 X))) := by
  unfold o104 o99
  after_results_simp
  rfl

/-- A sum over the 160 concatenated coordinates, split at 32 and 96. -/
theorem sum_split160 (g : Fin 160 → EReal) :
    ∑ k : Fin 160, g k
      = ((∑ k : Fin 32, g ⟨k.val, by omega⟩) + ∑ k : Fin 64, g ⟨32 + k.val, by omega⟩) + ∑ k : Fin 64, g ⟨96 + k.val, by omega⟩ := by
  have e : ∑ k : Fin 160, g k = ∑ k : Fin ((32 + 64) + 64), g (Fin.cast (by norm_num) k) :=
    (Fin.sum_congr' g (by norm_num : (32 + 64) + 64 = 160)).symm
  rw [e, Fin.sum_univ_add, Fin.sum_univ_add]
  rfl

section Cat
variable (A : S1600000x32.Idx → EReal) (B C : S1600000x64.Idx → EReal)

/-- The concatenation along the columns read in its first piece. -/
theorem cat_apply0 (e : Fin 1600000) (k : Fin 32) :
    concatenate S1600000x160 1 [⟨S1600000x32, A⟩, ⟨S1600000x64, B⟩, ⟨S1600000x64, C⟩]
        concatenates_S1600000x32_S1600000x64_S1600000x64_S1600000x160_d1 (ix2 e ⟨k.val, by omega⟩) = A (ix2 e k) :=
  concatenate_apply_piece (t := S1600000x160) 1 [⟨S1600000x32, A⟩, ⟨S1600000x64, B⟩, ⟨S1600000x64, C⟩]
    concatenates_S1600000x32_S1600000x64_S1600000x64_S1600000x160_d1 (ix2 e ⟨k.val, by omega⟩)
    0 (by simp) S1600000x32 A rfl rfl 0 rfl (ix2 e k)
    (fun b => match b with | ⟨0, _⟩ => fun _ => rfl | ⟨1, _⟩ => fun hb => absurd rfl hb)
    (Nat.zero_add _)

/-- The concatenation along the columns read in its second piece. -/
theorem cat_apply1 (e : Fin 1600000) (k : Fin 64) :
    concatenate S1600000x160 1 [⟨S1600000x32, A⟩, ⟨S1600000x64, B⟩, ⟨S1600000x64, C⟩]
        concatenates_S1600000x32_S1600000x64_S1600000x64_S1600000x160_d1 (ix2 e ⟨32 + k.val, by omega⟩) = B (ix2 e k) :=
  concatenate_apply_piece (t := S1600000x160) 1 [⟨S1600000x32, A⟩, ⟨S1600000x64, B⟩, ⟨S1600000x64, C⟩]
    concatenates_S1600000x32_S1600000x64_S1600000x64_S1600000x160_d1 (ix2 e ⟨32 + k.val, by omega⟩)
    1 (by simp) S1600000x64 B rfl rfl 32 rfl (ix2 e k)
    (fun b => match b with | ⟨0, _⟩ => fun _ => rfl | ⟨1, _⟩ => fun hb => absurd rfl hb)
    rfl

/-- The concatenation along the columns read in its third piece. -/
theorem cat_apply2 (e : Fin 1600000) (k : Fin 64) :
    concatenate S1600000x160 1 [⟨S1600000x32, A⟩, ⟨S1600000x64, B⟩, ⟨S1600000x64, C⟩]
        concatenates_S1600000x32_S1600000x64_S1600000x64_S1600000x160_d1 (ix2 e ⟨96 + k.val, by omega⟩) = C (ix2 e k) :=
  concatenate_apply_piece (t := S1600000x160) 1 [⟨S1600000x32, A⟩, ⟨S1600000x64, B⟩, ⟨S1600000x64, C⟩]
    concatenates_S1600000x32_S1600000x64_S1600000x64_S1600000x160_d1 (ix2 e ⟨96 + k.val, by omega⟩)
    2 (by simp) S1600000x64 C rfl rfl 96 rfl (ix2 e k)
    (fun b => match b with | ⟨0, _⟩ => fun _ => rfl | ⟨1, _⟩ => fun hb => absurd rfl hb)
    rfl

end Cat

/-- The predictor's first linear layer over the concatenated features (stretch 8), entry (e, j): the three partial sums
    over the edge features, the gathered source rows and the gathered destination rows, then the bias. -/
theorem v104_apply (e : Fin 1600000) (j : Fin 16) :
    o104 X (ix2 e j)
      = (((∑ k : Fin 32, a1 X (ix2 e k) * a10 X (ix2 ⟨k.val, by omega⟩ j))
          + (∑ k : Fin 64, x92 X (ix2 e k) * a10 X (ix2 ⟨32 + k.val, by omega⟩ j)))
          + (∑ k : Fin 64, o99 X (ix2 e k) * a10 X (ix2 ⟨96 + k.val, by omega⟩ j)))
          + a11 X (ix1 j) := by
  refine (congrFun (o104_eq X) (ix2 e j)).trans ?_
  refine congrArg₂ (· + ·) ?_ ?_
  · refine (RowDims.dotGeneral_plain_apply (M := 1600000) (K := 160) (N := 16) none _ _ (a10 X) e j).trans ?_
    rw [sum_split160]
    simp only [cat_apply0, cat_apply1, cat_apply2]
  · exact bcast_cols_apply _ _ (a11 X) e j

/-! Stretch 11: the logits from the batch-normalised rows. -/

/-- The batch-normalised rows, as the reference composes them. -/
abbrev bn127 : S1600000x16.Idx → EReal :=
  addf (F := Ideal) (φ := .f32)
    (mulf
      (mulf
        (subf (x104 X)
          (broadcastInDim S1600000x16 ![0, 1] bcast_S1x16_S1600000x16_0_1 (broadcastInDim S1x16 ![1] bcast_S16_S1x16_1 (x107 X))))
        (broadcastInDim S1600000x16 ![0, 1] bcast_S1x16_S1600000x16_0_1
          (broadcastInDim S1x16 ![1] bcast_S16_S1x16_1
            (Host.rsqrt (addf (x108 X) (broadcastInDim S16 ![] bcast_S_S16 (constant S_ .f32 0x3727C5AC#32)))))))
      (broadcastInDim S1600000x16 ![0, 1] bcast_S1x16_S1600000x16_0_1 (broadcastInDim S1x16 ![1] bcast_S16_S1x16_1 (a12 X))))
    (broadcastInDim S1600000x16 ![0, 1] bcast_S1x16_S1600000x16_0_1 (broadcastInDim S1x16 ![1] bcast_S16_S1x16_1 (a13 X)))

/-- The stretch's last sum: the product of the normalised rows with the weights, plus the spread bias. -/
theorem o127_eq : o127 X = addf (F := Ideal) (φ := .f32)
      (Host.dotGeneral (φ₁ := .f32) (φ₂ := .f32) dot_S1600000x16_S16x8_S1600000x8_1_0_0_1_n_n none (bn127 X) (a14 X))
      (broadcastInDim S1600000x8 ![0, 1] bcast_S1x8_S1600000x8_0_1 (broadcastInDim S1x8 ![1] bcast_S8_S1x8_1 (a15 X))) := by
  unfold o127 bn127
  after_results_simp

/-- One entry of the normalised rows. -/
theorem bn127_apply (e : Fin 1600000) (k : Fin 16) :
    bn127 X (ix2 e k) = bnAt (x104 X (ix2 e k)) (x107 X (ix1 k)) (x108 X (ix1 k)) (a12 X (ix1 k)) (a13 X (ix1 k)) := by
  unfold bnAt
  refine congrArg₂ (· + ·) (congrArg₂ (· * ·) (congrArg₂ (· * ·) (congrArg₂ (· - ·) rfl ?_) ?_) ?_) ?_
  · exact bcast_cols_apply _ _ (x107 X) e k
  · refine (bcast_cols_apply _ _ _ e k).trans ?_
    -- the reciprocal root of the guarded variance, the guard a spread constant
    refine congrArg Ideal.rsqrt (congrArg₂ (· + ·) rfl ?_)
    exact bcast_scalar_apply _ _ (ix1 k)
  · exact bcast_cols_apply _ _ (a12 X) e k
  · exact bcast_cols_apply _ _ (a13 X) e k

/-- The logits (stretch 11), entry (e, j), from the pre-normalisation rows, their column means and variances, the
    normalisation's scale and shift, the second layer's weights and bias. -/
theorem v127_apply (e : Fin 1600000) (j : Fin 8) :
    o127 X (ix2 e j)
      = logitAt (fun k => bnAt (x104 X (ix2 e k)) (x107 X (ix1 k)) (x108 X (ix1 k)) (a12 X (ix1 k)) (a13 X (ix1 k)))
          (fun k => a14 X (ix2 k j)) (a15 X (ix1 j)) := by
  refine (congrFun (o127_eq X) (ix2 e j)).trans ?_
  unfold logitAt
  refine congrArg₂ (· + ·) ?_ ?_
  · refine (RowDims.dotGeneral_plain_apply (M := 1600000) (K := 16) (N := 8) none _ (bn127 X) (a14 X) e j).trans ?_
    exact Finset.sum_congr rfl fun k _ => congrArg₂ (· * ·) (bn127_apply X e k) rfl
  · exact bcast_cols_apply _ _ (a15 X) e j

/-! Stretch 12: the log-softmax of a row. -/

/-- The reduced row index `e` with the column `k` put back is (e, k). -/
theorem lift_row {N : Nat} (h : (⟨2, ![N, 8]⟩ : Shape).Reduces [1] (⟨1, ![N]⟩ : Shape)) (e : Fin N)
    (k : Fin ((⟨2, ![N, 8]⟩ : Shape).size 1)) : h.lift (ix1 e) k = ix2 e (⟨k.val, k.isLt⟩ : Fin 8) := by
  funext c; apply Fin.ext
  fin_cases c <;> rfl

/-- From −∞ the host's reduce with a maximum body over the eight columns, at row `e`, is the row's maximum. -/
theorem hostReduce_max_row {N : Nat} (x : FVec Ideal ⟨2, ![N, 8]⟩ .f32)
    (h' : (⟨2, ![N, 8]⟩ : Shape).ReducesTo [1] (⟨1, ![N]⟩ : Shape)) (h : (⟨2, ![N, 8]⟩ : Shape).Reduces [1] (⟨1, ![N]⟩ : Shape))
    (hu : 0 < (⟨0, ![]⟩ : Shape).numel) (e : Fin N) :
    Host.reduce FloatOps.maximumf x (constant (⟨0, ![]⟩ : Shape) .f32 0xFF800000#32) h' hu (ix1 e)
      = rowMax (fun k => x (ix2 e k)) := by
  rw [Host.reduce_eq_fold_single FloatOps.maximumf x _ h' h hu]
  have hf : (x ∘ h.lift (ix1 e)) = fun k : Fin 8 => x (ix2 e k) := funext fun k => congrArg x (lift_row h e k)
  exact congrArg (fun f => Finset.fold max (Ideal.ofBits .f32 0xFF800000#32) f (Finset.univ : Finset (Fin 8))) hf

/-- From 0 the host's sum over the eight columns, at row `e`, is the row's sum. -/
theorem hostReduceAdd_row {N : Nat} (x : FVec Ideal ⟨2, ![N, 8]⟩ .f32)
    (h' : (⟨2, ![N, 8]⟩ : Shape).ReducesTo [1] (⟨1, ![N]⟩ : Shape)) (h : (⟨2, ![N, 8]⟩ : Shape).Reduces [1] (⟨1, ![N]⟩ : Shape))
    (hu : 0 < (⟨0, ![]⟩ : Shape).numel) (e : Fin N) :
    Host.reduceAdd x (constant (⟨0, ![]⟩ : Shape) .f32 0x00000000#32) h' hu (ix1 e) = ∑ k : Fin 8, x (ix2 e k) := by
  refine (Ideal.hostReduceAdd_single h' h x _ (ix1 e)).trans ?_
  refine (congrArg₂ (· + ·) Ideal.ofBits_zero_f32 rfl).trans ((zero_add _).trans ?_)
  exact Finset.sum_congr rfl fun k _ => congrArg x (lift_row h e k)

/-- The host's logarithm, entry by entry. -/
theorem hostLog_apply {s : Shape} (w : FVec Ideal s .f32) (i : s.Idx) : Host.log w i = Ideal.log (w i) := rfl

/-- The host's exponential, entry by entry. -/
theorem hostExp_apply {s : Shape} (w : FVec Ideal s .f32) (i : s.Idx) : Host.exp w i = Ideal.exp (w i) := rfl

/-- Contents carried to a buffer's own type and back are the contents. -/
theorem ofBuf_toBuf {T : BufTy} (x : TRef sig T) (v : T.Contents (Elt Ideal)) : x.ofBuf (x.toBuf v) = v := by
  obtain ⟨r, h, _, _⟩ := x
  subst h
  rfl

/-- The rows' maxima as the reference computes them: the larger of −∞ and the fold. -/
abbrev m128 : S1600000.Idx → EReal :=
  maximumf (F := Ideal) (φ := .f32) (broadcastInDim S1600000 ![] bcast_S_S1600000 (constant (F := Ideal) S_ .f32 0xFF800000#32))
    (Host.reduce (α := Ideal .f32) (FloatOps.maximumf (F := Ideal) (φ := .f32)) (x127 X) (constant (F := Ideal) S_ .f32 0xFF800000#32)
      reducesTo_S1600000x8_S1600000_d1 h_S_)

/-- The rows less their maxima. -/
abbrev s128 : S1600000x8.Idx → EReal :=
  subf (F := Ideal) (φ := .f32) (x127 X)
    (broadcastInDim S1600000x8 ![0, 1] bcast_S1600000x1_S1600000x8_0_1
      (broadcastInDim S1600000x1 ![0] bcast_S1600000_S1600000x1_0 (m128 X)))

/-- The logarithms of the sums of the shifted rows' exponentials, as a column. -/
abbrev l128 : S1600000x1.Idx → EReal :=
  Host.log (F := Ideal) (φ := .f32) (broadcastInDim S1600000x1 ![0] bcast_S1600000_S1600000x1_0
    (Host.reduceAdd (F := Ideal) (φ := .f32) (Host.exp (F := Ideal) (φ := .f32) (s128 X)) (constant (F := Ideal) S_ .f32 0x00000000#32)
      reducesTo_S1600000x8_S1600000_d1 h_S_))

/-- The stretch's last difference: the shifted rows less the logarithm of their exponentials' sums. -/
theorem o128_eq : o128 X = subf (F := Ideal) (φ := .f32) (s128 X)
      (broadcastInDim S1600000x8 ![0, 1] bcast_S1600000x1_S1600000x8_0_1 (l128 X)) := by
  unfold o128 s128 m128 l128
  after_results_simp
  simp only [ofBuf_toBuf]
  rfl

/-- The eight columns reduce away, whatever the number of rows: the shape fact the row lemmas take. -/
theorem reduces_row (N : Nat) : (⟨2, ![N, 8]⟩ : Shape).Reduces [1] (⟨1, ![N]⟩ : Shape) :=
  ⟨rfl, Nat.one_pos, fun b => match b with | ⟨0, _⟩ => rfl⟩

/-- The larger of −∞ and `r` is `r`. -/
theorem max_bot_eq (a b r : EReal) (ha : a = ⊥) (hb : b = r) : max a b = r := by
  subst ha hb
  exact max_eq_right bot_le

/-- A row's maximum as the reference computes it is the fold from −∞. -/
theorem m128_apply (e : Fin 1600000) : m128 X (ix1 e) = rowMax (fun k => x127 X (ix2 e k)) := by
  refine (maximumf_apply _ _ (ix1 e)).trans (max_bot_eq _ _ _ ?_ ?_)
  · -- the spread −∞
    exact (bcast_scalar_apply bcast_S_S1600000 (constant (F := Ideal) S_ .f32 0xFF800000#32) (ix1 e)).trans negInf_eq_bot
  · -- the fold over the row
    exact hostReduce_max_row (N := 1600000) (x127 X) reducesTo_S1600000x8_S1600000_d1 (reduces_row 1600000) h_S_ e

/-- One entry of the shifted rows. -/
theorem s128_apply (e : Fin 1600000) (k : Fin 8) :
    s128 X (ix2 e k) = x127 X (ix2 e k) - rowMax (fun k => x127 X (ix2 e k)) := by
  refine congrArg₂ (· - ·) rfl ?_
  exact (bcast_rows_apply _ _ (m128 X) e k).trans (m128_apply X e)

/-- The log-softmax (stretch 12), entry (e, j), in the reference's spelling. -/
theorem v128_apply (e : Fin 1600000) (j : Fin 8) :
    o128 X (ix2 e j) = lsmR (fun k => x127 X (ix2 e k)) j := by
  refine (congrFun (o128_eq X) (ix2 e j)).trans ?_
  unfold lsmR
  refine congrArg₂ (· - ·) (s128_apply X e j) ?_
  -- the column of logarithms spread over the row, read at its one entry
  refine (bcast_col_apply _ (l128 X) e j).trans ?_
  refine (hostLog_apply _ (ix2 e (0 : Fin 1))).trans (congrArg Ideal.log ?_)
  refine (bcast_tocol_apply _ _ e).trans ?_
  -- the sum of the shifted row's exponentials
  refine (hostReduceAdd_row (N := 1600000) (Host.exp (F := Ideal) (φ := .f32) (s128 X)) reducesTo_S1600000x8_S1600000_d1
    (reduces_row 1600000) h_S_ e).trans ?_
  exact Finset.sum_congr rfl fun k _ => (hostExp_apply (s128 X) (ix2 e k)).trans (congrArg Ideal.exp (s128_apply X e k))

end Cert.ReferenceIdeal.Read

end
-- ==== Proof.RefRealA.lean ====
/-
  The first half of "the reference's logits are real numbers when the float arguments are": what each stretch of the
  reference writes (so that the arguments stay what they were), and the stretches from the arguments to the first
  normalization — the degrees are at least one, so their reciprocal square roots are real; the variance is a sum of
  squares over a positive count, so its guarded reciprocal square root is real.
-/
import proofs.«400428_j65575560675752_4_alg».proof.Proof.RefRun
import proofs.«400428_j65575560675752_4_alg».proof.Proof.LibReal
import Idealize.ShloMosaic.Lib.StableHlo.Run

set_option maxRecDepth 16384

noncomputable section

namespace Cert.ReferenceIdeal.Real

open Cert.ReferenceIdeal Cert.ReferenceIdeal.Gen Cert.ReferenceIdeal.Ops Cert.ReferenceIdeal.Run
open Idealize.ShloMosaic Idealize.ShloMosaic.TcCoe Idealize.SL.Sem Idealize.ShloMosaic.StableHlo Idealize.ShloMosaic.RealArr

/-- One step of "the operations keep real arrays real" on a goal about a composed array. -/
macro "real_step" : tactic => `(tactic| with_reducible first
  | assumption
  | exact IsReal.constant ofBits_zero
  | exact IsReal.constant ofBits_one
  | exact IsReal.constant ofBits_50000
  | exact IsReal.constant ofBits_1600000
  | exact IsPos.constant ⟨1, one_pos, ofBits_one⟩
  | exact IsPos.constant ⟨50000, by norm_num, ofBits_50000⟩
  | exact IsPos.constant ⟨1600000, by norm_num, ofBits_1600000⟩
  | exact IsPos.constant ofBits_eps
  | exact IsNonneg.constant_zero
  | apply IsReal.broadcastInDim | apply IsPos.broadcastInDim | apply IsNonneg.broadcastInDim
  | apply IsReal.addf | apply IsReal.subf | apply IsReal.mulf | apply IsReal.maximumf
  | apply IsReal.hostDivf | apply IsReal.hostRsqrt | apply IsReal.hostDotGeneral | apply IsReal.hostReduceAdd
  | apply IsReal.hostGather | apply IsReal.hostScatterAdd
  | apply IsPos.maximumf_right | apply IsPos.addf_nonneg_pos
  | apply IsNonneg.hostDivf | apply IsNonneg.hostReduceAdd | apply IsNonneg.mulf_self
  | exact IsPos.isReal (by assumption) | exact IsNonneg.isReal (by assumption) | exact IsPos.isNonneg (by assumption))

/-- The steps, to the end. -/
macro "real_close" : tactic => `(tactic| repeat real_step)

/-- A stretch's fact: its composed term, then the steps. -/
macro "stage" : tactic => `(tactic| (after_results_simp; dsimp only [Elt, TRef.toBuf, TRef.ofBuf, cast_eq]; real_close))

/-! ### What each stretch writes: a buffer outside the list keeps its contents -/

/-- The references the operations of stretch 0 write. -/
abbrev W0 : List (Ref sig .tc) :=
  [main_cst, main_v0, main_cst_0, main_v1, main_v2, main_v3, main_cst_1, main_v4,
    main_v5, main_cst_2, main_v6, main_v7, main_v8, main_cst_3, main_v9, main_v10, main_v11, main_v12, main_v13,
    main_v14, main_v15]
theorem I0_writes : (I0 : List (HloOp τ sig (Elt Ideal))).Forall fun op =>
    op.writes ⊆ ((W0).map (Proc.devRef (τ := τ) .tc)).toFinset := by
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

/-- The references the operations of stretch 1 write. -/
abbrev W1 : List (Ref sig .tc) :=
  [main_c, main_v16, main_v17, main_c_4, main_v18, main_v19, main_v20, main_v21,
    main_v22, main_cst_5, main_v23, main_v24, main_v25, main_v26, main_v27, main_v28, main_v29, main_v30, main_v31,
    main_v32]
theorem I1_writes : (I1 : List (HloOp τ sig (Elt Ideal))).Forall fun op =>
    op.writes ⊆ ((W1).map (Proc.devRef (τ := τ) .tc)).toFinset := by
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

/-- The references the operations of stretch 2 write. -/
abbrev W2 : List (Ref sig .tc) := [main_call0.cst.ref, main_call0.v0.ref, main_call0.v1.ref]
theorem I2_writes : (I2 : List (HloOp τ sig (Elt Ideal))).Forall fun op =>
    op.writes ⊆ ((W2).map (Proc.devRef (τ := τ) .tc)).toFinset := by
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

/-- The references the operations of stretch 3 write. -/
abbrev W3 : List (Ref sig .tc) := [main_cst_6, main_v34, main_cst_7, main_v35, main_v36, main_c_8]
theorem I3_writes : (I3 : List (HloOp τ sig (Elt Ideal))).Forall fun op =>
    op.writes ⊆ ((W3).map (Proc.devRef (τ := τ) .tc)).toFinset := by
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

/-- The references the operations of stretch 4 write. -/
abbrev W4 : List (Ref sig .tc) :=
  [main_call1.cst.ref, main_call1.v0.ref, main_call1.v1.ref, main_call1.cst_0.ref,
    main_call1.v2.ref, main_call1.v3.ref, main_call1.v4.ref, main_call1.v5.ref, main_call1.v6.ref, main_call1.v7.ref,
    main_call1.cst_1.ref, main_call1.v8.ref, main_call1.cst_2.ref, main_call1.v9.ref, main_call1.v10.ref,
    main_call1.v11.ref, main_call1.cst_3.ref, main_call1.v12.ref, main_call1.cst_4.ref, main_call1.call0.v0.ref,
    main_call1.call0.v1.ref, main_call1.call0.v2.ref]
theorem I4_writes : (I4 : List (HloOp τ sig (Elt Ideal))).Forall fun op =>
    op.writes ⊆ ((W4).map (Proc.devRef (τ := τ) .tc)).toFinset := by
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

/-- The references the operations of stretch 5 write. -/
abbrev W5 : List (Ref sig .tc) :=
  [main_v38, main_v39, main_v40, main_cst_9, main_v41, main_v42, main_v43, main_v44,
    main_v45, main_v46, main_v47]
theorem I5_writes : (I5 : List (HloOp τ sig (Elt Ideal))).Forall fun op =>
    op.writes ⊆ ((W5).map (Proc.devRef (τ := τ) .tc)).toFinset := by
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

/-- The references the operations of stretch 6 write. -/
abbrev W6 : List (Ref sig .tc) :=
  [main_v48, main_v49, main_v50, main_v51, main_v52, main_cst_10, main_v53,
    main_cst_11, main_v54, main_v55, main_v56, main_cst_12, main_v57, main_v58, main_cst_13, main_v59, main_v60,
    main_v61, main_cst_14, main_v62, main_v63, main_v64, main_v65, main_v66, main_v67, main_v68]
theorem I6_writes : (I6 : List (HloOp τ sig (Elt Ideal))).Forall fun op =>
    op.writes ⊆ ((W6).map (Proc.devRef (τ := τ) .tc)).toFinset := by
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

/-- The references the operations of stretch 7 write. -/
abbrev W7 : List (Ref sig .tc) :=
  [main_c_15, main_v69, main_v70, main_c_16, main_v71, main_v72, main_v73, main_v74,
    main_v75, main_cst_17, main_v76, main_v77, main_v78, main_v79, main_v80, main_v81, main_v82, main_v83, main_v84,
    main_v85, main_c_18, main_v86, main_v87, main_c_19, main_v88, main_v89, main_v90, main_v91, main_v92, main_c_20,
    main_v93, main_v94, main_c_21, main_v95]
theorem I7_writes : (I7 : List (HloOp τ sig (Elt Ideal))).Forall fun op =>
    op.writes ⊆ ((W7).map (Proc.devRef (τ := τ) .tc)).toFinset := by
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

/-- The references the operations of stretch 8 write. -/
abbrev W8 : List (Ref sig .tc) :=
  [main_v96, main_v97, main_v98, main_v99, main_v100, main_v101, main_v102,
    main_v103, main_v104]
theorem I8_writes : (I8 : List (HloOp τ sig (Elt Ideal))).Forall fun op =>
    op.writes ⊆ ((W8).map (Proc.devRef (τ := τ) .tc)).toFinset := by
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

/-- The references the operations of stretch 9 write. -/
abbrev W9 : List (Ref sig .tc) := [main_cst_22, main_v105, main_cst_23, main_v106, main_v107, main_c_24]
theorem I9_writes : (I9 : List (HloOp τ sig (Elt Ideal))).Forall fun op =>
    op.writes ⊆ ((W9).map (Proc.devRef (τ := τ) .tc)).toFinset := by
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

/-- The references the operations of stretch 10 write. -/
abbrev W10 : List (Ref sig .tc) :=
  [main_call2.cst.ref, main_call2.v0.ref, main_call2.v1.ref, main_call2.cst_0.ref,
    main_call2.v2.ref, main_call2.v3.ref, main_call2.v4.ref, main_call2.v5.ref, main_call2.v6.ref, main_call2.v7.ref,
    main_call2.cst_1.ref, main_call2.v8.ref, main_call2.cst_2.ref, main_call2.v9.ref, main_call2.v10.ref,
    main_call2.v11.ref, main_call2.cst_3.ref, main_call2.v12.ref, main_call2.cst_4.ref, main_call2.call0.v0.ref,
    main_call2.call0.v1.ref, main_call2.call0.v2.ref]
theorem I10_writes : (I10 : List (HloOp τ sig (Elt Ideal))).Forall fun op =>
    op.writes ⊆ ((W10).map (Proc.devRef (τ := τ) .tc)).toFinset := by
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

/-! ### The float arguments stay real arrays: no stretch writes them -/

/-- The fourteen float arguments hold real arrays. -/
structure ArgsReal (X : Valuation τ sig (Elt Ideal)) : Prop where
  arg0 : IsReal (s := S50000x128) (X (Proc.devRef .tc main_arg0))
  arg1 : IsReal (s := S1600000x32) (X (Proc.devRef .tc main_arg1))
  arg4 : IsReal (s := S128x16) (X (Proc.devRef .tc main_arg4))
  arg5 : IsReal (s := S16) (X (Proc.devRef .tc main_arg5))
  arg6 : IsReal (s := S16) (X (Proc.devRef .tc main_arg6))
  arg7 : IsReal (s := S16) (X (Proc.devRef .tc main_arg7))
  arg8 : IsReal (s := S16x64) (X (Proc.devRef .tc main_arg8))
  arg9 : IsReal (s := S64) (X (Proc.devRef .tc main_arg9))
  arg10 : IsReal (s := S160x16) (X (Proc.devRef .tc main_arg10))
  arg11 : IsReal (s := S16) (X (Proc.devRef .tc main_arg11))
  arg12 : IsReal (s := S16) (X (Proc.devRef .tc main_arg12))
  arg13 : IsReal (s := S16) (X (Proc.devRef .tc main_arg13))
  arg14 : IsReal (s := S16x8) (X (Proc.devRef .tc main_arg14))
  arg15 : IsReal (s := S8) (X (Proc.devRef .tc main_arg15))

/-- The float arguments' references. -/
abbrev argRefs : List (Ref sig .tc) :=
  [main_arg0, main_arg1, main_arg4, main_arg5, main_arg6, main_arg7, main_arg8, main_arg9, main_arg10, main_arg11, main_arg12,
    main_arg13, main_arg14, main_arg15]

/-- Operations that write none of the arguments leave them real. -/
theorem ArgsReal.step {ops : List (HloOp τ sig (Elt Ideal))} {W : List (Ref sig .tc)} {X : Valuation τ sig (Elt Ideal)}
    (A : ArgsReal X) (hW : ops.Forall fun op => op.writes ⊆ (W.map (Proc.devRef (τ := τ) .tc)).toFinset)
    (hd : ∀ r ∈ argRefs, r ∉ W) : ArgsReal (after ops X) where
  arg0 := by rw [after_of_writes_sub ops X hW (hd main_arg0 (by decide))]; exact A.arg0
  arg1 := by rw [after_of_writes_sub ops X hW (hd main_arg1 (by decide))]; exact A.arg1
  arg4 := by rw [after_of_writes_sub ops X hW (hd main_arg4 (by decide))]; exact A.arg4
  arg5 := by rw [after_of_writes_sub ops X hW (hd main_arg5 (by decide))]; exact A.arg5
  arg6 := by rw [after_of_writes_sub ops X hW (hd main_arg6 (by decide))]; exact A.arg6
  arg7 := by rw [after_of_writes_sub ops X hW (hd main_arg7 (by decide))]; exact A.arg7
  arg8 := by rw [after_of_writes_sub ops X hW (hd main_arg8 (by decide))]; exact A.arg8
  arg9 := by rw [after_of_writes_sub ops X hW (hd main_arg9 (by decide))]; exact A.arg9
  arg10 := by rw [after_of_writes_sub ops X hW (hd main_arg10 (by decide))]; exact A.arg10
  arg11 := by rw [after_of_writes_sub ops X hW (hd main_arg11 (by decide))]; exact A.arg11
  arg12 := by rw [after_of_writes_sub ops X hW (hd main_arg12 (by decide))]; exact A.arg12
  arg13 := by rw [after_of_writes_sub ops X hW (hd main_arg13 (by decide))]; exact A.arg13
  arg14 := by rw [after_of_writes_sub ops X hW (hd main_arg14 (by decide))]; exact A.arg14
  arg15 := by rw [after_of_writes_sub ops X hW (hd main_arg15 (by decide))]; exact A.arg15

/-! ### The stretches -/

/-- Stretch 0: the scaled first product is real, the second degree array is positive (a maximum with one). -/
theorem s0 (X : Valuation τ sig (Elt Ideal)) (h0 : IsReal (s := S50000x128) (X (Proc.devRef .tc main_arg0)))
    (h4 : IsReal (s := S128x16) (X (Proc.devRef .tc main_arg4))) :
    IsReal (s := S50000x16) (after I0 X (Proc.devRef .tc main_v15)) ∧ IsPos (s := S50000) (after I0 X (Proc.devRef .tc main_v10)) := by
  constructor <;> stage

/-- Stretch 1: the gathered, scattered, scaled and shifted rows are real. -/
theorem s1 (X : Valuation τ sig (Elt Ideal)) (h15 : IsReal (s := S50000x16) (X (Proc.devRef .tc main_v15)))
    (h10 : IsPos (s := S50000) (X (Proc.devRef .tc main_v10))) (h5 : IsReal (s := S16) (X (Proc.devRef .tc main_arg5))) :
    IsReal (s := S50000x16) (after I1 X (Proc.devRef .tc main_v32)) := by
  stage

/-- Stretch 2: the maximum with zero is real. -/
theorem s2 (X : Valuation τ sig (Elt Ideal))
    (h32 : IsReal (s := S50000x16) (X (Proc.devRef .tc main_v32))) :
    IsReal (s := S50000x16) (after I2 X (Proc.devRef .tc main_v33)) := by
  stage

/-- Stretch 3: the mean is real; the integer constant is zero. -/
theorem s3 (X : Valuation τ sig (Elt Ideal)) (h33 : IsReal (s := S50000x16) (X (Proc.devRef .tc main_v33))) :
    IsReal (s := S16) (after I3 X (Proc.devRef .tc main_v36)) ∧ after I3 X (Proc.devRef .tc main_c_8) = (constantI S_ 32 0#32 : S_.Idx → BitVec 32) := by
  constructor
  · stage
  · after_results

/-! ### Stretch 4, a variance, in five parts (each sum along the rows ends a part) -/

section Parts4
variable {F : FTy → Type} [FloatOps F]

/-- Part 1 of stretch 4: the sum along the rows. -/
abbrev I4a : List (HloOp τ sig (Elt F)) :=
  ( StableHlo.TRef.nullary main_call1.cst (constant S_ .f32 0x00000000#32)
  :: StableHlo.TRef.binary ((.of main_v33) : StableHlo.TRef sig ⟨S50000x16, .f32⟩) main_call1.cst main_call1.v0 (fun x v => Host.reduceAdd x v reducesTo_S50000x16_S16_d0 h_S_)
  :: [] )
/-- Part 2 of stretch 4: the mean (the sum over 50000), the deviations from it and their squares. -/
abbrev I4b : List (HloOp τ sig (Elt F)) :=
  ( StableHlo.TRef.unary main_call1.v0 main_call1.v1 (broadcastInDim S1x16 ![1] bcast_S16_S1x16_1)
  :: StableHlo.TRef.nullary main_call1.cst_0 (constant S_ .f32 0x47435000#32)
  :: StableHlo.TRef.unary main_call1.cst_0 main_call1.v2 (broadcastInDim S1x16 ![] bcast_S_S1x16)
  :: StableHlo.TRef.binary main_call1.v1 main_call1.v2 main_call1.v3 Host.divf
  :: StableHlo.TRef.unary main_call1.v3 main_call1.v4 (broadcastInDim S50000x16 ![0, 1] bcast_S1x16_S50000x16_0_1)
  :: StableHlo.TRef.binary ((.of main_v33) : StableHlo.TRef sig ⟨S50000x16, .f32⟩) main_call1.v4 main_call1.v5 subf
  :: StableHlo.TRef.binary main_call1.v5 main_call1.v5 main_call1.v6 mulf
  :: [] )
/-- Part 3 of stretch 4: the count `50000 − 0` and the sum of the squares along the rows. -/
abbrev I4c : List (HloOp τ sig (Elt F)) :=
  ( StableHlo.TRef.unary ((.of main_c_8) : StableHlo.TRef sig ⟨S_, .i32⟩) main_call1.v7 (sitofp .f32)
  :: StableHlo.TRef.nullary main_call1.cst_1 (constant S_ .f32 0x47435000#32)
  :: StableHlo.TRef.binary main_call1.cst_1 main_call1.v7 main_call1.v8 subf
  :: StableHlo.TRef.nullary main_call1.cst_2 (constant S_ .f32 0x00000000#32)
  :: StableHlo.TRef.binary main_call1.v6 main_call1.cst_2 main_call1.v9 (fun x v => Host.reduceAdd x v reducesTo_S50000x16_S16_d0 h_S_)
  :: [] )
/-- Part 4 of stretch 4: the sum of the squares over the count. -/
abbrev I4d : List (HloOp τ sig (Elt F)) :=
  ( StableHlo.TRef.unary main_call1.v8 main_call1.v10 (broadcastInDim S16 ![] bcast_S_S16)
  :: StableHlo.TRef.binary main_call1.v9 main_call1.v10 main_call1.v11 Host.divf
  :: [] )
/-- Part 5 of stretch 4: the guard `count > 0` and the guarded choice. -/
abbrev I4e : List (HloOp τ sig (Elt F)) :=
  ( StableHlo.TRef.nullary main_call1.cst_3 (constant S_ .f32 0x00000000#32)
  :: StableHlo.TRef.binary main_call1.v8 main_call1.cst_3 main_call1.v12 (cmpf .ogt)
  :: StableHlo.TRef.nullary main_call1.cst_4 (constant S_ .f32 0x7FC00000#32)
  :: StableHlo.TRef.unary (main_call1.cst_4 : StableHlo.TRef sig ⟨S_, .f32⟩) main_call1.call0.v0 id
  :: StableHlo.TRef.unary main_call1.call0.v0 main_call1.call0.v1 (broadcastInDim S16 ![] bcast_S_S16)
  :: StableHlo.TRef.ternary (main_call1.v12 : StableHlo.TRef sig ⟨S_, .i1⟩) (main_call1.v11 : StableHlo.TRef sig ⟨S16, .f32⟩) main_call1.call0.v1 main_call1.call0.v2 (fun p a b => select (broadcastInDim S16 ![] bcast_S_S16 p) a b)
  :: [] )

theorem I4_split : (I4 : List (HloOp τ sig (Elt F))) = I4a ++ (I4b ++ (I4c ++ (I4d ++ I4e))) := rfl

end Parts4

/-- A part's fact: its composed term, then the steps. -/
macro "part4" : tactic => `(tactic| (after_results_simp; (try simp only [TRef.toBuf, TRef.ofBuf, cast_cast, cast_eq]); (try dsimp only [Elt]); real_close))

theorem s4a (X : Valuation τ sig (Elt Ideal)) (h : IsReal (s := S50000x16) (X (Proc.devRef .tc main_v33))) :
    IsReal (s := S16) (after I4a X (Proc.devRef .tc main_call1_v0)) ∧ IsReal (s := S50000x16) (after I4a X (Proc.devRef .tc main_v33))
    ∧ after I4a X (Proc.devRef .tc main_c_8) = X (Proc.devRef .tc main_c_8) := by
  refine ⟨?_, ?_, ?_⟩
  · part4
  · part4
  · after_results_simp

theorem s4b (X : Valuation τ sig (Elt Ideal)) (h0 : IsReal (s := S16) (X (Proc.devRef .tc main_call1_v0)))
    (h : IsReal (s := S50000x16) (X (Proc.devRef .tc main_v33))) :
    IsNonneg (s := S50000x16) (after I4b X (Proc.devRef .tc main_call1_v6))
    ∧ after I4b X (Proc.devRef .tc main_c_8) = X (Proc.devRef .tc main_c_8) := by
  refine ⟨?_, ?_⟩
  · part4
  · after_results_simp

theorem s4c (X : Valuation τ sig (Elt Ideal)) (h6 : IsNonneg (s := S50000x16) (X (Proc.devRef .tc main_call1_v6)))
    (hc : X (Proc.devRef .tc main_c_8) = (constantI S_ 32 0#32 : S_.Idx → BitVec 32)) :
    IsPos (s := S_) (after I4c X (Proc.devRef .tc main_call1_v8)) ∧ IsNonneg (s := S16) (after I4c X (Proc.devRef .tc main_call1_v9)) := by
  have hp : IsPos (s := S_) (subf (constant (F := Ideal) S_ .f32 0x47435000#32) (sitofp .f32 (constantI S_ 32 0#32))) :=
    IsPos.subf_zero (IsPos.constant ⟨50000, by norm_num, ofBits_50000⟩) sitofp_zero_apply
  refine ⟨?_, ?_⟩
  · after_results_simp
    simp only [TRef.toBuf, TRef.ofBuf, cast_cast, cast_eq]
    try dsimp only [Elt]
    rw [hc]
    exact hp
  · part4

theorem s4d (X : Valuation τ sig (Elt Ideal)) (h8 : IsPos (s := S_) (X (Proc.devRef .tc main_call1_v8)))
    (h9 : IsNonneg (s := S16) (X (Proc.devRef .tc main_call1_v9))) :
    IsNonneg (s := S16) (after I4d X (Proc.devRef .tc main_call1_v11)) ∧ IsPos (s := S_) (after I4d X (Proc.devRef .tc main_call1_v8)) := by
  refine ⟨?_, ?_⟩
  · part4
  · part4

theorem s4e (X : Valuation τ sig (Elt Ideal)) (h8 : IsPos (s := S_) (X (Proc.devRef .tc main_call1_v8)))
    (h11 : IsNonneg (s := S16) (X (Proc.devRef .tc main_call1_v11))) :
    IsNonneg (s := S16) (after I4e X (Proc.devRef .tc main_v37)) := by
  after_results_simp
  simp only [TRef.toBuf, TRef.ofBuf, cast_cast, cast_eq]
  try dsimp only [Elt]
  apply IsNonneg.select_of_one
  · exact broadcastInDim_one (cmpf_ogt_pos_zero h8 constant_zero_apply) _ _
  · exact h11

/-- Stretch 4 (a variance): from a real array and the integer zero, the guarded quotient — a sum of squares over a positive
    count, the guard true — is non-negative. -/
theorem s4 (X : Valuation τ sig (Elt Ideal)) (h : IsReal (s := S50000x16) (X (Proc.devRef .tc main_v33)))
    (hc : X (Proc.devRef .tc main_c_8) = (constantI S_ 32 0#32 : S_.Idx → BitVec 32)) :
    IsNonneg (s := S16) (after I4 X (Proc.devRef .tc main_v37)) := by
  rw [I4_split, after_append, after_append, after_append, after_append]
  obtain ⟨a0, a, ea⟩ := s4a X h
  obtain ⟨b6, eb⟩ := s4b _ a0 a
  obtain ⟨c8, c9⟩ := s4c _ b6 (eb.trans (ea.trans hc))
  obtain ⟨d11, d8⟩ := s4d _ c8 c9
  exact s4e _ d8 d11

/-- Stretch 5: the normalized rows and the broadcast scale are real (the variance plus a positive constant is positive). -/
theorem s5 (X : Valuation τ sig (Elt Ideal)) (h36 : IsReal (s := S16) (X (Proc.devRef .tc main_v36)))
    (h33 : IsReal (s := S50000x16) (X (Proc.devRef .tc main_v33))) (h37 : IsNonneg (s := S16) (X (Proc.devRef .tc main_v37)))
    (h6 : IsReal (s := S16) (X (Proc.devRef .tc main_arg6))) :
    IsReal (s := S50000x16) (after I5 X (Proc.devRef .tc main_v46)) ∧ IsReal (s := S1x16) (after I5 X (Proc.devRef .tc main_v47)) := by
  constructor <;> stage

end Cert.ReferenceIdeal.Real

end
-- ==== Proof.RefReal.lean ====
/-
  The reference's logits are real numbers when the float arguments are: every stage from the arguments to the
  logits keeps real arrays real — the degrees are at least one, so their reciprocal square roots are real; a
  variance is a sum of squares over a positive count, so the guarded reciprocal square root is real.
-/
import proofs.«400428_j65575560675752_4_alg».proof.Proof.RefRun
import proofs.«400428_j65575560675752_4_alg».proof.Proof.LibReal
import proofs.«400428_j65575560675752_4_alg».proof.Proof.RefRealA
import Idealize.ShloMosaic.Lib.StableHlo.Run

set_option maxRecDepth 16384

noncomputable section

namespace Cert.ReferenceIdeal.Real

open Cert.ReferenceIdeal Cert.ReferenceIdeal.Gen Cert.ReferenceIdeal.Ops Cert.ReferenceIdeal.Run
open Idealize.ShloMosaic Idealize.ShloMosaic.TcCoe Idealize.SL.Sem Idealize.ShloMosaic.StableHlo Idealize.ShloMosaic.RealArr

/-- Stretch 6: the scaled second product is real, the fourth degree array is positive. -/
theorem s6 (X : Valuation τ sig (Elt Ideal)) (h47 : IsReal (s := S1x16) (X (Proc.devRef .tc main_v47)))
    (h46 : IsReal (s := S50000x16) (X (Proc.devRef .tc main_v46))) (h7 : IsReal (s := S16) (X (Proc.devRef .tc main_arg7)))
    (h8 : IsReal (s := S16x64) (X (Proc.devRef .tc main_arg8))) :
    IsReal (s := S50000x64) (after I6 X (Proc.devRef .tc main_v68)) ∧ IsPos (s := S50000) (after I6 X (Proc.devRef .tc main_v63)) := by
  constructor <;> stage

/-- Stretch 7: the node features and their rows gathered at the first index array are real. -/
theorem s7 (X : Valuation τ sig (Elt Ideal)) (h68 : IsReal (s := S50000x64) (X (Proc.devRef .tc main_v68)))
    (h63 : IsPos (s := S50000) (X (Proc.devRef .tc main_v63))) (h9 : IsReal (s := S64) (X (Proc.devRef .tc main_arg9))) :
    IsReal (s := S1600000x64) (after I7 X (Proc.devRef .tc main_v92)) ∧ IsReal (s := S50000x64) (after I7 X (Proc.devRef .tc main_v85)) := by
  constructor <;> stage

/-- Stretch 8: the edge rows — a concatenation, a product, a shift — are real. -/
theorem s8 (X : Valuation τ sig (Elt Ideal)) (h85 : IsReal (s := S50000x64) (X (Proc.devRef .tc main_v85)))
    (h92 : IsReal (s := S1600000x64) (X (Proc.devRef .tc main_v92)))
    (h1 : IsReal (s := S1600000x32) (X (Proc.devRef .tc main_arg1)))
    (h10 : IsReal (s := S160x16) (X (Proc.devRef .tc main_arg10)))

    (h11 : IsReal (s := S16) (X (Proc.devRef .tc main_arg11))) :
    IsReal (s := S1600000x16) (after I8 X (Proc.devRef .tc main_v104)) := by
  after_results_simp
  dsimp only [Matrix.cons_val_zero, Matrix.cons_val_one, Matrix.cons_val_two, Matrix.head_cons, Matrix.tail_cons, Matrix.vecHead,
    Matrix.vecTail, Function.comp_apply, Fin.succ_zero_eq_one, Matrix.cons_val_succ, Matrix.cons_val_fin_one]
  repeat (first
    | rw [unary_result] | rw [binary_result] | rw [ternary_result]
    | (rw [unary_result_ne]; rotate_left; decide)
    | (rw [binary_result_ne]; rotate_left; decide)
    | (rw [ternary_result_ne]; rotate_left; decide))
  exact IsReal.addf (IsReal.hostDotGeneral _ _ (IsReal.concatenate3 _ _ h1 h92 (IsReal.hostGather _ h85 _)) h10)
    (IsReal.broadcastInDim (IsReal.broadcastInDim h11 _ _) _ _)

/-- Stretch 9: the mean is real; the integer constant is zero. -/
theorem s9 (X : Valuation τ sig (Elt Ideal)) (h104 : IsReal (s := S1600000x16) (X (Proc.devRef .tc main_v104))) :
    IsReal (s := S16) (after I9 X (Proc.devRef .tc main_v107)) ∧ after I9 X (Proc.devRef .tc main_c_24) = (constantI S_ 32 0#32 : S_.Idx → BitVec 32) := by
  constructor
  · stage
  · after_results

/-! ### Stretch 10, a variance, in five parts (each sum along the rows ends a part) -/

section Parts10
variable {F : FTy → Type} [FloatOps F]

/-- Part 1 of stretch 10: the sum along the rows. -/
abbrev I10a : List (HloOp τ sig (Elt F)) :=
  ( StableHlo.TRef.nullary main_call2.cst (constant S_ .f32 0x00000000#32)
  :: StableHlo.TRef.binary ((.of main_v104) : StableHlo.TRef sig ⟨S1600000x16, .f32⟩) main_call2.cst main_call2.v0 (fun x v => Host.reduceAdd x v reducesTo_S1600000x16_S16_d0 h_S_)
  :: [] )
/-- Part 2 of stretch 10: the mean (the sum over 1600000), the deviations from it and their squares. -/
abbrev I10b : List (HloOp τ sig (Elt F)) :=
  ( StableHlo.TRef.unary main_call2.v0 main_call2.v1 (broadcastInDim S1x16 ![1] bcast_S16_S1x16_1)
  :: StableHlo.TRef.nullary main_call2.cst_0 (constant S_ .f32 0x49C35000#32)
  :: StableHlo.TRef.unary main_call2.cst_0 main_call2.v2 (broadcastInDim S1x16 ![] bcast_S_S1x16)
  :: StableHlo.TRef.binary main_call2.v1 main_call2.v2 main_call2.v3 Host.divf
  :: StableHlo.TRef.unary main_call2.v3 main_call2.v4 (broadcastInDim S1600000x16 ![0, 1] bcast_S1x16_S1600000x16_0_1)
  :: StableHlo.TRef.binary ((.of main_v104) : StableHlo.TRef sig ⟨S1600000x16, .f32⟩) main_call2.v4 main_call2.v5 subf
  :: StableHlo.TRef.binary main_call2.v5 main_call2.v5 main_call2.v6 mulf
  :: [] )
/-- Part 3 of stretch 10: the count `1600000 − 0` and the sum of the squares along the rows. -/
abbrev I10c : List (HloOp τ sig (Elt F)) :=
  ( StableHlo.TRef.unary ((.of main_c_24) : StableHlo.TRef sig ⟨S_, .i32⟩) main_call2.v7 (sitofp .f32)
  :: StableHlo.TRef.nullary main_call2.cst_1 (constant S_ .f32 0x49C35000#32)
  :: StableHlo.TRef.binary main_call2.cst_1 main_call2.v7 main_call2.v8 subf
  :: StableHlo.TRef.nullary main_call2.cst_2 (constant S_ .f32 0x00000000#32)
  :: StableHlo.TRef.binary main_call2.v6 main_call2.cst_2 main_call2.v9 (fun x v => Host.reduceAdd x v reducesTo_S1600000x16_S16_d0 h_S_)
  :: [] )
/-- Part 4 of stretch 10: the sum of the squares over the count. -/
abbrev I10d : List (HloOp τ sig (Elt F)) :=
  ( StableHlo.TRef.unary main_call2.v8 main_call2.v10 (broadcastInDim S16 ![] bcast_S_S16)
  :: StableHlo.TRef.binary main_call2.v9 main_call2.v10 main_call2.v11 Host.divf
  :: [] )
/-- Part 5 of stretch 10: the guard `count > 0` and the guarded choice. -/
abbrev I10e : List (HloOp τ sig (Elt F)) :=
  ( StableHlo.TRef.nullary main_call2.cst_3 (constant S_ .f32 0x00000000#32)
  :: StableHlo.TRef.binary main_call2.v8 main_call2.cst_3 main_call2.v12 (cmpf .ogt)
  :: StableHlo.TRef.nullary main_call2.cst_4 (constant S_ .f32 0x7FC00000#32)
  :: StableHlo.TRef.unary (main_call2.cst_4 : StableHlo.TRef sig ⟨S_, .f32⟩) main_call2.call0.v0 id
  :: StableHlo.TRef.unary main_call2.call0.v0 main_call2.call0.v1 (broadcastInDim S16 ![] bcast_S_S16)
  :: StableHlo.TRef.ternary (main_call2.v12 : StableHlo.TRef sig ⟨S_, .i1⟩) (main_call2.v11 : StableHlo.TRef sig ⟨S16, .f32⟩) main_call2.call0.v1 main_call2.call0.v2 (fun p a b => select (broadcastInDim S16 ![] bcast_S_S16 p) a b)
  :: [] )

theorem I10_split : (I10 : List (HloOp τ sig (Elt F))) = I10a ++ (I10b ++ (I10c ++ (I10d ++ I10e))) := rfl

end Parts10

/-- A part's fact: its composed term, then the steps. -/
macro "part10" : tactic => `(tactic| (after_results_simp; (try simp only [TRef.toBuf, TRef.ofBuf, cast_cast, cast_eq]); (try dsimp only [Elt]); real_close))

theorem s10a (X : Valuation τ sig (Elt Ideal)) (h : IsReal (s := S1600000x16) (X (Proc.devRef .tc main_v104))) :
    IsReal (s := S16) (after I10a X (Proc.devRef .tc main_call2_v0)) ∧ IsReal (s := S1600000x16) (after I10a X (Proc.devRef .tc main_v104))
    ∧ after I10a X (Proc.devRef .tc main_c_24) = X (Proc.devRef .tc main_c_24) := by
  refine ⟨?_, ?_, ?_⟩
  · part10
  · part10
  · after_results_simp

theorem s10b (X : Valuation τ sig (Elt Ideal)) (h0 : IsReal (s := S16) (X (Proc.devRef .tc main_call2_v0)))
    (h : IsReal (s := S1600000x16) (X (Proc.devRef .tc main_v104))) :
    IsNonneg (s := S1600000x16) (after I10b X (Proc.devRef .tc main_call2_v6))
    ∧ after I10b X (Proc.devRef .tc main_c_24) = X (Proc.devRef .tc main_c_24) := by
  refine ⟨?_, ?_⟩
  · part10
  · after_results_simp

theorem s10c (X : Valuation τ sig (Elt Ideal)) (h6 : IsNonneg (s := S1600000x16) (X (Proc.devRef .tc main_call2_v6)))
    (hc : X (Proc.devRef .tc main_c_24) = (constantI S_ 32 0#32 : S_.Idx → BitVec 32)) :
    IsPos (s := S_) (after I10c X (Proc.devRef .tc main_call2_v8)) ∧ IsNonneg (s := S16) (after I10c X (Proc.devRef .tc main_call2_v9)) := by
  have hp : IsPos (s := S_) (subf (constant (F := Ideal) S_ .f32 0x49C35000#32) (sitofp .f32 (constantI S_ 32 0#32))) :=
    IsPos.subf_zero (IsPos.constant ⟨1600000, by norm_num, ofBits_1600000⟩) sitofp_zero_apply
  refine ⟨?_, ?_⟩
  · after_results_simp
    simp only [TRef.toBuf, TRef.ofBuf, cast_cast, cast_eq]
    try dsimp only [Elt]
    rw [hc]
    exact hp
  · part10

theorem s10d (X : Valuation τ sig (Elt Ideal)) (h8 : IsPos (s := S_) (X (Proc.devRef .tc main_call2_v8)))
    (h9 : IsNonneg (s := S16) (X (Proc.devRef .tc main_call2_v9))) :
    IsNonneg (s := S16) (after I10d X (Proc.devRef .tc main_call2_v11)) ∧ IsPos (s := S_) (after I10d X (Proc.devRef .tc main_call2_v8)) := by
  refine ⟨?_, ?_⟩
  · part10
  · part10

theorem s10e (X : Valuation τ sig (Elt Ideal)) (h8 : IsPos (s := S_) (X (Proc.devRef .tc main_call2_v8)))
    (h11 : IsNonneg (s := S16) (X (Proc.devRef .tc main_call2_v11))) :
    IsNonneg (s := S16) (after I10e X (Proc.devRef .tc main_v108)) := by
  after_results_simp
  simp only [TRef.toBuf, TRef.ofBuf, cast_cast, cast_eq]
  try dsimp only [Elt]
  apply IsNonneg.select_of_one
  · exact broadcastInDim_one (cmpf_ogt_pos_zero h8 constant_zero_apply) _ _
  · exact h11

/-- Stretch 10 (a variance): from a real array and the integer zero, the guarded quotient — a sum of squares over a positive
    count, the guard true — is non-negative. -/
theorem s10 (X : Valuation τ sig (Elt Ideal)) (h : IsReal (s := S1600000x16) (X (Proc.devRef .tc main_v104)))
    (hc : X (Proc.devRef .tc main_c_24) = (constantI S_ 32 0#32 : S_.Idx → BitVec 32)) :
    IsNonneg (s := S16) (after I10 X (Proc.devRef .tc main_v108)) := by
  rw [I10_split, after_append, after_append, after_append, after_append]
  obtain ⟨a0, a, ea⟩ := s10a X h
  obtain ⟨b6, eb⟩ := s10b _ a0 a
  obtain ⟨c8, c9⟩ := s10c _ b6 (eb.trans (ea.trans hc))
  obtain ⟨d11, d8⟩ := s10d _ c8 c9
  exact s10e _ d8 d11

/-- Stretch 11: the logits are real. -/
theorem s11 (X : Valuation τ sig (Elt Ideal)) (h107 : IsReal (s := S16) (X (Proc.devRef .tc main_v107)))
    (h104 : IsReal (s := S1600000x16) (X (Proc.devRef .tc main_v104)))
    (h108 : IsNonneg (s := S16) (X (Proc.devRef .tc main_v108)))
    (h12 : IsReal (s := S16) (X (Proc.devRef .tc main_arg12))) (h13 : IsReal (s := S16) (X (Proc.devRef .tc main_arg13)))
    (h14 : IsReal (s := S16x8) (X (Proc.devRef .tc main_arg14))) (h15 : IsReal (s := S8) (X (Proc.devRef .tc main_arg15))) :
    IsReal (s := S1600000x8) (after I11 X (Proc.devRef .tc main_v127)) := by
  stage

/-- From launch contents whose float arguments are real arrays, the logits (the contents of `main_v127` after the
    twelfth stretch) are a real array. -/
theorem v127_real (V : Valuation τ sig (Elt Ideal))
    (h0 : IsReal (V (Proc.devRef .tc main_arg0) : S50000x128.Idx → EReal))
    (h1 : IsReal (V (Proc.devRef .tc main_arg1) : S1600000x32.Idx → EReal))
    (h4 : IsReal (V (Proc.devRef .tc main_arg4) : S128x16.Idx → EReal))
    (h5 : IsReal (V (Proc.devRef .tc main_arg5) : S16.Idx → EReal))
    (h6 : IsReal (V (Proc.devRef .tc main_arg6) : S16.Idx → EReal))
    (h7 : IsReal (V (Proc.devRef .tc main_arg7) : S16.Idx → EReal))
    (h8 : IsReal (V (Proc.devRef .tc main_arg8) : S16x64.Idx → EReal))
    (h9 : IsReal (V (Proc.devRef .tc main_arg9) : S64.Idx → EReal))
    (h10 : IsReal (V (Proc.devRef .tc main_arg10) : S160x16.Idx → EReal))
    (h11 : IsReal (V (Proc.devRef .tc main_arg11) : S16.Idx → EReal))
    (h12 : IsReal (V (Proc.devRef .tc main_arg12) : S16.Idx → EReal))
    (h13 : IsReal (V (Proc.devRef .tc main_arg13) : S16.Idx → EReal))
    (h14 : IsReal (V (Proc.devRef .tc main_arg14) : S16x8.Idx → EReal))
    (h15 : IsReal (V (Proc.devRef .tc main_arg15) : S8.Idx → EReal)) :
    IsReal (R12 V (Proc.devRef .tc main_v127) : S1600000x8.Idx → EReal) := by
  have A0 : ArgsReal V := ⟨h0, h1, h4, h5, h6, h7, h8, h9, h10, h11, h12, h13, h14, h15⟩
  have A1 : ArgsReal (R1 V) := A0.step I0_writes (by decide)
  have A2 : ArgsReal (R2 V) := A1.step I1_writes (by decide)
  have A3 : ArgsReal (R3 V) := A2.step I2_writes (by decide)
  have A4 : ArgsReal (R4 V) := A3.step I3_writes (by decide)
  have A5 : ArgsReal (R5 V) := A4.step I4_writes (by decide)
  have A6 : ArgsReal (R6 V) := A5.step I5_writes (by decide)
  have A7 : ArgsReal (R7 V) := A6.step I6_writes (by decide)
  have A8 : ArgsReal (R8 V) := A7.step I7_writes (by decide)
  have A9 : ArgsReal (R9 V) := A8.step I8_writes (by decide)
  have A10 : ArgsReal (R10 V) := A9.step I9_writes (by decide)
  have A11 : ArgsReal (R11 V) := A10.step I10_writes (by decide)
  obtain ⟨a15, a10⟩ := s0 V A0.arg0 A0.arg4
  have a32 := s1 (R1 V) a15 a10 A1.arg5
  have a33 := s2 (R2 V) a32
  obtain ⟨a36, c8⟩ := s3 (R3 V) a33
  have a33' : IsReal (s := S50000x16) (R4 V (Proc.devRef .tc main_v33)) := by
    show IsReal (s := S50000x16) (after I3 (R3 V) (Proc.devRef .tc main_v33))
    rw [after_of_writes_sub I3 (R3 V) I3_writes (by decide)]; exact a33
  have a37 := s4 (R4 V) a33' c8
  have a33'' : IsReal (s := S50000x16) (R5 V (Proc.devRef .tc main_v33)) := by
    show IsReal (s := S50000x16) (after I4 (R4 V) (Proc.devRef .tc main_v33))
    rw [after_of_writes_sub I4 (R4 V) I4_writes (by decide)]; exact a33'
  have a36' : IsReal (s := S16) (R5 V (Proc.devRef .tc main_v36)) := by
    show IsReal (s := S16) (after I4 (R4 V) (Proc.devRef .tc main_v36))
    rw [after_of_writes_sub I4 (R4 V) I4_writes (by decide)]; exact a36
  obtain ⟨a46, a47⟩ := s5 (R5 V) a36' a33'' a37 A5.arg6
  obtain ⟨a68, a63⟩ := s6 (R6 V) a47 a46 A6.arg7 A6.arg8
  obtain ⟨a92, a85⟩ := s7 (R7 V) a68 a63 A7.arg9
  have a104 := s8 (R8 V) a85 a92 A8.arg1 A8.arg10 A8.arg11
  obtain ⟨a107, c24⟩ := s9 (R9 V) a104
  have a104' : IsReal (s := S1600000x16) (R10 V (Proc.devRef .tc main_v104)) := by
    show IsReal (s := S1600000x16) (after I9 (R9 V) (Proc.devRef .tc main_v104))
    rw [after_of_writes_sub I9 (R9 V) I9_writes (by decide)]; exact a104
  have a108 := s10 (R10 V) a104' c24
  have a104'' : IsReal (s := S1600000x16) (R11 V (Proc.devRef .tc main_v104)) := by
    show IsReal (s := S1600000x16) (after I10 (R10 V) (Proc.devRef .tc main_v104))
    rw [after_of_writes_sub I10 (R10 V) I10_writes (by decide)]; exact a104'
  have a107' : IsReal (s := S16) (R11 V (Proc.devRef .tc main_v107)) := by
    show IsReal (s := S16) (after I10 (R10 V) (Proc.devRef .tc main_v107))
    rw [after_of_writes_sub I10 (R10 V) I10_writes (by decide)]; exact a107
  exact s11 (R11 V) a107' a104'' a108 A11.arg12 A11.arg13 A11.arg14 A11.arg15

end Cert.ReferenceIdeal.Real

end
-- ==== Proof.Bridge.lean ====
/-
  The two programs' results are one array. Region by region: each region of the kernel program, read as a value,
  meets the reference's corresponding stage read as a value — the two scaled projections of the graph
  convolutions, the edge predictor's first layer (three partial products against one product over the concatenated
  features: the sum over 160 coordinates split as 32 + 64 + 64), and its last stage, where the kernel's log-softmax
  `x − (m + log Σ exp(x_k − m))` meets the reference's `(x − m) − log Σ exp(x_k − m)` on rows of REAL logits — while
  between the regions both programs apply the same host operations to the same values.
-/
import proofs.«400428_j65575560675752_4_alg».proof.Proof.HostBridgeB
import proofs.«400428_j65575560675752_4_alg».proof.Proof.HostBridgeC
import proofs.«400428_j65575560675752_4_alg».proof.Proof.HostBridgeD
import proofs.«400428_j65575560675752_4_alg».proof.Proof.HostReads
import proofs.«400428_j65575560675752_4_alg».proof.Proof.Region0
import proofs.«400428_j65575560675752_4_alg».proof.Proof.Region1
import proofs.«400428_j65575560675752_4_alg».proof.Proof.Region2
import proofs.«400428_j65575560675752_4_alg».proof.Proof.Region3
import proofs.«400428_j65575560675752_4_alg».proof.Proof.RefRead
import proofs.«400428_j65575560675752_4_alg».proof.Proof.RefReal
import proofs.«400428_j65575560675752_4_alg».proof.Proof.Spec
import proofs.«400428_j65575560675752_4_alg».proof.Proof.LibReal

set_option maxRecDepth 16384
set_option maxHeartbeats 4000000

noncomputable section

open scoped BigOperators

namespace Cert.Bridge

open Idealize.ShloMosaic Idealize.ShloMosaic.TcCoe Idealize.SL.Sem Idealize.ShloMosaic.StableHlo Idealize.ShloMosaic.ValueIdx
open Idealize.ShloMosaic.RealArr Cert.Spec
open Cert.KernelIdeal.Gen Cert.ReferenceIdeal.Run Cert.ReferenceIdeal.Ops

variable (m : KMem) (ρ : Dev Cert.KernelIdeal.nD → PrngReg) (m' : RMem) (c : Dev Cert.KernelIdeal.nD) (hag : Agree m m' c)
include hag

/-- The first graph convolution's scaled projection: region 0's output is the reference's. -/
theorem proj1_eq :
    (W2 m ρ c (Proc.devRef .tc Cert.KernelIdeal.main_v16) : Cert.KernelIdeal.S50000x16.Idx → EReal) = R1 (VR m' c) (Proc.devRef .tc Cert.ReferenceIdeal.main_v15) := by
  funext i
  obtain ⟨p, q, rfl⟩ : ∃ (p : Fin 50000) (q : Fin 16), i = ix2 p q := ⟨i 0, i 1, eq_ix2 i⟩
  have hL : (W2 m ρ c (Proc.devRef .tc Cert.KernelIdeal.main_v16) : Cert.KernelIdeal.S50000x16.Idx → EReal) = Cert.KernelIdeal.Val0.outArr (V1 m ρ) c := W2_arr m ρ c 3
  have h0 : Cert.KernelIdeal.Val0.feat (V1 m ρ) c = Cert.ReferenceIdeal.Read.a0 (VR m' c) :=
    (Cert.KernelIdeal.Carry.args1 m ρ c Cert.KernelIdeal.main_arg0 (by decide)).trans hag.a0.symm
  have h4 : Cert.KernelIdeal.Val0.wgt (V1 m ρ) c = Cert.ReferenceIdeal.Read.a4 (VR m' c) :=
    (Cert.KernelIdeal.Carry.args1 m ρ c Cert.KernelIdeal.main_arg4 (by decide)).trans hag.a4.symm
  have hs : Cert.KernelIdeal.Val0.scl (V1 m ρ) c (ix2 p 0) = Cert.ReferenceIdeal.Read.o12 (VR m' c) (ix1 p) :=
    (Cert.KernelIdeal.Reads.sclCol_read (W0 m ρ c) p).trans (congrFun (rsOut_eq m ρ m' c hag) (ix1 p))
  rw [hL, Cert.KernelIdeal.Val0.region0_apply (V1 m ρ) c p q, h0, h4, hs]
  exact (Cert.ReferenceIdeal.Read.v15_apply (VR m' c) p q).symm

/-- The second graph convolution's scaled projection: region 1's output is the reference's, once the normalised hidden
    features are one array in both programs. -/
theorem proj2_eq
    (hC : (W7 m ρ c (Proc.devRef .tc Cert.KernelIdeal.main_v51) : Cert.KernelIdeal.S50000x16.Idx → EReal) = R7 (VR m' c) (Proc.devRef .tc Cert.ReferenceIdeal.main_v52)) :
    (W8 m ρ c (Proc.devRef .tc Cert.KernelIdeal.main_v53) : Cert.KernelIdeal.S50000x64.Idx → EReal) = R7 (VR m' c) (Proc.devRef .tc Cert.ReferenceIdeal.main_v68) := by
  funext i
  obtain ⟨p, q, rfl⟩ : ∃ (p : Fin 50000) (q : Fin 64), i = ix2 p q := ⟨i 0, i 1, eq_ix2 i⟩
  have hL : (W8 m ρ c (Proc.devRef .tc Cert.KernelIdeal.main_v53) : Cert.KernelIdeal.S50000x64.Idx → EReal) = Cert.KernelIdeal.Val1.outArr (V7 m ρ) c := W8_arr m ρ c 3
  have hf : Cert.KernelIdeal.Val1.feat (V7 m ρ) c = Cert.ReferenceIdeal.Read.o52 (R6 (VR m' c)) := hC
  have hw : Cert.KernelIdeal.Val1.wgt (V7 m ρ) c = Cert.ReferenceIdeal.Read.a8 (R6 (VR m' c)) := ((Cert.KernelIdeal.Carry.args7 m ρ c Cert.KernelIdeal.main_arg8 (by decide)).trans (hag.a8.symm.trans (Cert.ReferenceIdeal.Carry.args6 (VR m' c) Cert.ReferenceIdeal.main_arg8 (by decide)).symm))
  have hs : Cert.KernelIdeal.Val1.scl (V7 m ρ) c (ix2 p 0) = Cert.ReferenceIdeal.Read.o65 (R6 (VR m' c)) (ix1 p) :=
    (Cert.KernelIdeal.Reads.sclCol2_read (W6 m ρ c) p).trans ((congrFun (Cert.KernelIdeal.Carry.v12_at6 m ρ c) (ix1 p)).trans
      ((congrFun (rsOut_eq m ρ m' c hag) (ix1 p)).trans (congrFun (rsOut_again (VR m' c)) (ix1 p)).symm))
  rw [hL, Cert.KernelIdeal.Val1.region1_apply (V7 m ρ) c p q, hf, hw, hs]
  exact (Cert.ReferenceIdeal.Read.v68_apply (R6 (VR m' c)) p q).symm

/-- The edge predictor's first layer: region 2's output (three partial products plus the bias) is the reference's
    product over the concatenated features plus the bias, once the gathered rows are one array each in both programs. -/
theorem z_eq
    (hS : (W9 m ρ c (Proc.devRef .tc Cert.KernelIdeal.main_v79) : Cert.KernelIdeal.S1600000x64.Idx → EReal) = R8 (VR m' c) (Proc.devRef .tc Cert.ReferenceIdeal.main_v92))
    (hDd : (W9 m ρ c (Proc.devRef .tc Cert.KernelIdeal.main_v86) : Cert.KernelIdeal.S1600000x64.Idx → EReal) = R9 (VR m' c) (Proc.devRef .tc Cert.ReferenceIdeal.main_v99)) :
    (W10 m ρ c (Proc.devRef .tc Cert.KernelIdeal.main_v92) : Cert.KernelIdeal.S1600000x16.Idx → EReal) = R9 (VR m' c) (Proc.devRef .tc Cert.ReferenceIdeal.main_v104) := by
  funext i
  obtain ⟨e, j, rfl⟩ : ∃ (e : Fin 1600000) (j : Fin 16), i = ix2 e j := ⟨i 0, i 1, eq_ix2 i⟩
  have hL : (W10 m ρ c (Proc.devRef .tc Cert.KernelIdeal.main_v92) : Cert.KernelIdeal.S1600000x16.Idx → EReal) = Cert.KernelIdeal.Val2.outArr (V9 m ρ) c := W10_arr m ρ c 7
  have h1 : ∀ k, Cert.KernelIdeal.Val2.ef (V9 m ρ) c (ix2 e k) = Cert.ReferenceIdeal.Read.a1 (R8 (VR m' c)) (ix2 e k) := fun k =>
    (Cert.KernelIdeal.Reads.ef_read (W8 m ρ c) e k).trans (congrFun ((Cert.KernelIdeal.Carry.args8 m ρ c Cert.KernelIdeal.main_arg1 (by decide)).trans (hag.a1.symm.trans (Cert.ReferenceIdeal.Carry.args8 (VR m' c) Cert.ReferenceIdeal.main_arg1 (by decide)).symm)) (ix2 e k))
  have h10 : (W8 m ρ c (Proc.devRef .tc Cert.KernelIdeal.main_arg10) : Cert.KernelIdeal.S160x16.Idx → EReal) = Cert.ReferenceIdeal.Read.a10 (R8 (VR m' c)) := ((Cert.KernelIdeal.Carry.args8 m ρ c Cert.KernelIdeal.main_arg10 (by decide)).trans (hag.a10.symm.trans (Cert.ReferenceIdeal.Carry.args8 (VR m' c) Cert.ReferenceIdeal.main_arg10 (by decide)).symm))
  have hwe : ∀ k, Cert.KernelIdeal.Val2.we (V9 m ρ) c (ix2 k j) = Cert.ReferenceIdeal.Read.a10 (R8 (VR m' c)) (ix2 ⟨k.val, by omega⟩ j) := fun k =>
    (Cert.KernelIdeal.Reads.we_read (W8 m ρ c) k j).trans (congrFun h10 _)
  have hwhs : ∀ k, Cert.KernelIdeal.Val2.whs (V9 m ρ) c (ix2 k j) = Cert.ReferenceIdeal.Read.a10 (R8 (VR m' c)) (ix2 ⟨32 + k.val, by omega⟩ j) := fun k =>
    (Cert.KernelIdeal.Reads.whs_read (W8 m ρ c) k j).trans (congrFun h10 _)
  have hwhd : ∀ k, Cert.KernelIdeal.Val2.whd (V9 m ρ) c (ix2 k j) = Cert.ReferenceIdeal.Read.a10 (R8 (VR m' c)) (ix2 ⟨96 + k.val, by omega⟩ j) := fun k =>
    (Cert.KernelIdeal.Reads.whd_read (W8 m ρ c) k j).trans (congrFun h10 _)
  have hb : Cert.KernelIdeal.Val2.bias (V9 m ρ) c (ix2 0 j) = Cert.ReferenceIdeal.Read.a11 (R8 (VR m' c)) (ix1 j) :=
    (Cert.KernelIdeal.Reads.bias_read (W8 m ρ c) j).trans (congrFun ((Cert.KernelIdeal.Carry.args8 m ρ c Cert.KernelIdeal.main_arg11 (by decide)).trans (hag.a11.symm.trans (Cert.ReferenceIdeal.Carry.args8 (VR m' c) Cert.ReferenceIdeal.main_arg11 (by decide)).symm)) (ix1 j))
  have hhs : Cert.KernelIdeal.Val2.hs (V9 m ρ) c = Cert.ReferenceIdeal.Read.x92 (R8 (VR m' c)) := hS
  have hhd : Cert.KernelIdeal.Val2.hd (V9 m ρ) c = Cert.ReferenceIdeal.Read.o99 (R8 (VR m' c)) := hDd
  rw [hL, Cert.KernelIdeal.Val2.region2_apply (V9 m ρ) c e j, hhs, hhd, hb]
  simp only [h1, hwe, hwhs, hwhd]
  exact (Cert.ReferenceIdeal.Read.v104_apply (R8 (VR m' c)) e j).symm

/-- THE RESULT: region 3's output is the reference's log-softmax, when the float arguments are real arrays. -/
theorem result_eq
    (hr : IsReal (m ((c.tc : Thread Cert.KernelIdeal.nD Cert.KernelIdeal.τ).loc Cert.KernelIdeal.main_arg0) : Cert.KernelIdeal.S50000x128.Idx → EReal)
      ∧ IsReal (m ((c.tc : Thread Cert.KernelIdeal.nD Cert.KernelIdeal.τ).loc Cert.KernelIdeal.main_arg1) : Cert.KernelIdeal.S1600000x32.Idx → EReal)
      ∧ IsReal (m ((c.tc : Thread Cert.KernelIdeal.nD Cert.KernelIdeal.τ).loc Cert.KernelIdeal.main_arg4) : Cert.KernelIdeal.S128x16.Idx → EReal)
      ∧ IsReal (m ((c.tc : Thread Cert.KernelIdeal.nD Cert.KernelIdeal.τ).loc Cert.KernelIdeal.main_arg5) : Cert.KernelIdeal.S16.Idx → EReal)
      ∧ IsReal (m ((c.tc : Thread Cert.KernelIdeal.nD Cert.KernelIdeal.τ).loc Cert.KernelIdeal.main_arg6) : Cert.KernelIdeal.S16.Idx → EReal)
      ∧ IsReal (m ((c.tc : Thread Cert.KernelIdeal.nD Cert.KernelIdeal.τ).loc Cert.KernelIdeal.main_arg7) : Cert.KernelIdeal.S16.Idx → EReal)
      ∧ IsReal (m ((c.tc : Thread Cert.KernelIdeal.nD Cert.KernelIdeal.τ).loc Cert.KernelIdeal.main_arg8) : Cert.KernelIdeal.S16x64.Idx → EReal)
      ∧ IsReal (m ((c.tc : Thread Cert.KernelIdeal.nD Cert.KernelIdeal.τ).loc Cert.KernelIdeal.main_arg9) : Cert.KernelIdeal.S64.Idx → EReal)
      ∧ IsReal (m ((c.tc : Thread Cert.KernelIdeal.nD Cert.KernelIdeal.τ).loc Cert.KernelIdeal.main_arg10) : Cert.KernelIdeal.S160x16.Idx → EReal)
      ∧ IsReal (m ((c.tc : Thread Cert.KernelIdeal.nD Cert.KernelIdeal.τ).loc Cert.KernelIdeal.main_arg11) : Cert.KernelIdeal.S16.Idx → EReal)
      ∧ IsReal (m ((c.tc : Thread Cert.KernelIdeal.nD Cert.KernelIdeal.τ).loc Cert.KernelIdeal.main_arg12) : Cert.KernelIdeal.S16.Idx → EReal)
      ∧ IsReal (m ((c.tc : Thread Cert.KernelIdeal.nD Cert.KernelIdeal.τ).loc Cert.KernelIdeal.main_arg13) : Cert.KernelIdeal.S16.Idx → EReal)
      ∧ IsReal (m ((c.tc : Thread Cert.KernelIdeal.nD Cert.KernelIdeal.τ).loc Cert.KernelIdeal.main_arg14) : Cert.KernelIdeal.S16x8.Idx → EReal)
      ∧ IsReal (m ((c.tc : Thread Cert.KernelIdeal.nD Cert.KernelIdeal.τ).loc Cert.KernelIdeal.main_arg15) : Cert.KernelIdeal.S8.Idx → EReal)) :
    (W14 m ρ c (Proc.devRef .tc Cert.KernelIdeal.main_v103) : Cert.KernelIdeal.S1600000x8.Idx → EReal) = R13 (VR m' c) (Proc.devRef .tc Cert.ReferenceIdeal.main_v128) := by
  have hB := proj1_eq m ρ m' c hag
  have hC := h1_eq m ρ m' c hag hB
  have hD := proj2_eq m ρ m' c hag hC
  have hS := hs_eq m ρ m' c hag hD
  have hDd := hd_eq m ρ m' c hag hD
  have hF := z_eq m ρ m' c hag hS hDd
  have hM := mean_eq m ρ m' c hF
  have hVr := var_eq m ρ m' c hF
  obtain ⟨q0, q1, q4, q5, q6, q7, q8, q9, q10, q11, q12, q13, q14, q15⟩ := hr
  have hlogits : IsReal (R12 (VR m' c) (Proc.devRef .tc Cert.ReferenceIdeal.main_v127) : Cert.ReferenceIdeal.S1600000x8.Idx → EReal) :=
    Cert.ReferenceIdeal.Real.v127_real (VR m' c)
      (Eq.mpr (congrArg (IsReal (s := Cert.ReferenceIdeal.S50000x128)) hag.a0) q0)
      (Eq.mpr (congrArg (IsReal (s := Cert.ReferenceIdeal.S1600000x32)) hag.a1) q1)
      (Eq.mpr (congrArg (IsReal (s := Cert.ReferenceIdeal.S128x16)) hag.a4) q4)
      (Eq.mpr (congrArg (IsReal (s := Cert.ReferenceIdeal.S16)) hag.a5) q5)
      (Eq.mpr (congrArg (IsReal (s := Cert.ReferenceIdeal.S16)) hag.a6) q6)
      (Eq.mpr (congrArg (IsReal (s := Cert.ReferenceIdeal.S16)) hag.a7) q7)
      (Eq.mpr (congrArg (IsReal (s := Cert.ReferenceIdeal.S16x64)) hag.a8) q8)
      (Eq.mpr (congrArg (IsReal (s := Cert.ReferenceIdeal.S64)) hag.a9) q9)
      (Eq.mpr (congrArg (IsReal (s := Cert.ReferenceIdeal.S160x16)) hag.a10) q10)
      (Eq.mpr (congrArg (IsReal (s := Cert.ReferenceIdeal.S16)) hag.a11) q11)
      (Eq.mpr (congrArg (IsReal (s := Cert.ReferenceIdeal.S16)) hag.a12) q12)
      (Eq.mpr (congrArg (IsReal (s := Cert.ReferenceIdeal.S16)) hag.a13) q13)
      (Eq.mpr (congrArg (IsReal (s := Cert.ReferenceIdeal.S16x8)) hag.a14) q14)
      (Eq.mpr (congrArg (IsReal (s := Cert.ReferenceIdeal.S8)) hag.a15) q15)
  funext i
  obtain ⟨e, j, rfl⟩ : ∃ (e : Fin 1600000) (j : Fin 8), i = ix2 e j := ⟨i 0, i 1, eq_ix2 i⟩
  have hL : (W14 m ρ c (Proc.devRef .tc Cert.KernelIdeal.main_v103) : Cert.KernelIdeal.S1600000x8.Idx → EReal) = Cert.KernelIdeal.Val3.outArr (V13 m ρ) c := W14_arr m ρ c 7
  rw [hL, Cert.KernelIdeal.Val3.region3_apply (V13 m ρ) c e j]
  refine Eq.trans ?_ (Cert.ReferenceIdeal.Read.v128_apply (R12 (VR m' c)) e j).symm
  have hlog : ∀ k, Cert.KernelIdeal.Val3.logitK (V13 m ρ) c e k = Cert.ReferenceIdeal.Read.x127 (R12 (VR m' c)) (ix2 e k) := by
    intro k
    refine Eq.trans ?_ (Cert.ReferenceIdeal.Read.v127_apply (R11 (VR m' c)) e k).symm
    have hz : ∀ k', Cert.KernelIdeal.Val3.zpre (V13 m ρ) c (ix2 e k') = Cert.ReferenceIdeal.Read.x104 (R11 (VR m' c)) (ix2 e k') := fun k' =>
      congrFun ((Cert.KernelIdeal.Carry.v92_at13 m ρ c).trans (hF.trans (Cert.ReferenceIdeal.Carry.v104_at11 (VR m' c)).symm)) (ix2 e k')
    have hmu : ∀ k', Cert.KernelIdeal.Val3.mu (V13 m ρ) c (ix2 0 k') = Cert.ReferenceIdeal.Read.x107 (R11 (VR m' c)) (ix1 k') := fun k' =>
      (Cert.KernelIdeal.Reads.mu_read (W12 m ρ c) k').trans
        (congrFun ((Cert.KernelIdeal.Carry.v96_at12 m ρ c).trans (hM.trans (Cert.ReferenceIdeal.Carry.v107_at11 (VR m' c)).symm)) (ix1 k'))
    have hsg : ∀ k', Cert.KernelIdeal.Val3.sig2 (V13 m ρ) c (ix2 0 k') = Cert.ReferenceIdeal.Read.x108 (R11 (VR m' c)) (ix1 k') := fun k' =>
      (Cert.KernelIdeal.Reads.sig2_read (W12 m ρ c) k').trans (congrFun hVr (ix1 k'))
    have hga : ∀ k', Cert.KernelIdeal.Val3.gam (V13 m ρ) c (ix2 0 k') = Cert.ReferenceIdeal.Read.a12 (R11 (VR m' c)) (ix1 k') := fun k' =>
      (Cert.KernelIdeal.Reads.gam_read (W12 m ρ c) k').trans (congrFun ((Cert.KernelIdeal.Carry.args12 m ρ c Cert.KernelIdeal.main_arg12 (by decide)).trans (hag.a12.symm.trans (Cert.ReferenceIdeal.Carry.args11 (VR m' c) Cert.ReferenceIdeal.main_arg12 (by decide)).symm)) (ix1 k'))
    have hbe : ∀ k', Cert.KernelIdeal.Val3.bet (V13 m ρ) c (ix2 0 k') = Cert.ReferenceIdeal.Read.a13 (R11 (VR m' c)) (ix1 k') := fun k' =>
      (Cert.KernelIdeal.Reads.bet_read (W12 m ρ c) k').trans (congrFun ((Cert.KernelIdeal.Carry.args12 m ρ c Cert.KernelIdeal.main_arg13 (by decide)).trans (hag.a13.symm.trans (Cert.ReferenceIdeal.Carry.args11 (VR m' c) Cert.ReferenceIdeal.main_arg13 (by decide)).symm)) (ix1 k'))
    have hw : ∀ k', Cert.KernelIdeal.Val3.w2 (V13 m ρ) c (ix2 k' k) = Cert.ReferenceIdeal.Read.a14 (R11 (VR m' c)) (ix2 k' k) := fun k' =>
      congrFun ((Cert.KernelIdeal.Carry.args13 m ρ c Cert.KernelIdeal.main_arg14 (by decide)).trans (hag.a14.symm.trans (Cert.ReferenceIdeal.Carry.args11 (VR m' c) Cert.ReferenceIdeal.main_arg14 (by decide)).symm)) (ix2 k' k)
    have hb : Cert.KernelIdeal.Val3.b2 (V13 m ρ) c (ix2 0 k) = Cert.ReferenceIdeal.Read.a15 (R11 (VR m' c)) (ix1 k) :=
      (Cert.KernelIdeal.Reads.b2_read (W12 m ρ c) k).trans (congrFun ((Cert.KernelIdeal.Carry.args12 m ρ c Cert.KernelIdeal.main_arg15 (by decide)).trans (hag.a15.symm.trans (Cert.ReferenceIdeal.Carry.args11 (VR m' c) Cert.ReferenceIdeal.main_arg15 (by decide)).symm)) (ix1 k))
    unfold Cert.KernelIdeal.Val3.logitK
    simp only [hz, hmu, hsg, hga, hbe, hw, hb]
  rw [show (fun k => Cert.KernelIdeal.Val3.logitK (V13 m ρ) c e k) = fun k => Cert.ReferenceIdeal.Read.x127 (R12 (VR m' c)) (ix2 e k) from funext hlog]
  exact lsmK_eq_lsmR _ (fun k => hlogits (ix2 e k)) j

end Cert.Bridge

end
-- ==== Proof.lean ====
/-
  A three-layer graph network on 50 000 nodes and 1 600 000 edges — two degree-normalised graph convolutions (the first
  followed by relu and a batch normalisation) and an edge predictor (a linear layer over the edge features and the two
  endpoint embeddings, a batch normalisation, a second linear layer, a log-softmax over eight classes) — computed by
  a program of four TensorCore regions among host stretches, against the plain host program.
  On the extended reals the two compute one function of the arguments, under the precondition that every float
  argument is finite: the regions' matrix products are the host's contractions; the edge predictor's first layer as three
  partial products is the product over the concatenated features, the sum over its 160 coordinates split as
  32 + 64 + 64; changes of float format are the identity; every other stage is the same host operations on the same
  values. The one law that needs the precondition is the last: the kernel subtracts `m + log Σ exp(x_k − m)` from a
  logit `x` where the reference subtracts `m` and then the logarithm; the two agree when the row maximum `m` is a real
  number, and it is, because every stage keeps real arrays real (degrees are at least one, variances are sums of squares
  over a positive count, so every reciprocal square root is taken of a positive number).
  The frames of the two kernel programs are the generated ones; the reference's frame is its run as one straight line of
  host operations, with the result dropped.
-/
import proofs.«400428_j65575560675752_4_alg».proof.Defs
import proofs.«400428_j65575560675752_4_alg».proof.Proof.Gen.Kernel
import proofs.«400428_j65575560675752_4_alg».proof.Proof.Gen.Kernel.Skeleton
import proofs.«400428_j65575560675752_4_alg».proof.Proof.Gen.Kernel.Launch
import proofs.«400428_j65575560675752_4_alg».proof.Proof.Gen.Kernel.Points
import proofs.«400428_j65575560675752_4_alg».proof.Proof.Gen.Kernel.Frame
import proofs.«400428_j65575560675752_4_alg».proof.Proof.Gen.KernelIdeal
import proofs.«400428_j65575560675752_4_alg».proof.Proof.Gen.KernelIdeal.Skeleton
import proofs.«400428_j65575560675752_4_alg».proof.Proof.Gen.KernelIdeal.Launch
import proofs.«400428_j65575560675752_4_alg».proof.Proof.Gen.KernelIdeal.Points
import proofs.«400428_j65575560675752_4_alg».proof.Proof.Gen.KernelIdeal.Frame
import proofs.«400428_j65575560675752_4_alg».proof.Proof.Gen.ReferenceIdeal
import proofs.«400428_j65575560675752_4_alg».proof.Proof.Gen.Pre_finite_inputs
import proofs.«400428_j65575560675752_4_alg».proof.Proof.KernelRun
import proofs.«400428_j65575560675752_4_alg».proof.Proof.RefRun
import proofs.«400428_j65575560675752_4_alg».proof.Proof.RCarry
import proofs.«400428_j65575560675752_4_alg».proof.Proof.PreReal
import proofs.«400428_j65575560675752_4_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's run leaves every argument as launched: no host operation writes one. -/
theorem frame_ri : @Cert.frame_ReferenceIdeal Cert.ReferenceIdeal.Gen.facts Cert.Pre_finite_inputs.Gen.facts := by
  intro m' ρ' _
  refine (θ_run (Cert.ReferenceIdeal.defs (F := Ideal)) _ _).mono (fun r h c => ?_) (Cert.ReferenceIdeal.Run.run (F := Ideal) m' ρ')
  exact ⟨(h c Cert.ReferenceIdeal.main_arg0).trans (Cert.ReferenceIdeal.Carry.args13 (launchContents m' c) Cert.ReferenceIdeal.main_arg0 (by decide)),
    (h c Cert.ReferenceIdeal.main_arg1).trans (Cert.ReferenceIdeal.Carry.args13 (launchContents m' c) Cert.ReferenceIdeal.main_arg1 (by decide)),
    (h c Cert.ReferenceIdeal.main_arg2).trans (Cert.ReferenceIdeal.Carry.args13 (launchContents m' c) Cert.ReferenceIdeal.main_arg2 (by decide)),
    (h c Cert.ReferenceIdeal.main_arg3).trans (Cert.ReferenceIdeal.Carry.args13 (launchContents m' c) Cert.ReferenceIdeal.main_arg3 (by decide)),
    (h c Cert.ReferenceIdeal.main_arg4).trans (Cert.ReferenceIdeal.Carry.args13 (launchContents m' c) Cert.ReferenceIdeal.main_arg4 (by decide)),
    (h c Cert.ReferenceIdeal.main_arg5).trans (Cert.ReferenceIdeal.Carry.args13 (launchContents m' c) Cert.ReferenceIdeal.main_arg5 (by decide)),
    (h c Cert.ReferenceIdeal.main_arg6).trans (Cert.ReferenceIdeal.Carry.args13 (launchContents m' c) Cert.ReferenceIdeal.main_arg6 (by decide)),
    (h c Cert.ReferenceIdeal.main_arg7).trans (Cert.ReferenceIdeal.Carry.args13 (launchContents m' c) Cert.ReferenceIdeal.main_arg7 (by decide)),
    (h c Cert.ReferenceIdeal.main_arg8).trans (Cert.ReferenceIdeal.Carry.args13 (launchContents m' c) Cert.ReferenceIdeal.main_arg8 (by decide)),
    (h c Cert.ReferenceIdeal.main_arg9).trans (Cert.ReferenceIdeal.Carry.args13 (launchContents m' c) Cert.ReferenceIdeal.main_arg9 (by decide)),
    (h c Cert.ReferenceIdeal.main_arg10).trans (Cert.ReferenceIdeal.Carry.args13 (launchContents m' c) Cert.ReferenceIdeal.main_arg10 (by decide)),
    (h c Cert.ReferenceIdeal.main_arg11).trans (Cert.ReferenceIdeal.Carry.args13 (launchContents m' c) Cert.ReferenceIdeal.main_arg11 (by decide)),
    (h c Cert.ReferenceIdeal.main_arg12).trans (Cert.ReferenceIdeal.Carry.args13 (launchContents m' c) Cert.ReferenceIdeal.main_arg12 (by decide)),
    (h c Cert.ReferenceIdeal.main_arg13).trans (Cert.ReferenceIdeal.Carry.args13 (launchContents m' c) Cert.ReferenceIdeal.main_arg13 (by decide)),
    (h c Cert.ReferenceIdeal.main_arg14).trans (Cert.ReferenceIdeal.Carry.args13 (launchContents m' c) Cert.ReferenceIdeal.main_arg14 (by decide)),
    (h c Cert.ReferenceIdeal.main_arg15).trans (Cert.ReferenceIdeal.Carry.args13 (launchContents m' c) Cert.ReferenceIdeal.main_arg15 (by decide))⟩

/-- Both idealized programs run; the kernel program's result array is the reference's. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.ReferenceIdeal.Run.R13 (launchContents m' c) (Proc.devRef .tc Cert.ReferenceIdeal.main_v128), ?_, ?_⟩
  · refine (θ_run (Cert.KernelIdeal.defs (F := Ideal)) _ _).mono (fun r h c => ⟨(h c).1.trans ?_, (h c).2⟩)
      (Cert.KernelIdeal.RunV.run_value (F := Ideal) m ρ)
    exact Cert.Bridge.result_eq m ρ m' c ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2⟩
      (Cert.PreReal.args_real (hPre := Cert.Pre_finite_inputs.Gen.facts) m hpre c)
  · refine (θ_run (Cert.ReferenceIdeal.defs (F := Ideal)) _ _).mono (fun r h c => ?_) (Cert.ReferenceIdeal.Run.run (F := Ideal) m' ρ')
    exact ⟨h c Cert.ReferenceIdeal.main_v128,
    (h c Cert.ReferenceIdeal.main_arg0).trans (Cert.ReferenceIdeal.Carry.args13 (launchContents m' c) Cert.ReferenceIdeal.main_arg0 (by decide)),
    (h c Cert.ReferenceIdeal.main_arg1).trans (Cert.ReferenceIdeal.Carry.args13 (launchContents m' c) Cert.ReferenceIdeal.main_arg1 (by decide)),
    (h c Cert.ReferenceIdeal.main_arg2).trans (Cert.ReferenceIdeal.Carry.args13 (launchContents m' c) Cert.ReferenceIdeal.main_arg2 (by decide)),
    (h c Cert.ReferenceIdeal.main_arg3).trans (Cert.ReferenceIdeal.Carry.args13 (launchContents m' c) Cert.ReferenceIdeal.main_arg3 (by decide)),
    (h c Cert.ReferenceIdeal.main_arg4).trans (Cert.ReferenceIdeal.Carry.args13 (launchContents m' c) Cert.ReferenceIdeal.main_arg4 (by decide)),
    (h c Cert.ReferenceIdeal.main_arg5).trans (Cert.ReferenceIdeal.Carry.args13 (launchContents m' c) Cert.ReferenceIdeal.main_arg5 (by decide)),
    (h c Cert.ReferenceIdeal.main_arg6).trans (Cert.ReferenceIdeal.Carry.args13 (launchContents m' c) Cert.ReferenceIdeal.main_arg6 (by decide)),
    (h c Cert.ReferenceIdeal.main_arg7).trans (Cert.ReferenceIdeal.Carry.args13 (launchContents m' c) Cert.ReferenceIdeal.main_arg7 (by decide)),
    (h c Cert.ReferenceIdeal.main_arg8).trans (Cert.ReferenceIdeal.Carry.args13 (launchContents m' c) Cert.ReferenceIdeal.main_arg8 (by decide)),
    (h c Cert.ReferenceIdeal.main_arg9).trans (Cert.ReferenceIdeal.Carry.args13 (launchContents m' c) Cert.ReferenceIdeal.main_arg9 (by decide)),
    (h c Cert.ReferenceIdeal.main_arg10).trans (Cert.ReferenceIdeal.Carry.args13 (launchContents m' c) Cert.ReferenceIdeal.main_arg10 (by decide)),
    (h c Cert.ReferenceIdeal.main_arg11).trans (Cert.ReferenceIdeal.Carry.args13 (launchContents m' c) Cert.ReferenceIdeal.main_arg11 (by decide)),
    (h c Cert.ReferenceIdeal.main_arg12).trans (Cert.ReferenceIdeal.Carry.args13 (launchContents m' c) Cert.ReferenceIdeal.main_arg12 (by decide)),
    (h c Cert.ReferenceIdeal.main_arg13).trans (Cert.ReferenceIdeal.Carry.args13 (launchContents m' c) Cert.ReferenceIdeal.main_arg13 (by decide)),
    (h c Cert.ReferenceIdeal.main_arg14).trans (Cert.ReferenceIdeal.Carry.args13 (launchContents m' c) Cert.ReferenceIdeal.main_arg14 (by decide)),
    (h c Cert.ReferenceIdeal.main_arg15).trans (Cert.ReferenceIdeal.Carry.args13 (launchContents m' c) Cert.ReferenceIdeal.main_arg15 (by decide))⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
